-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S16x16x512 : Shape := ⟨3, ![16, 16, 512]⟩
abbrev S16 : Shape := ⟨1, ![16]⟩
abbrev S_ : Shape := ⟨0, ![]⟩
abbrev S1 : Shape := ⟨1, ![1]⟩
abbrev S1x16x512 : Shape := ⟨3, ![1, 16, 512]⟩
abbrev S16x512 : Shape := ⟨2, ![16, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S16x16x512, .f32⟩
  | .local _ .vmem, ⟨3, _⟩ => ⟨S16x16x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_12 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_11 : BitVec 32 := 16#32
  let v24 : BitVec 32 := Scalar.muli v19 c16_i32_11
  let v25 : BitVec 32 := Scalar.addi c0_i32_12 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v26 : BitVec 32 := Scalar.muli v5 c4_i32_13
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v28 : BitVec 32 := Scalar.muli v8 c1_i32_14
  let v29 : BitVec 32 := Scalar.addi v27 v28
  v29.toNat
def k0_dev2 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v30 : BitVec 32 := Scalar.muli v2 c16_i32_16
  let v31 : BitVec 32 := Scalar.addi c0_i32_17 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_18 : BitVec 32 := 4#32
  let v32 : BitVec 32 := Scalar.muli v22 c4_i32_18
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v34 : BitVec 32 := Scalar.muli v8 c1_i32_19
  let v35 : BitVec 32 := Scalar.addi v33 v34
  v35.toNat
def k0_off1 (d0 : Dev nD) (c0_i32_21 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32 : BitVec 32 := 256#32
  let v36 : BitVec 32 := Scalar.muli v18 c256_i32
  let v37 : BitVec 32 := Scalar.addi v36 c0_i32_21
  let c0_i32_31 : BitVec 32 := 0#32
  ![v37.toNat, 0]
def k0_dev3 (d0 : Dev nD) : Nat :=
  let c0_i32_26 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_25 : BitVec 32 := 16#32
  let v38 : BitVec 32 := Scalar.muli v19 c16_i32_25
  let v39 : BitVec 32 := Scalar.addi c0_i32_26 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_27 : BitVec 32 := 4#32
  let v40 : BitVec 32 := Scalar.muli v5 c4_i32_27
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v42 : BitVec 32 := Scalar.muli v8 c1_i32_28
  let v43 : BitVec 32 := Scalar.addi v41 v42
  v43.toNat
def k0_dev4 (d0 : Dev nD) : Nat :=
  let c0_i32_38 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_37 : BitVec 32 := 16#32
  let v53 : BitVec 32 := Scalar.muli v19 c16_i32_37
  let v54 : BitVec 32 := Scalar.addi c0_i32_38 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v55 : BitVec 32 := Scalar.muli v5 c4_i32_39
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v57 : BitVec 32 := Scalar.muli v8 c1_i32_40
  let v58 : BitVec 32 := Scalar.addi v56 v57
  v58.toNat
def k0_dev5 (d0 : Dev nD) : Nat :=
  let c0_i32_49 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_48 : BitVec 32 := 16#32
  let v68 : BitVec 32 := Scalar.muli v19 c16_i32_48
  let v69 : BitVec 32 := Scalar.addi c0_i32_49 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_50 : BitVec 32 := 4#32
  let v70 : BitVec 32 := Scalar.muli v5 c4_i32_50
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v72 : BitVec 32 := Scalar.muli v8 c1_i32_51
  let v73 : BitVec 32 := Scalar.addi v71 v72
  v73.toNat
def k0_dev6 (d0 : Dev nD) : Nat :=
  let c0_i32_59 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_58 : BitVec 32 := 16#32
  let v83 : BitVec 32 := Scalar.muli v19 c16_i32_58
  let v84 : BitVec 32 := Scalar.addi c0_i32_59 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v85 : BitVec 32 := Scalar.muli v5 c4_i32_60
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v87 : BitVec 32 := Scalar.muli v8 c1_i32_61
  let v88 : BitVec 32 := Scalar.addi v86 v87
  v88.toNat
def k0_dev7 (d0 : Dev nD) : Nat :=
  let c0_i32_70 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_69 : BitVec 32 := 16#32
  let v98 : BitVec 32 := Scalar.muli v19 c16_i32_69
  let v99 : BitVec 32 := Scalar.addi c0_i32_70 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_71 : BitVec 32 := 4#32
  let v100 : BitVec 32 := Scalar.muli v5 c4_i32_71
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v102 : BitVec 32 := Scalar.muli v8 c1_i32_72
  let v103 : BitVec 32 := Scalar.addi v101 v102
  v103.toNat
def k0_dev8 (d0 : Dev nD) : Nat :=
  let c0_i32_80 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_79 : BitVec 32 := 16#32
  let v113 : BitVec 32 := Scalar.muli v19 c16_i32_79
  let v114 : BitVec 32 := Scalar.addi c0_i32_80 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_81 : BitVec 32 := 4#32
  let v115 : BitVec 32 := Scalar.muli v5 c4_i32_81
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v117 : BitVec 32 := Scalar.muli v8 c1_i32_82
  let v118 : BitVec 32 := Scalar.addi v116 v117
  v118.toNat
def k0_dev9 (d0 : Dev nD) : Nat :=
  let c0_i32_90 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_89 : BitVec 32 := 16#32
  let v128 : BitVec 32 := Scalar.muli v19 c16_i32_89
  let v129 : BitVec 32 := Scalar.addi c0_i32_90 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_91 : BitVec 32 := 4#32
  let v130 : BitVec 32 := Scalar.muli v5 c4_i32_91
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v132 : BitVec 32 := Scalar.muli v8 c1_i32_92
  let v133 : BitVec 32 := Scalar.addi v131 v132
  v133.toNat
def k0_dev10 (d0 : Dev nD) : Nat :=
  let c0_i32_100 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_99 : BitVec 32 := 16#32
  let v143 : BitVec 32 := Scalar.muli v19 c16_i32_99
  let v144 : BitVec 32 := Scalar.addi c0_i32_100 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v145 : BitVec 32 := Scalar.muli v5 c4_i32_101
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v147 : BitVec 32 := Scalar.muli v8 c1_i32_102
  let v148 : BitVec 32 := Scalar.addi v146 v147
  v148.toNat
def k0_dev11 (d0 : Dev nD) : Nat :=
  let c0_i32_110 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_109 : BitVec 32 := 16#32
  let v158 : BitVec 32 := Scalar.muli v19 c16_i32_109
  let v159 : BitVec 32 := Scalar.addi c0_i32_110 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_111 : BitVec 32 := 4#32
  let v160 : BitVec 32 := Scalar.muli v5 c4_i32_111
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v162 : BitVec 32 := Scalar.muli v8 c1_i32_112
  let v163 : BitVec 32 := Scalar.addi v161 v162
  v163.toNat
def k0_dev12 (d0 : Dev nD) : Nat :=
  let c0_i32_120 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_119 : BitVec 32 := 16#32
  let v173 : BitVec 32 := Scalar.muli v19 c16_i32_119
  let v174 : BitVec 32 := Scalar.addi c0_i32_120 v173
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_121 : BitVec 32 := 4#32
  let v175 : BitVec 32 := Scalar.muli v5 c4_i32_121
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v177 : BitVec 32 := Scalar.muli v8 c1_i32_122
  let v178 : BitVec 32 := Scalar.addi v176 v177
  v178.toNat
def k0_dev13 (d0 : Dev nD) : Nat :=
  let c0_i32_130 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_129 : BitVec 32 := 16#32
  let v188 : BitVec 32 := Scalar.muli v19 c16_i32_129
  let v189 : BitVec 32 := Scalar.addi c0_i32_130 v188
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_131 : BitVec 32 := 4#32
  let v190 : BitVec 32 := Scalar.muli v5 c4_i32_131
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v192 : BitVec 32 := Scalar.muli v8 c1_i32_132
  let v193 : BitVec 32 := Scalar.addi v191 v192
  v193.toNat
def k0_dev14 (d0 : Dev nD) : Nat :=
  let c0_i32_140 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_139 : BitVec 32 := 16#32
  let v203 : BitVec 32 := Scalar.muli v19 c16_i32_139
  let v204 : BitVec 32 := Scalar.addi c0_i32_140 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_141 : BitVec 32 := 4#32
  let v205 : BitVec 32 := Scalar.muli v5 c4_i32_141
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v207 : BitVec 32 := Scalar.muli v8 c1_i32_142
  let v208 : BitVec 32 := Scalar.addi v206 v207
  v208.toNat
def k0_dev15 (d0 : Dev nD) : Nat :=
  let c0_i32_150 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_149 : BitVec 32 := 16#32
  let v218 : BitVec 32 := Scalar.muli v19 c16_i32_149
  let v219 : BitVec 32 := Scalar.addi c0_i32_150 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_151 : BitVec 32 := 4#32
  let v220 : BitVec 32 := Scalar.muli v5 c4_i32_151
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v222 : BitVec 32 := Scalar.muli v8 c1_i32_152
  let v223 : BitVec 32 := Scalar.addi v221 v222
  v223.toNat
def k0_dev16 (d0 : Dev nD) : Nat :=
  let c0_i32_160 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_159 : BitVec 32 := 16#32
  let v233 : BitVec 32 := Scalar.muli v19 c16_i32_159
  let v234 : BitVec 32 := Scalar.addi c0_i32_160 v233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_161 : BitVec 32 := 4#32
  let v235 : BitVec 32 := Scalar.muli v5 c4_i32_161
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v237 : BitVec 32 := Scalar.muli v8 c1_i32_162
  let v238 : BitVec 32 := Scalar.addi v236 v237
  v238.toNat
def k0_dev17 (d0 : Dev nD) : Nat :=
  let c0_i32_170 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_169 : BitVec 32 := 16#32
  let v248 : BitVec 32 := Scalar.muli v19 c16_i32_169
  let v249 : BitVec 32 := Scalar.addi c0_i32_170 v248
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v250 : BitVec 32 := Scalar.muli v5 c4_i32_171
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v252 : BitVec 32 := Scalar.muli v8 c1_i32_172
  let v253 : BitVec 32 := Scalar.addi v251 v252
  v253.toNat
def k0_dev18 (d0 : Dev nD) : Nat :=
  let c0_i32_180 : BitVec 32 := 0#32
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_7 v2
  let c16_i32_179 : BitVec 32 := 16#32
  let v263 : BitVec 32 := Scalar.muli v19 c16_i32_179
  let v264 : BitVec 32 := Scalar.addi c0_i32_180 v263
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_181 : BitVec 32 := 4#32
  let v265 : BitVec 32 := Scalar.muli v5 c4_i32_181
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v267 : BitVec 32 := Scalar.muli v8 c1_i32_182
  let v268 : BitVec 32 := Scalar.addi v266 v267
  v268.toNat
def k0_dev19 (d0 : Dev nD) : Nat :=
  let c0_i32_201 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_200 : BitVec 32 := 16#32
  let v287 : BitVec 32 := Scalar.muli v2 c16_i32_200
  let v288 : BitVec 32 := Scalar.addi c0_i32_201 v287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_202 : BitVec 32 := 4#32
  let v289 : BitVec 32 := Scalar.muli v22 c4_i32_202
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v291 : BitVec 32 := Scalar.muli v8 c1_i32_203
  let v292 : BitVec 32 := Scalar.addi v290 v291
  v292.toNat
def k0_off2 (d0 : Dev nD) (c0_i32_209 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_208 : BitVec 32 := 256#32
  let v301 : BitVec 32 := Scalar.muli v18 c256_i32_208
  let v302 : BitVec 32 := Scalar.addi v301 c0_i32_209
  let v303 : Index := Scalar.indexCast v302
  let c0 : Index := 0#32
  ![v303.toNat, 0]
def k0_dev20 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v324 : BitVec 32 := Scalar.muli v2 c16_i32_230
  let v325 : BitVec 32 := Scalar.addi c0_i32_231 v324
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_232 : BitVec 32 := 4#32
  let v326 : BitVec 32 := Scalar.muli v22 c4_i32_232
  let v327 : BitVec 32 := Scalar.addi v325 v326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v328 : BitVec 32 := Scalar.muli v8 c1_i32_233
  let v329 : BitVec 32 := Scalar.addi v327 v328
  v329.toNat
def k0_dev21 (d0 : Dev nD) : Nat :=
  let c0_i32_261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_260 : BitVec 32 := 16#32
  let v361 : BitVec 32 := Scalar.muli v2 c16_i32_260
  let v362 : BitVec 32 := Scalar.addi c0_i32_261 v361
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_262 : BitVec 32 := 4#32
  let v363 : BitVec 32 := Scalar.muli v22 c4_i32_262
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_263 : BitVec 32 := 1#32
  let v365 : BitVec 32 := Scalar.muli v8 c1_i32_263
  let v366 : BitVec 32 := Scalar.addi v364 v365
  v366.toNat
def k0_dev22 (d0 : Dev nD) : Nat :=
  let c0_i32_291 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_290 : BitVec 32 := 16#32
  let v398 : BitVec 32 := Scalar.muli v2 c16_i32_290
  let v399 : BitVec 32 := Scalar.addi c0_i32_291 v398
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_292 : BitVec 32 := 4#32
  let v400 : BitVec 32 := Scalar.muli v22 c4_i32_292
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v402 : BitVec 32 := Scalar.muli v8 c1_i32_293
  let v403 : BitVec 32 := Scalar.addi v401 v402
  v403.toNat
def k0_dev23 (d0 : Dev nD) : Nat :=
  let c0_i32_321 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_320 : BitVec 32 := 16#32
  let v435 : BitVec 32 := Scalar.muli v2 c16_i32_320
  let v436 : BitVec 32 := Scalar.addi c0_i32_321 v435
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_322 : BitVec 32 := 4#32
  let v437 : BitVec 32 := Scalar.muli v22 c4_i32_322
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v439 : BitVec 32 := Scalar.muli v8 c1_i32_323
  let v440 : BitVec 32 := Scalar.addi v438 v439
  v440.toNat
def k0_dev24 (d0 : Dev nD) : Nat :=
  let c0_i32_351 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_350 : BitVec 32 := 16#32
  let v472 : BitVec 32 := Scalar.muli v2 c16_i32_350
  let v473 : BitVec 32 := Scalar.addi c0_i32_351 v472
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_352 : BitVec 32 := 4#32
  let v474 : BitVec 32 := Scalar.muli v22 c4_i32_352
  let v475 : BitVec 32 := Scalar.addi v473 v474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v476 : BitVec 32 := Scalar.muli v8 c1_i32_353
  let v477 : BitVec 32 := Scalar.addi v475 v476
  v477.toNat
def k0_dev25 (d0 : Dev nD) : Nat :=
  let c0_i32_381 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_380 : BitVec 32 := 16#32
  let v509 : BitVec 32 := Scalar.muli v2 c16_i32_380
  let v510 : BitVec 32 := Scalar.addi c0_i32_381 v509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_382 : BitVec 32 := 4#32
  let v511 : BitVec 32 := Scalar.muli v22 c4_i32_382
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v513 : BitVec 32 := Scalar.muli v8 c1_i32_383
  let v514 : BitVec 32 := Scalar.addi v512 v513
  v514.toNat
def k0_dev26 (d0 : Dev nD) : Nat :=
  let c0_i32_411 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_410 : BitVec 32 := 16#32
  let v546 : BitVec 32 := Scalar.muli v2 c16_i32_410
  let v547 : BitVec 32 := Scalar.addi c0_i32_411 v546
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_412 : BitVec 32 := 4#32
  let v548 : BitVec 32 := Scalar.muli v22 c4_i32_412
  let v549 : BitVec 32 := Scalar.addi v547 v548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v550 : BitVec 32 := Scalar.muli v8 c1_i32_413
  let v551 : BitVec 32 := Scalar.addi v549 v550
  v551.toNat
def k0_dev27 (d0 : Dev nD) : Nat :=
  let c0_i32_441 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_440 : BitVec 32 := 16#32
  let v583 : BitVec 32 := Scalar.muli v2 c16_i32_440
  let v584 : BitVec 32 := Scalar.addi c0_i32_441 v583
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_442 : BitVec 32 := 4#32
  let v585 : BitVec 32 := Scalar.muli v22 c4_i32_442
  let v586 : BitVec 32 := Scalar.addi v584 v585
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v587 : BitVec 32 := Scalar.muli v8 c1_i32_443
  let v588 : BitVec 32 := Scalar.addi v586 v587
  v588.toNat
def k0_dev28 (d0 : Dev nD) : Nat :=
  let c0_i32_471 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_470 : BitVec 32 := 16#32
  let v620 : BitVec 32 := Scalar.muli v2 c16_i32_470
  let v621 : BitVec 32 := Scalar.addi c0_i32_471 v620
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_472 : BitVec 32 := 4#32
  let v622 : BitVec 32 := Scalar.muli v22 c4_i32_472
  let v623 : BitVec 32 := Scalar.addi v621 v622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v624 : BitVec 32 := Scalar.muli v8 c1_i32_473
  let v625 : BitVec 32 := Scalar.addi v623 v624
  v625.toNat
def k0_dev29 (d0 : Dev nD) : Nat :=
  let c0_i32_501 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_500 : BitVec 32 := 16#32
  let v657 : BitVec 32 := Scalar.muli v2 c16_i32_500
  let v658 : BitVec 32 := Scalar.addi c0_i32_501 v657
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_502 : BitVec 32 := 4#32
  let v659 : BitVec 32 := Scalar.muli v22 c4_i32_502
  let v660 : BitVec 32 := Scalar.addi v658 v659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v661 : BitVec 32 := Scalar.muli v8 c1_i32_503
  let v662 : BitVec 32 := Scalar.addi v660 v661
  v662.toNat
def k0_dev30 (d0 : Dev nD) : Nat :=
  let c0_i32_531 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_530 : BitVec 32 := 16#32
  let v694 : BitVec 32 := Scalar.muli v2 c16_i32_530
  let v695 : BitVec 32 := Scalar.addi c0_i32_531 v694
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_532 : BitVec 32 := 4#32
  let v696 : BitVec 32 := Scalar.muli v22 c4_i32_532
  let v697 : BitVec 32 := Scalar.addi v695 v696
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_533 : BitVec 32 := 1#32
  let v698 : BitVec 32 := Scalar.muli v8 c1_i32_533
  let v699 : BitVec 32 := Scalar.addi v697 v698
  v699.toNat
def k0_dev31 (d0 : Dev nD) : Nat :=
  let c0_i32_561 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_560 : BitVec 32 := 16#32
  let v731 : BitVec 32 := Scalar.muli v2 c16_i32_560
  let v732 : BitVec 32 := Scalar.addi c0_i32_561 v731
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_562 : BitVec 32 := 4#32
  let v733 : BitVec 32 := Scalar.muli v22 c4_i32_562
  let v734 : BitVec 32 := Scalar.addi v732 v733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_563 : BitVec 32 := 1#32
  let v735 : BitVec 32 := Scalar.muli v8 c1_i32_563
  let v736 : BitVec 32 := Scalar.addi v734 v735
  v736.toNat
def k0_dev32 (d0 : Dev nD) : Nat :=
  let c0_i32_591 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_590 : BitVec 32 := 16#32
  let v768 : BitVec 32 := Scalar.muli v2 c16_i32_590
  let v769 : BitVec 32 := Scalar.addi c0_i32_591 v768
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_592 : BitVec 32 := 4#32
  let v770 : BitVec 32 := Scalar.muli v22 c4_i32_592
  let v771 : BitVec 32 := Scalar.addi v769 v770
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_593 : BitVec 32 := 1#32
  let v772 : BitVec 32 := Scalar.muli v8 c1_i32_593
  let v773 : BitVec 32 := Scalar.addi v771 v772
  v773.toNat
def k0_dev33 (d0 : Dev nD) : Nat :=
  let c0_i32_621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_620 : BitVec 32 := 16#32
  let v805 : BitVec 32 := Scalar.muli v2 c16_i32_620
  let v806 : BitVec 32 := Scalar.addi c0_i32_621 v805
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_622 : BitVec 32 := 4#32
  let v807 : BitVec 32 := Scalar.muli v22 c4_i32_622
  let v808 : BitVec 32 := Scalar.addi v806 v807
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_623 : BitVec 32 := 1#32
  let v809 : BitVec 32 := Scalar.muli v8 c1_i32_623
  let v810 : BitVec 32 := Scalar.addi v808 v809
  v810.toNat
def k0_dev34 (d0 : Dev nD) : Nat :=
  let c0_i32_651 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_650 : BitVec 32 := 16#32
  let v842 : BitVec 32 := Scalar.muli v2 c16_i32_650
  let v843 : BitVec 32 := Scalar.addi c0_i32_651 v842
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c2_i32_9 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v21 : BitVec 32 := Scalar.muli c2_i32_9 v18
  let v22 : BitVec 32 := Scalar.subi v20 v21
  let c4_i32_652 : BitVec 32 := 4#32
  let v844 : BitVec 32 := Scalar.muli v22 c4_i32_652
  let v845 : BitVec 32 := Scalar.addi v843 v844
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_653 : BitVec 32 := 1#32
  let v846 : BitVec 32 := Scalar.muli v8 c1_i32_653
  let v847 : BitVec 32 := Scalar.addi v845 v846
  v847.toNat
def k0_off3 (d0 : Dev nD) (c0_i32_680 : BitVec 32) : Fin 2 → Nat :=
  let c1_i32_678 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v880 : BitVec 32 := Scalar.subi c1_i32_678 v18
  let c256_i32_679 : BitVec 32 := 256#32
  let v881 : BitVec 32 := Scalar.muli v880 c256_i32_679
  let v882 : BitVec 32 := Scalar.addi v881 c0_i32_680
  let v883 : Index := Scalar.indexCast v882
  let c0_681 : Index := 0#32
  ![v883.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S16x16x512_S1x16x512_0_0_0 : ∀ a, (![0, 0, 0] : Fin 3 → Nat) a + S1x16x512.size a ≤ S16x16x512.size a
  squeezes_S1x16x512_S16x512 : S1x16x512.Squeezes S16x512
  inb_S16_S1_1 : ∀ a, (![1] : Fin 1 → Nat) a + S1.size a ≤ S16.size a
  inb_S16x16x512_S1x16x512_1_0_0 : ∀ a, (![1, 0, 0] : Fin 3 → Nat) a + S1x16x512.size a ≤ S16x16x512.size a
  inb_S16_S1_2 : ∀ a, (![2] : Fin 1 → Nat) a + S1.size a ≤ S16.size a
  inb_S16x16x512_S1x16x512_2_0_0 : ∀ a, (![2, 0, 0] : Fin 3 → Nat) a + S1x16x512.size a ≤ S16x16x512.size a
  inb_S16_S1_3 : ∀ a, (![3] : Fin 1 → Nat) a + S1.size a ≤ S16.size a
  inb_S16x16x512_S1x16x512_3_0_0 : ∀ a, (![3, 0, 0] : Fin 3 → Nat) a + S1x16x512.size a ≤ S16x16x512.size a
  inb_S16_S1_4 : ∀ a, (![4] : Fin 1 → Nat) a + S1.size a ≤ S16.size a
  inb_S16x16x512_S1x16x512_4_0_0 : ∀ a, (![4, 0, 0] : Fin 3 → Nat) a + S1x16x512.size a ≤ S16x16x512.size a
  inb_S16_S1_5 : ∀ a, (![5] : Fin 1 → Nat) a + S1.size a ≤ S16.size a
  inb_S16x16x512_S1x16x512_5_0_0 : ∀ a, (![5, 0, 0] : Fin 3 → Nat) a + S1x16x512.size a ≤ S16x16x512.size a
  inb_S16_S1_6 : ∀ a, (![6] : Fin 1 → Nat) a + S1.size a ≤ S16.size a
  inb_S16x16x512_S1x16x512_6_0_0 : ∀ a, (![6, 0, 0] : Fin 3 → Nat) a + S1x16x512.size a ≤ S16x16x512.size a
  inb_S16_S1_7 : ∀ a, (![7] : Fin 1 → Nat) a + S1.size a ≤ S16.size a
  inb_S16x16x512_S1x16x512_7_0_0 : ∀ a, (![7, 0, 0] : Fin 3 → Nat) a + S1x16x512.size a ≤ S16x16x512.size a
  inb_S16_S1_8 : ∀ a, (![8] : Fin 1 → Nat) a + S1.size a ≤ S16.size a
  inb_S16x16x512_S1x16x512_8_0_0 : ∀ a, (![8, 0, 0] : Fin 3 → Nat) a + S1x16x512.size a ≤ S16x16x512.size a
  inb_S16_S1_9 : ∀ a, (![9] : Fin 1 → Nat) a + S1.size a ≤ S16.size a
  inb_S16x16x512_S1x16x512_9_0_0 : ∀ a, (![9, 0, 0] : Fin 3 → Nat) a + S1x16x512.size a ≤ S16x16x512.size a
  inb_S16_S1_10 : ∀ a, (![10] : Fin 1 → Nat) a + S1.size a ≤ S16.size a
  inb_S16x16x512_S1x16x512_10_0_0 : ∀ a, (![10, 0, 0] : Fin 3 → Nat) a + S1x16x512.size a ≤ S16x16x512.size a
  inb_S16_S1_11 : ∀ a, (![11] : Fin 1 → Nat) a + S1.size a ≤ S16.size a
  inb_S16x16x512_S1x16x512_11_0_0 : ∀ a, (![11, 0, 0] : Fin 3 → Nat) a + S1x16x512.size a ≤ S16x16x512.size a
  inb_S16_S1_12 : ∀ a, (![12] : Fin 1 → Nat) a + S1.size a ≤ S16.size a
  inb_S16x16x512_S1x16x512_12_0_0 : ∀ a, (![12, 0, 0] : Fin 3 → Nat) a + S1x16x512.size a ≤ S16x16x512.size a
  inb_S16_S1_13 : ∀ a, (![13] : Fin 1 → Nat) a + S1.size a ≤ S16.size a
  inb_S16x16x512_S1x16x512_13_0_0 : ∀ a, (![13, 0, 0] : Fin 3 → Nat) a + S1x16x512.size a ≤ S16x16x512.size a
  inb_S16_S1_14 : ∀ a, (![14] : Fin 1 → Nat) a + S1.size a ≤ S16.size a
  inb_S16x16x512_S1x16x512_14_0_0 : ∀ a, (![14, 0, 0] : Fin 3 → Nat) a + S1x16x512.size a ≤ S16x16x512.size a
  inb_S16_S1_15 : ∀ a, (![15] : Fin 1 → Nat) a + S1.size a ≤ S16.size a
  inb_S16x16x512_S1x16x512_15_0_0 : ∀ a, (![15, 0, 0] : Fin 3 → Nat) a + S1x16x512.size a ≤ S16x16x512.size a
  h_S16x512 : 0 < S16x512.numel
  shapeCasts_S16x512_S16x512 : S16x512.ShapeCasts S16x512
  h_S1x16x512 : 0 < S1x16x512.numel
  shapeCasts_S1x16x512_S16x512 : S1x16x512.ShapeCasts S16x512
  hcc0_scratch2 : 2 + S16.numel ≤ 66
  hcc0_scratch3 : 18 + S16.numel ≤ 66
  hcc0_scratch4 : 34 + S16.numel ≤ 66
  hcc0_scratch5 : 50 + S16.numel ≤ 66
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (16 * r.val))) a + S16x512.size a ≤ S512x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off2_inb : ∀ d0 : Dev nD, ∀ (r : Fin 16), ∀ a, (k0_off2 d0 (BitVec.ofNat 32 (16 * r.val))) a + S16x512.size a ≤ S512x512.size a
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ (r : Fin 16), ∀ a, (k0_off3 d0 (BitVec.ofNat 32 (16 * r.val))) a + S16x512.size a ≤ S512x512.size a
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3
abbrev cc0_scratch4 : DmaSems sig S16 := SemArray.consecutive 34 S16 hcc0_scratch4
abbrev cc0_scratch5 : DmaSems sig S16 := SemArray.consecutive 50 S16 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x512, .f32⟩
  | .hbm, ⟨2, _⟩ => ⟨S_, .f32⟩
  | .hbm, ⟨3, _⟩ => ⟨S512x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1024x512_S2x512x512 : S1024x512.ShapeCasts S2x512x512
  reducesTo_S2x512x512_S512x512_d0 : S2x512x512.ReducesTo [0] S512x512
  h_S_ : 0 < S_.numel

variable [Facts₀]

class Facts : Prop extends Facts₀ where

variable [Facts]
-- ==== Proof.Mesh.lean ====
/- The mesh's arithmetic. Device `c` sits at (c / 16, c / 4 % 4, c % 4) of the 2 × 4 × 4 mesh. Its partner along the
   first axis, `xp c`, has the other first coordinate; its partner along the second axis, `yp c`, is the other
   member of its pair {0,1} or {2,3} of second coordinates. `hh c` is the parity of the second coordinate: it says which
   half of the rows device `c` reduces first. The kernel's device chains and row offsets in closed form. -/
import proofs.«900724_g7700000000000725_dist_ar_v7x_xyz2x4x4_x_m512_n512_f32_1_alg».proof.Proof.Gen.KernelIdeal

set_option Elab.async false

namespace Cert.KernelIdeal.Mesh

open Idealize.ShloMosaic Cert.KernelIdeal Cert.KernelIdeal.Gen

/-- The partner along the first mesh axis. -/
def xp (c : Dev nD) : Dev nD := ⟨(c.val + 16) % 32, Nat.mod_lt _ (by decide)⟩
/-- The partner along the second mesh axis: second coordinate 0 ↔ 1, 2 ↔ 3. -/
def yp (c : Dev nD) : Dev nD := ⟨if (c.val / 4) % 2 = 0 then (c.val + 4) % 32 else (c.val + 28) % 32, by split <;> exact Nat.mod_lt _ (by decide)⟩
/-- The parity of the second mesh coordinate. -/
def hh (c : Dev nD) : ℕ := (c.val / 4) % 2

theorem xp_xp (c : Dev nD) : xp (xp c) = c := by revert c; decide
theorem yp_yp (c : Dev nD) : yp (yp c) = c := by revert c; decide
theorem hh_xp (c : Dev nD) : hh (xp c) = hh c := by revert c; decide
theorem hh_yp (c : Dev nD) : hh (yp c) = 1 - hh c := by revert c; decide
theorem hh_le (c : Dev nD) : hh c ≤ 1 := by revert c; decide
theorem xp_yp (c : Dev nD) : xp (yp c) = yp (xp c) := by revert c; decide
/-- The first mesh coordinate of the partner is the other one. -/
theorem xp_div (c : Dev nD) : (xp c).val / 16 + c.val / 16 = 1 := by revert c; decide
theorem yp_div (c : Dev nD) : (yp c).val / 16 = c.val / 16 := by revert c; decide

/-! ## The device chains in closed form

Each device chain of the kernel recomputes the mesh coordinates (c / 16, c / 4 % 4, c % 4) of device `c`, changes one
of them, and reassembles the logical id. Seventeen chains replace the first coordinate `x` by `1 - x`: the result is
`xp c`. Seventeen replace the second coordinate `y` by `y + 1 - 2 * (y % 2)`, its neighbour inside the pair {0,1} or
{2,3}: the result is `yp c`. Each equation is checked at the 32 devices. -/

theorem dev1_eq (c : Dev nD) : (⟨k0_dev1 c, k0_dev1_lt c⟩ : Dev nD) = xp c := by revert c; decide +kernel
theorem dev3_eq (c : Dev nD) : (⟨k0_dev3 c, k0_dev3_lt c⟩ : Dev nD) = xp c := by revert c; decide +kernel
theorem dev4_eq (c : Dev nD) : (⟨k0_dev4 c, k0_dev4_lt c⟩ : Dev nD) = xp c := by revert c; decide +kernel
theorem dev5_eq (c : Dev nD) : (⟨k0_dev5 c, k0_dev5_lt c⟩ : Dev nD) = xp c := by revert c; decide +kernel
theorem dev6_eq (c : Dev nD) : (⟨k0_dev6 c, k0_dev6_lt c⟩ : Dev nD) = xp c := by revert c; decide +kernel
theorem dev7_eq (c : Dev nD) : (⟨k0_dev7 c, k0_dev7_lt c⟩ : Dev nD) = xp c := by revert c; decide +kernel
theorem dev8_eq (c : Dev nD) : (⟨k0_dev8 c, k0_dev8_lt c⟩ : Dev nD) = xp c := by revert c; decide +kernel
theorem dev9_eq (c : Dev nD) : (⟨k0_dev9 c, k0_dev9_lt c⟩ : Dev nD) = xp c := by revert c; decide +kernel
theorem dev10_eq (c : Dev nD) : (⟨k0_dev10 c, k0_dev10_lt c⟩ : Dev nD) = xp c := by revert c; decide +kernel
theorem dev11_eq (c : Dev nD) : (⟨k0_dev11 c, k0_dev11_lt c⟩ : Dev nD) = xp c := by revert c; decide +kernel
theorem dev12_eq (c : Dev nD) : (⟨k0_dev12 c, k0_dev12_lt c⟩ : Dev nD) = xp c := by revert c; decide +kernel
theorem dev13_eq (c : Dev nD) : (⟨k0_dev13 c, k0_dev13_lt c⟩ : Dev nD) = xp c := by revert c; decide +kernel
theorem dev14_eq (c : Dev nD) : (⟨k0_dev14 c, k0_dev14_lt c⟩ : Dev nD) = xp c := by revert c; decide +kernel
theorem dev15_eq (c : Dev nD) : (⟨k0_dev15 c, k0_dev15_lt c⟩ : Dev nD) = xp c := by revert c; decide +kernel
theorem dev16_eq (c : Dev nD) : (⟨k0_dev16 c, k0_dev16_lt c⟩ : Dev nD) = xp c := by revert c; decide +kernel
theorem dev17_eq (c : Dev nD) : (⟨k0_dev17 c, k0_dev17_lt c⟩ : Dev nD) = xp c := by revert c; decide +kernel
theorem dev18_eq (c : Dev nD) : (⟨k0_dev18 c, k0_dev18_lt c⟩ : Dev nD) = xp c := by revert c; decide +kernel

theorem dev2_eq (c : Dev nD) : (⟨k0_dev2 c, k0_dev2_lt c⟩ : Dev nD) = yp c := by revert c; decide +kernel
theorem dev19_eq (c : Dev nD) : (⟨k0_dev19 c, k0_dev19_lt c⟩ : Dev nD) = yp c := by revert c; decide +kernel
theorem dev20_eq (c : Dev nD) : (⟨k0_dev20 c, k0_dev20_lt c⟩ : Dev nD) = yp c := by revert c; decide +kernel
theorem dev21_eq (c : Dev nD) : (⟨k0_dev21 c, k0_dev21_lt c⟩ : Dev nD) = yp c := by revert c; decide +kernel
theorem dev22_eq (c : Dev nD) : (⟨k0_dev22 c, k0_dev22_lt c⟩ : Dev nD) = yp c := by revert c; decide +kernel
theorem dev23_eq (c : Dev nD) : (⟨k0_dev23 c, k0_dev23_lt c⟩ : Dev nD) = yp c := by revert c; decide +kernel
theorem dev24_eq (c : Dev nD) : (⟨k0_dev24 c, k0_dev24_lt c⟩ : Dev nD) = yp c := by revert c; decide +kernel
theorem dev25_eq (c : Dev nD) : (⟨k0_dev25 c, k0_dev25_lt c⟩ : Dev nD) = yp c := by revert c; decide +kernel
theorem dev26_eq (c : Dev nD) : (⟨k0_dev26 c, k0_dev26_lt c⟩ : Dev nD) = yp c := by revert c; decide +kernel
theorem dev27_eq (c : Dev nD) : (⟨k0_dev27 c, k0_dev27_lt c⟩ : Dev nD) = yp c := by revert c; decide +kernel
theorem dev28_eq (c : Dev nD) : (⟨k0_dev28 c, k0_dev28_lt c⟩ : Dev nD) = yp c := by revert c; decide +kernel
theorem dev29_eq (c : Dev nD) : (⟨k0_dev29 c, k0_dev29_lt c⟩ : Dev nD) = yp c := by revert c; decide +kernel
theorem dev30_eq (c : Dev nD) : (⟨k0_dev30 c, k0_dev30_lt c⟩ : Dev nD) = yp c := by revert c; decide +kernel
theorem dev31_eq (c : Dev nD) : (⟨k0_dev31 c, k0_dev31_lt c⟩ : Dev nD) = yp c := by revert c; decide +kernel
theorem dev32_eq (c : Dev nD) : (⟨k0_dev32 c, k0_dev32_lt c⟩ : Dev nD) = yp c := by revert c; decide +kernel
theorem dev33_eq (c : Dev nD) : (⟨k0_dev33 c, k0_dev33_lt c⟩ : Dev nD) = yp c := by revert c; decide +kernel
theorem dev34_eq (c : Dev nD) : (⟨k0_dev34 c, k0_dev34_lt c⟩ : Dev nD) = yp c := by revert c; decide +kernel

/-! ## The row offsets in closed form

A row-offset chain computes the parity `(c / 4 % 4) % 2` of the second coordinate, which is `hh c`, multiplies it (or
its complement `1 - hh c`) by 256, the number of rows in a half, and adds the first row `16 * r` of chunk `r`; the
column offset is 0. No step leaves the range of a 32-bit word, so the value is the natural-number expression. Each
equation is checked at the 32 devices, the 16 chunks and the 2 coordinates. -/

theorem off1_eq (c : Dev nD) (r : Fin 16) : k0_off1 c (BitVec.ofNat 32 (16 * r.val)) = ![256 * hh c + 16 * r.val, 0] := funext (by revert c r; decide +kernel)
theorem off2_eq (c : Dev nD) (r : Fin 16) : k0_off2 c (BitVec.ofNat 32 (16 * r.val)) = ![256 * hh c + 16 * r.val, 0] := funext (by revert c r; decide +kernel)
theorem off3_eq (c : Dev nD) (r : Fin 16) : k0_off3 c (BitVec.ofNat 32 (16 * r.val)) = ![256 * (1 - hh c) + 16 * r.val, 0] := funext (by revert c r; decide +kernel)

end Cert.KernelIdeal.Mesh
-- ==== Proof.Cells.lean ====
/- The exchange's vocabulary. Every device sends each of its sixteen row chunks of the half of the rows it reduces
   first to its partner along the first mesh axis, adds what it receives to its own rows, forwards what it received to
   its partner along the second mesh axis (which reduces the other half first), and adds what that partner forwards to
   its own other rows. Here: the two resource algebras side by side, the buffers and their row chunks and slots, the
   sixty-five semaphore cells of a device, and what each landing delivers. -/
import proofs.«900724_g7700000000000725_dist_ar_v7x_xyz2x4x4_x_m512_n512_f32_1_alg».proof.Proof.Mesh
import proofs.«900724_g7700000000000725_dist_ar_v7x_xyz2x4x4_x_m512_n512_f32_1_alg».proof.Proof.Gen.KernelIdeal.Skeleton
import proofs.«900724_g7700000000000725_dist_ar_v7x_xyz2x4x4_x_m512_n512_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's own rounds (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers, a chunk's rows, a chunk's slot -/

abbrev xM : Memref sig .tc .vmem S512x512 .f32 := Memref.whole cc0_stg0_0
abbrev oM : Memref sig .tc .vmem S512x512 .f32 := Memref.whole cc0_stg1_0
abbrev rxM : Memref sig .tc .vmem S16x16x512 .f32 := Memref.whole cc0_scratch0
abbrev ryM : Memref sig .tc .vmem S16x16x512 .f32 := Memref.whole cc0_scratch1

theorem slot_inb : ∀ (i : Fin 16) a, (![i.val, 0, 0] : Fin 3 → Nat) a + S1x16x512.size a ≤ S16x16x512.size a := by decide
theorem sem_inb : ∀ (i : Fin 16) a, (![i.val] : Fin 1 → Nat) a + S1.size a ≤ S16.size a := by decide

/-- Chunk `i`'s rectangle of a receive buffer: its slot `i`. -/
abbrev slotRect (i : Fin 16) : Rect S16x16x512 := Rect.unit (s := S16x16x512) ![i.val, 0, 0] S1x16x512.size (slot_inb i)
/-- Slot `i` of the first receive buffer, as a 16 × 512 memref. -/
abbrev rxSlot (i : Fin 16) : Memref sig .tc .vmem S16x512 .f32 := (rxM.slice (slotRect i) (fun _ => rfl)).squeeze S16x512 squeezes_S1x16x512_S16x512
/-- Slot `i` of the second receive buffer. -/
abbrev rySlot (i : Fin 16) : Memref sig .tc .vmem S16x512 .f32 := (ryM.slice (slotRect i) (fun _ => rfl)).squeeze S16x512 squeezes_S1x16x512_S16x512

/-- Chunk `i` of the rows device `c` reduces first, as the source of its transfer along the first axis, -/
abbrev rowRect1 (c : Dev nD) (i : Fin 16) : Rect S512x512 := Rect.unit (s := S512x512) (k0_off1 c (BitVec.ofNat 32 (16 * i.val))) S16x512.size (k0_off1_inb c i)
/-- as the rows it loads and stores in the first round of sums, -/
abbrev rowRect2 (c : Dev nD) (i : Fin 16) : Rect S512x512 := Rect.unit (s := S512x512) (k0_off2 c (BitVec.ofNat 32 (16 * i.val))) S16x512.size (k0_off2_inb c i)
/-- and chunk `i` of its other rows, loaded and stored in the second round. -/
abbrev rowRect3 (c : Dev nD) (i : Fin 16) : Rect S512x512 := Rect.unit (s := S512x512) (k0_off3 c (BitVec.ofNat 32 (16 * i.val))) S16x512.size (k0_off3_inb c i)
abbrev xRow (c : Dev nD) (i : Fin 16) : Memref sig .tc .vmem S16x512 .f32 := xM.slice (rowRect1 c i) (fun _ => rfl)

/-! ## The cells -/

/-- The barrier semaphore of the collective. -/
abbrev barS : Sem sig := (SemArray.scalar (sig.barrier 0 rfl) : Sems sig S_).sem
/-- DMA semaphore `i` of family `a`: 0 the first axis' send semaphores, 1 its receive semaphores, 2 and 3 the second axis'. -/
def dS (a : Fin 4) (i : Fin 16) : DmaSem sig := ⟨2 + 16 * a.val + i.val, by have := a.isLt; have := i.isLt; show 2 + 16 * a.val + i.val < 66; omega⟩

abbrev barCell (c : Dev nD) : GSem nD τ sig := ((c : Thread nD τ), .reg barS)
abbrev dCell (a : Fin 4) (i : Fin 16) (c : Dev nD) : GSem nD τ sig := ((c : Thread nD τ), .dma (dS a i))

/-- The printed semaphore of family `a` at chunk `i` is `dS a i`. -/
theorem sem2_eq : ∀ i : Fin 16, ((cc0_scratch2.slice (Rect.unit (s := S16) ![i.val] S1.size (sem_inb i))).squeeze S_ squeezes_S1_S_).sem = dS 0 i := by decide
theorem sem3_eq : ∀ i : Fin 16, ((cc0_scratch3.slice (Rect.unit (s := S16) ![i.val] S1.size (sem_inb i))).squeeze S_ squeezes_S1_S_).sem = dS 1 i := by decide
theorem sem4_eq : ∀ i : Fin 16, ((cc0_scratch4.slice (Rect.unit (s := S16) ![i.val] S1.size (sem_inb i))).squeeze S_ squeezes_S1_S_).sem = dS 2 i := by decide
theorem sem5_eq : ∀ i : Fin 16, ((cc0_scratch5.slice (Rect.unit (s := S16) ![i.val] S1.size (sem_inb i))).squeeze S_ squeezes_S1_S_).sem = dS 3 i := by decide

/-- The credit of one chunk's transfer. -/
abbrev N : ℕ := (rxSlot 0 : Memref sig .tc .vmem S16x512 .f32).view.dmaCredit
theorem N_pos : 0 < N := View.dmaCredit_pos _ (by decide)
theorem N_rx (i : Fin 16) : (rxSlot i : Memref sig .tc .vmem S16x512 .f32).view.dmaCredit = N := rfl
theorem N_ry (i : Fin 16) : (rySlot i : Memref sig .tc .vmem S16x512 .f32).view.dmaCredit = N := rfl
theorem N_x (c : Dev nD) (i : Fin 16) : (xRow c i : Memref sig .tc .vmem S16x512 .f32).view.dmaCredit = N := rfl

/-! ## Contents -/

/-- Device `c`'s block of the argument, as its input buffer holds it. -/
def xstg (c : Dev nD) : (cc0_stg0_0 : Ref sig .tc).ty.Contents (Elt F) :=
  (win0_0.blk (0 : Fin 1)).view.read (Elt F) (m ((c : Thread nD τ).loc main_arg0))

/-- Contents nobody reads: what a slot held before a landing overwrote it. -/
def anyBuf {t : BufTy} : BufTy.Contents (Elt F) t := fun _ => Classical.arbitrary _

/-- The first receive buffer of device `c` once chunk `i` of its first-axis partner's rows has landed in slot `i`. -/
def rxLanded (c : Dev nD) (i : Fin 16) : Buf (Elt F) ((rxM : Memref sig .tc .vmem S16x16x512 .f32).view.loc (c : Thread nD τ)) :=
  (rxSlot i : Memref sig .tc .vmem S16x512 .f32).view.write (Elt F) anyBuf
    ((xRow (xp c) i : Memref sig .tc .vmem S16x512 .f32).view.read (Elt F) (xstg m (xp c))) Finset.univ
/-- The second receive buffer of device `c` once its second-axis partner has forwarded what landed in ITS slot `i`. -/
def ryLanded (c : Dev nD) (i : Fin 16) : Buf (Elt F) ((ryM : Memref sig .tc .vmem S16x16x512 .f32).view.loc (c : Thread nD τ)) :=
  (rySlot i : Memref sig .tc .vmem S16x512 .f32).view.write (Elt F) anyBuf
    ((rxSlot i : Memref sig .tc .vmem S16x512 .f32).view.read (Elt F) (rxLanded m (yp c) i)) Finset.univ

/-- The read share of the input buffer that chunk `i`'s transfer borrows; -/
abbrev qTok (i : Fin 16) : PosShare TreeShare := Transfers.shareTok fullShare 16 i
/-- the share the loads keep. -/
abbrev qKeep : PosShare TreeShare := Transfers.shareDrop fullShare 16

/-! ## What each landing hands its cell's owner -/

/-- Family 0 (own transfer along the first axis read to the end): the borrowed share of the chunk's rows comes back. -/
def pay0 (i : Fin 16) (c : Dev nD) : sProp 𝕄 :=
  (xRow c i : Memref sig .tc .vmem S16x512 .f32).view.loc (c : Thread nD τ) ↦[(xRow c i : Memref sig .tc .vmem S16x512 .f32).view.set]{qTok i} xstg m c
/-- Family 1 (the partner's chunk landed): slot `i` of the first receive buffer, at the partner's rows. -/
def pay1 (i : Fin 16) (c : Dev nD) : sProp 𝕄 :=
  (rxSlot i : Memref sig .tc .vmem S16x512 .f32).view.loc (c : Thread nD τ) ↦[(rxSlot i : Memref sig .tc .vmem S16x512 .f32).view.set]{fullShare} rxLanded m c i
/-- Family 2 (own forward read to the end): the half of slot `i` the forward borrowed comes back. -/
def pay2 (i : Fin 16) (c : Dev nD) : sProp 𝕄 :=
  (rxSlot i : Memref sig .tc .vmem S16x512 .f32).view.loc (c : Thread nD τ) ↦[(rxSlot i : Memref sig .tc .vmem S16x512 .f32).view.set]{fullShare.right} rxLanded m c i
/-- Family 3 (the second-axis partner's forward landed): slot `i` of the second receive buffer. -/
def pay3 (i : Fin 16) (c : Dev nD) : sProp 𝕄 :=
  (rySlot i : Memref sig .tc .vmem S16x512 .f32).view.loc (c : Thread nD τ) ↦[(rySlot i : Memref sig .tc .vmem S16x512 .f32).view.set]{fullShare} ryLanded m c i

def dmaPay (a : Fin 4) (i : Fin 16) (c : Dev nD) : sProp 𝕄 :=
  if a = 0 then pay0 m i c else if a = 1 then pay1 m i c else if a = 2 then pay2 m i c else pay3 m i c

/-- The first-axis partner's entry signal hands over ITS first receive buffer, slot by slot, at any contents; -/
def barPayX (c : Dev nD) : sProp 𝕄 :=
  bigSep Finset.univ fun i : Fin 16 => iprop(∃ f, (rxSlot i : Memref sig .tc .vmem S16x512 .f32).view.loc ((xp c : Dev nD) : Thread nD τ) ↦[(rxSlot i : Memref sig .tc .vmem S16x512 .f32).view.set]{fullShare} f)
/-- the second-axis partner's its second receive buffer. -/
def barPayY (c : Dev nD) : sProp 𝕄 :=
  bigSep Finset.univ fun i : Fin 16 => iprop(∃ f, (rySlot i : Memref sig .tc .vmem S16x512 .f32).view.loc ((yp c : Dev nD) : Thread nD τ) ↦[(rySlot i : Memref sig .tc .vmem S16x512 .f32).view.set]{fullShare} f)

/-- Family and chunk of one of the kernel's own DMA semaphores (numbers 2 to 65 of the pool). -/
def fam (q : DmaSem sig) : Fin 4 := ⟨(q.val - 2) / 16 % 4, Nat.mod_lt _ (by decide)⟩
def chk (q : DmaSem sig) : Fin 16 := ⟨(q.val - 2) % 16, Nat.mod_lt _ (by decide)⟩
theorem fam_dS : ∀ (a : Fin 4) (i : Fin 16), fam (dS a i) = a := by decide
theorem chk_dS : ∀ (a : Fin 4) (i : Fin 16), chk (dS a i) = i := by decide
theorem two_le_dS (a : Fin 4) (i : Fin 16) : 2 ≤ (dS a i).val := by show 2 ≤ 2 + 16 * a.val + i.val; omega

/-! ## The schedule: one round; a barrier cell has the two duties `true` (the first-axis partner's signal) and `false`
    (the second-axis partner's), one unit each; every DMA cell of the kernel's own the one duty `false` of a chunk's credit -/

def Rd : Rounds.Schedule (GSem nD τ sig) Bool 𝕄 where
  duties g r := if r = 0 ∧ g.1.2 = .tc then (match g.2 with | .reg _ => Finset.univ | .dma q => if 2 ≤ q.val then {false} else ∅) else ∅
  amount g _ _ := match g.2 with | .reg _ => 1 | .dma _ => N
  payload g _ d := match g.2 with
    | .reg _ => if d then barPayX g.1.1 else barPayY g.1.1
    | .dma q => dmaPay m (fam q) (chk q) g.1.1
  amount_pos g _ _ _ := by
    rcases g with ⟨t, sm⟩
    cases sm
    · exact Nat.one_pos
    · exact N_pos

instance Rd_payload_storable (g : GSem nD τ sig) (r : ℕ) (d : Bool) :
    BI.Storable (upEmb : UEmb _ 𝕄) ((Rd (F := F) m).payload g r d) := by
  rcases g with ⟨t, sm⟩
  cases sm with
  | reg s =>
    show BI.Storable upEmb (if d then barPayX t.1 else barPayY t.1)
    unfold barPayX barPayY
    split <;> infer_instance
  | dma q =>
    show BI.Storable upEmb (dmaPay m (fam q) (chk q) t.1)
    unfold dmaPay pay0 pay1 pay2 pay3
    (repeat' split) <;> infer_instance

section Sched
variable (c : Dev nD) (a : Fin 4) (i : Fin 16)

theorem duties_bar : (Rd (F := F) m).duties (barCell c) 0 = Finset.univ := by dsimp only [Rd]; exact if_pos ⟨rfl, rfl⟩
theorem duties_d : (Rd (F := F) m).duties (dCell a i c) 0 = {false} := by
  dsimp only [Rd]; rw [if_pos ⟨rfl, rfl⟩]; exact if_pos (two_le_dS a i)
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_d (d : Bool) : (Rd (F := F) m).amount (dCell a i c) 0 d = N := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (Rd (F := F) m).expect (dCell a i c) 0 = N := by
  unfold Schedule.expect Schedule.amountOf; rw [duties_d, Finset.sum_singleton, amount_d]

theorem payload_bar_true : (Rd (F := F) m).payload (barCell c) 0 true = barPayX c := rfl
theorem payload_bar_false : (Rd (F := F) m).payload (barCell c) 0 false = barPayY c := rfl
theorem payload_d (d : Bool) : (Rd (F := F) m).payload (dCell a i c) 0 d = dmaPay m a i c := by
  show dmaPay m (fam (dS a i)) (chk (dS a i)) c = _
  rw [fam_dS, chk_dS]
theorem payload_d0 (d : Bool) : (Rd (F := F) m).payload (dCell 0 i c) 0 d = pay0 m i c := by rw [payload_d]; rfl
theorem payload_d1 (d : Bool) : (Rd (F := F) m).payload (dCell 1 i c) 0 d = pay1 m i c := by rw [payload_d]; rfl
theorem payload_d2 (d : Bool) : (Rd (F := F) m).payload (dCell 2 i c) 0 d = pay2 m i c := by rw [payload_d]; rfl
theorem payload_d3 (d : Bool) : (Rd (F := F) m).payload (dCell 3 i c) 0 d = pay3 m i c := by rw [payload_d]; rfl

/-- The whole of a barrier cell's round: both partners' receive buffers. -/
theorem rest_bar : bigSep ((Rd (F := F) m).duties (barCell c) 0 \ ∅) (fun d => (Rd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_d : bigSep ((Rd (F := F) m).duties (dCell a i c) 0 \ ∅) (fun d => (Rd (F := F) m).payload (dCell a i c) 0 d) = dmaPay m a i c := by
  rw [Finset.sdiff_empty, duties_d, bigSep_singleton, payload_d]

end Sched

/-! ## A device's cells, indexed: the barrier cell (`none`) and the DMA cell of family `a` at chunk `i` (`some (a, i)`) -/

abbrev CIx : Type := Option (Fin 4 × Fin 16)
abbrev csem : CIx → SemLoc sig
  | none => .reg barS
  | some ai => .dma (dS ai.1 ai.2)
abbrev kcell (ck : Dev nD × CIx) : GSem nD τ sig := ((ck.1 : Thread nD τ), csem ck.2)

/-- Every cell's invariant, under the names `K`, and that every cell has reached its round 0. -/
def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

theorem inv_at (K : Dev nD × CIx → ℕ) (ck : Dev nD × CIx) : records m K ⊢ cellInv ER (Rd m) (K ck) (kcell ck) := by
  have h : (bigSep Finset.univ fun ck : Dev nD × CIx => (cellInv ER (Rd m) (K ck) (kcell ck) : sProp 𝕄)) ⊢ cellInv ER (Rd m) (K ck) (kcell ck) :=
    bigSep_elim (Finset.mem_univ ck)
  unfold records; iintro ⟨H, -⟩; iapply h; iexact H
theorem reached_at (K : Dev nD × CIx → ℕ) (ck : Dev nD × CIx) : records m K ⊢ reached ER (kcell ck) 0 := by
  have h : (bigSep Finset.univ fun ck : Dev nD × CIx => (reached ER (kcell ck) 0 : sProp 𝕄)) ⊢ reached ER (kcell ck) 0 :=
    bigSep_elim (Finset.mem_univ ck)
  unfold records; iintro ⟨-, H⟩; iapply h; iexact H

/-! ## What a device owes -/

/-- The credits of the chunks `n`, …, 15 still to be sent along the first axis, -/
def Ox (c : Dev nD) (n : ℕ) : CellTallies nD τ sig Unit :=
  ∑ j ∈ Finset.univ.filter (fun j : Fin 16 => n ≤ j.val), tallyAt (dCell 1 j (xp c)) () N
/-- and of those still to be forwarded along the second. -/
def Oy (c : Dev nD) (n : ℕ) : CellTallies nD τ sig Unit :=
  ∑ j ∈ Finset.univ.filter (fun j : Fin 16 => n ≤ j.val), tallyAt (dCell 3 j (yp c)) () N
/-- After its first entry signal a device owes all its transfers and the second signal; at launch the first as well. -/
def O₁ (c : Dev nD) : CellTallies nD τ sig Unit := Oy c 0 + Ox c 0 + tallyAt (barCell (yp c)) () 1
def O₀ (c : Dev nD) : CellTallies nD τ sig Unit := O₁ c + tallyAt (barCell (xp c)) () 1

/-- Levels: a barrier cell at 1, a first-axis receive cell at 2, a second-axis receive cell at 3, every other cell at 0:
    a device waits on its barrier owing only transfers, on a first-axis receive cell owing only forwards, and on
    everything else owing nothing. -/
def L (g : GSem nD τ sig) : Finset Unit := if g.1.2 = .tc then {()} else ∅
def lv (g : GSem nD τ sig) (_ : Unit) : ℕ :=
  match g.2 with
  | .reg _ => 1
  | .dma q => if 18 ≤ q.val ∧ q.val < 34 then 2 else if 50 ≤ q.val then 3 else 0

/-! ## The ghost state a device starts from -/

/-- Its positions: round 0 of each of its sixty-five cells, nothing taken. -/
def positions (c : Dev nD) : sProp 𝕄 :=
  iprop(atPos ER (barCell c) 0 ∅ 0 ∗ bigSep Finset.univ fun i : Fin 16 =>
    iprop(atPos ER (dCell 0 i c) 0 ∅ 0 ∗ atPos ER (dCell 1 i c) 0 ∅ 0 ∗ atPos ER (dCell 2 i c) 0 ∅ 0 ∗ atPos ER (dCell 3 i c) 0 ∅ 0))
/-- The tokens of the duties IT pays: its two entry signals, and per chunk its own two send cells and the two partners' receive cells. -/
def payToks (c : Dev nD) : sProp 𝕄 :=
  iprop(dutyTok ER (barCell (xp c)) 0 true ∗ dutyTok ER (barCell (yp c)) 0 false ∗ bigSep Finset.univ fun i : Fin 16 =>
    iprop(dutyTok ER (dCell 0 i c) 0 false ∗ dutyTok ER (dCell 1 i (xp c)) 0 false ∗ dutyTok ER (dCell 2 i c) 0 false ∗ dutyTok ER (dCell 3 i (yp c)) 0 false))
def ghost (K : Dev nD × CIx → ℕ) (c : Dev nD) : sProp 𝕄 := iprop(records m K ∗ positions c ∗ payToks c)
/-- The credit it is owed: two units on its barrier, a chunk's credit on each of its receive cells. -/
def creds (c : Dev nD) : sProp 𝕄 :=
  iprop(cred (tallyAt (barCell c) () 2) ∗ bigSep Finset.univ fun i : Fin 16 =>
    iprop(cred (tallyAt (dCell 1 i c) () N) ∗ cred (tallyAt (dCell 3 i c) () N)))
def start (c : Dev nD) : sProp 𝕄 := iprop((∃ K, ghost m K c) ∗ creds c ∗ levAts L lv)

/-- A receive buffer, whole, at any contents. -/
def rxAny (c : Dev nD) : sProp 𝕄 := iprop(∃ f : Buf (Elt F) ((c : Thread nD τ).loc cc0_scratch0), ((c : Thread nD τ).loc cc0_scratch0) ↦{fullShare} f)
def ryAny (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m c ∗ rxAny c ∗ ryAny c)
/-- After the point: both receive buffers whole again, the sixty-four own cells at zero, closed. -/
def Φ₁ (c : Dev nD) : sProp 𝕄 :=
  iprop(rxAny c ∗ ryAny c ∗ bigSep Finset.univ fun ai : Fin 4 × Fin 16 => semVal (dCell ai.1 ai.2 c) 0)

/-! ## The result -/

/-- The sum the first round stores in chunk `i` of the rows reduced first: own rows plus slot `i` of the first receive buffer, -/
def sum2 (c : Dev nD) (i : Fin 16) : FVec F S16x512 .f32 :=
  k0_pay1 ((xM : Memref sig .tc .vmem S512x512 .f32).view.readAt (Elt F) (rowRect2 c i).toLoadRect (xstg m c))
    ((rxM : Memref sig .tc .vmem S16x16x512 .f32).view.readAt (Elt F) (slotRect i).toLoadRect (rxLanded m c i))
/-- and the second in chunk `i` of the other rows: own rows plus slot `i` of the second receive buffer. -/
def sum3 (c : Dev nD) (i : Fin 16) : FVec F S16x512 .f32 :=
  k0_pay1 ((xM : Memref sig .tc .vmem S512x512 .f32).view.readAt (Elt F) (rowRect3 c i).toLoadRect (xstg m c))
    ((ryM : Memref sig .tc .vmem S16x16x512 .f32).view.readAt (Elt F) (slotRect i).toLoadRect (ryLanded m c i))

/-- The output buffer after `n` stores of the first round, from contents `f0`, -/
def out2 (c : Dev nD) (f0 : (cc0_stg1_0 : Ref sig .tc).ty.Contents (Elt F)) : ℕ → (cc0_stg1_0 : Ref sig .tc).ty.Contents (Elt F)
  | 0 => f0
  | n + 1 => if h : n < 16 then ((oM : Memref sig .tc .vmem S512x512 .f32).access (rowRect2 c ⟨n, h⟩)).write (Elt F) (out2 c f0 n) (sum2 m c ⟨n, h⟩) Finset.univ else out2 c f0 n
/-- and after the first round and `n` stores of the second. -/
def out3 (c : Dev nD) (f0 : (cc0_stg1_0 : Ref sig .tc).ty.Contents (Elt F)) : ℕ → (cc0_stg1_0 : Ref sig .tc).ty.Contents (Elt F)
  | 0 => out2 m c f0 16
  | n + 1 => if h : n < 16 then ((oM : Memref sig .tc .vmem S512x512 .f32).access (rowRect3 c ⟨n, h⟩)).write (Elt F) (out3 c f0 n) (sum3 m c ⟨n, h⟩) Finset.univ else out3 c f0 n
/-- The result: every row is overwritten, so it does not depend on what the buffer held. -/
def outAt (c : Dev nD) : (cc0_stg1_0 : Ref sig .tc).ty.Contents (Elt F) := out3 m c anyBuf 16

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.P

end
-- ==== Proof.Launch1.lean ====
/- The launch, first part: the cells' ghost state minted for all devices at once, each cell's invariant allocated from its counter at zero, and the tokens dealt to the devices that pay with them. -/
import proofs.«900724_g7700000000000725_dist_ar_v7x_xyz2x4x4_x_m512_n512_f32_1_alg».proof.Proof.Cells
import Mathlib.Logic.Equiv.Fin.Basic
import Mathlib.Logic.Equiv.Option
import Mathlib.Logic.Equiv.Prod
import Mathlib.Data.Fintype.Sum
import Mathlib.Data.Fintype.Option

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The kernel's own (scoped) semaphores as the launch indexes them: DMA semaphores 2 to 65. -/
abbrev osem : Fin 64 → SemLoc sig := fun k => .dma ⟨k.val + 2, by have := k.isLt; show k.val + 2 < 66; omega⟩

theorem ownSemFacts : Pipeline.OwnSemFacts cfg0.spec osem := by decide

/-- A device's cells are pairwise distinct: the barrier cell is a regular semaphore, and a DMA cell's number gives back
    its family and its chunk. -/
theorem csem_injective : Function.Injective (csem : CIx → SemLoc sig) := by
  rintro (_ | ⟨a, i⟩) (_ | ⟨a', i'⟩) h
  · rfl
  · have h' : (SemLoc.reg barS : SemLoc sig) = .dma (dS a' i') := h
    cases h'
  · have h' : (SemLoc.dma (dS a i) : SemLoc sig) = .reg barS := h
    cases h'
  · have h' : (SemLoc.dma (dS a i) : SemLoc sig) = .dma (dS a' i') := h
    have hd : dS a i = dS a' i' := by injection h'
    have ha : a = a' := by rw [← fam_dS a i, hd, fam_dS]
    have hi : i = i' := by rw [← chk_dS a i, hd, chk_dS]
    rw [ha, hi]

theorem kcell_injective : Function.Injective (kcell : Dev nD × CIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- All devices' cells; -/
def allCells : Finset (GSem nD τ sig) := Finset.univ.map ⟨kcell, kcell_injective⟩

/-- A duty of one of a device's own cells: a barrier duty by its name, or the one duty of the DMA cell of a family at a chunk. -/
abbrev TIx : Type := Bool ⊕ Fin 4 × Fin 16
/-- The token of duty `j` of device `c`'s cells, as minted. -/
abbrev tokOf (cj : Dev nD × TIx) : GSem nD τ sig × ℕ × Bool := match cj.2 with
  | .inl b => (barCell cj.1, 0, b)
  | .inr ai => (dCell ai.1 ai.2 cj.1, 0, false)
theorem tokOf_injective : Function.Injective (tokOf : Dev nD × TIx → GSem nD τ sig × ℕ × Bool) := by
  rintro ⟨c, j⟩ ⟨c', j'⟩ h
  have h1 : c = c' := by
    have := congrArg (fun x : GSem nD τ sig × ℕ × Bool => x.1.1.1) h
    rcases j with b | ai <;> rcases j' with b' | ai' <;> exact this
  subst h1
  have : j = j' := by
    rcases j with b | ⟨a, i⟩ <;> rcases j' with b' | ⟨a', i'⟩
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · have h2 : csem (some (a, i)) = csem (some (a', i')) := congrArg (fun x : GSem nD τ sig × ℕ × Bool => x.1.2) h
      rw [Option.some.inj (csem_injective h2)]
  subst this; rfl
/-- and all their duties' tokens: a barrier's two, a DMA cell's one. -/
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((dutyTok ER (barCell c) 0 true ∗ dutyTok ER (barCell c) 0 false) ∗ bigSep Finset.univ fun i : Fin 16 =>
    iprop(dutyTok ER (dCell 0 i c) 0 false ∗ dutyTok ER (dCell 1 i c) 0 false ∗ dutyTok ER (dCell 2 i c) 0 false ∗ dutyTok ER (dCell 3 i c) 0 false))

/-- What the launch element deals device `c`: its own cells' round states, positions, reached marks and duty tokens. -/
def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks c)
/-- What the global step makes of it. -/
def G' (c : Dev nD) : sProp 𝕄 := iprop(∃ K, ghost m K c)

/-! ## Sums over a device's cells, one by one -/

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_bool (Φ : Bool → sProp 𝕄) : bigSep Finset.univ Φ = iprop(Φ true ∗ Φ false) := bigSep_univ_eq_bigSepL [true, false] (by decide) (by decide) Φ
/-- Over the families and chunks: chunk by chunk, the four families side by side. -/
theorem bigSep_fam (Φ : Fin 4 → Fin 16 → sProp 𝕄) :
    (bigSep Finset.univ fun ai : Fin 4 × Fin 16 => Φ ai.1 ai.2) = bigSep Finset.univ fun i : Fin 16 => iprop(Φ 0 i ∗ Φ 1 i ∗ Φ 2 i ∗ Φ 3 i) := by
  rw [bigSep_univ_equiv (Equiv.prodComm (Fin 16) (Fin 4)) (fun ai : Fin 4 × Fin 16 => Φ ai.1 ai.2), bigSep_univ_prod]
  exact bigSep_congr fun i _ => bigSep_fin4 fun a => Φ a i
/-- Over a device's cells: the barrier cell, then the DMA cells. -/
theorem bigSep_cix (Φ : CIx → sProp 𝕄) : bigSep Finset.univ Φ = iprop(Φ none ∗ bigSep Finset.univ fun ai : Fin 4 × Fin 16 => Φ (some ai)) := by
  rw [bigSep_univ_equiv (Equiv.optionEquivSumPUnit.{0, 0} (Fin 4 × Fin 16)).symm Φ, bigSep_univ_sum, bigSep_univ_of_subsingleton (PUnit.unit : PUnit.{1})]
  show iprop((bigSep Finset.univ fun ai : Fin 4 × Fin 16 => Φ (some ai)) ∗ Φ none) = iprop(Φ none ∗ bigSep Finset.univ fun ai : Fin 4 × Fin 16 => Φ (some ai))
  exact equiv_iff.mp ⟨BI.sep_comm, BI.sep_comm⟩

/-! ## The launch element, dealt -/

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum]
    show iprop(bigSep Finset.univ (fun b : Bool => (dutyTok ER (barCell c) 0 b : sProp 𝕄))
      ∗ bigSep Finset.univ (fun ai : Fin 4 × Fin 16 => (dutyTok ER (dCell ai.1 ai.2 c) 0 false : sProp 𝕄))) = toks c
    rw [bigSep_bool, bigSep_fam (fun a i => (dutyTok ER (dCell a i c) 0 false : sProp 𝕄))]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores the launch hands over -/

/-- The kernel's own semaphores are its sixty-four DMA cells. -/
theorem ownSems0_eq (c : Dev nD) : (Pipeline.ownSems0 (Ix := Unit) (Name := ℕ) (U := UU) (Lvl := ℕ) (Val := Elt F) (τ := τ) osem c : sProp 𝕄)
    = bigSep Finset.univ fun ai : Fin 4 × Fin 16 => semVal (dCell ai.1 ai.2 c) 0 := by
  unfold Pipeline.ownSems0
  rw [bigSep_univ_equiv (finProdFinEquiv : Fin 4 × Fin 16 ≃ Fin 64)]
  refine bigSep_congr fun ai _ => ?_
  have h : osem (finProdFinEquiv ai : Fin 64) = .dma (dS ai.1 ai.2) := by
    show (SemLoc.dma _ : SemLoc sig) = SemLoc.dma _
    congr 1
    apply Fin.ext
    show (finProdFinEquiv ai : Fin 64).val + 2 = 2 + 16 * ai.1.val + ai.2.val
    rw [finProdFinEquiv_apply_val]; omega
  rw [h]
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cix]
  iintro ⟨HS, HB⟩
  isplitl [HB]; · iexact HB
  iexact HS

/-! ## The global step -/

/-- Each of a device's cells gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions are those of its sixty-five cells. -/
theorem positions_eq (c : Dev nD) : (bigSep Finset.univ fun k : CIx => (atPos ER (kcell (c, k)) 0 ∅ 0 : sProp 𝕄)) = positions c := by
  rw [bigSep_cix]
  show iprop(atPos ER (barCell c) 0 ∅ 0 ∗ bigSep Finset.univ fun ai : Fin 4 × Fin 16 => (atPos ER (dCell ai.1 ai.2 c) 0 ∅ 0 : sProp 𝕄)) = positions c
  rw [bigSep_fam (fun a i => (atPos ER (dCell a i c) 0 ∅ 0 : sProp 𝕄))]
  rfl

/-- What stays with device `c`: its positions, and the tokens of the duties it pays. -/
def linear (c : Dev nD) : sProp 𝕄 := iprop(positions c ∗ payToks c)

theorem ghost_intro (K : Dev nD × CIx → ℕ) (c : Dev nD) : iprop(records m K ∗ linear c) ⊢ G' m c := by
  unfold linear G' ghost
  iintro ⟨HR, HP, HT⟩
  iexists K
  isplitl [HR]; · iexact HR
  isplitl [HP]; · iexact HP
  iexact HT

/-- The partners along the two axes, as permutations of the devices. -/
def xpE : Dev nD ≃ Dev nD := ⟨xp, xp, xp_xp, xp_xp⟩
def ypE : Dev nD ≃ Dev nD := ⟨yp, yp, yp_yp, yp_yp⟩

/-- The tokens dealt to their payers: a barrier's `true` token and a first-axis receive cell's token go to the partner
    along the first axis, a barrier's `false` token and a second-axis receive cell's token to the partner along the
    second; the send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => bigSep Finset.univ fun i : Fin 16 => (dutyTok ER (dCell 1 i c) 0 false : sProp 𝕄)),
    bigSep_univ_equiv ypE (fun c : Dev nD => bigSep Finset.univ fun i : Fin 16 => (dutyTok ER (dCell 3 i c) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CIx => (atPos ER (kcell (c, k)) 0 ∅ 0 : sProp 𝕄)) payToks).symm).trans
      (bigSep_mono fun c _ => show _ ⊢ linear c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.P.fund_cells' depends on axioms: [propext, Classical.choice, Quot.sound] -/
#guard_msgs in #print axioms fund_cells

/-- info: 'Cert.KernelIdeal.P.glob' depends on axioms: [propext, Classical.choice, Quot.sound] -/
#guard_msgs in #print axioms glob

end Cert.KernelIdeal.P

end
-- ==== Proof.Levels.lean ====
/- What a device owes, chunk by chunk; the levels at which it may wait; the credit the launch hands it. -/
import proofs.«900724_g7700000000000725_dist_ar_v7x_xyz2x4x4_x_m512_n512_f32_1_alg».proof.Proof.Cells

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The chunks still to be sent, one chunk at a time -/

/-- The chunks from `n` on are chunk `n` and the chunks from `n + 1` on. -/
theorem sum_from_succ {M : Type} [AddCommMonoid M] (f : Fin 16 → M) (n : ℕ) (hn : n < 16) :
    ∑ j ∈ Finset.univ.filter (fun j : Fin 16 => n ≤ j.val), f j
      = ∑ j ∈ Finset.univ.filter (fun j : Fin 16 => n + 1 ≤ j.val), f j + f ⟨n, hn⟩ := by
  have hs : (Finset.univ.filter fun j : Fin 16 => n ≤ j.val)
      = insert (⟨n, hn⟩ : Fin 16) (Finset.univ.filter fun j : Fin 16 => n + 1 ≤ j.val) := by
    ext j
    simp only [Finset.mem_filter, Finset.mem_univ, true_and, Finset.mem_insert, Fin.ext_iff]
    omega
  have hm : (⟨n, hn⟩ : Fin 16) ∉ Finset.univ.filter fun j : Fin 16 => n + 1 ≤ j.val := by
    simp only [Finset.mem_filter, Finset.mem_univ, true_and]
    omega
  rw [hs, Finset.sum_insert hm, add_comm]

/-- There is no chunk from 16 on. -/
theorem sum_from_end {M : Type} [AddCommMonoid M] (f : Fin 16 → M) :
    ∑ j ∈ Finset.univ.filter (fun j : Fin 16 => 16 ≤ j.val), f j = 0 := by
  have hs : (Finset.univ.filter fun j : Fin 16 => 16 ≤ j.val) = ∅ := by
    ext j
    simp only [Finset.mem_filter, Finset.mem_univ, true_and, Finset.notMem_empty, iff_false]
    have := j.isLt
    omega
  rw [hs, Finset.sum_empty]

theorem Ox_succ (c : Dev nD) (n : ℕ) (hn : n < 16) : Ox c n = Ox c (n + 1) + tallyAt (dCell 1 ⟨n, hn⟩ (xp c)) () N :=
  sum_from_succ (fun j => tallyAt (dCell 1 j (xp c)) () N) n hn
theorem Oy_succ (c : Dev nD) (n : ℕ) (hn : n < 16) : Oy c n = Oy c (n + 1) + tallyAt (dCell 3 ⟨n, hn⟩ (yp c)) () N :=
  sum_from_succ (fun j => tallyAt (dCell 3 j (yp c)) () N) n hn
theorem Ox_end (c : Dev nD) : Ox c 16 = 0 := sum_from_end fun j => tallyAt (dCell 1 j (xp c)) () N
theorem Oy_end (c : Dev nD) : Oy c 16 = 0 := sum_from_end fun j => tallyAt (dCell 3 j (yp c)) () N

theorem L_of_ne (g : GSem nD τ sig) (h : g.1.2 ≠ .tc) : L g = ∅ := if_neg h
theorem L_tc (c : Dev nD) (sm : SemLoc sig) : L ((c : Thread nD τ), sm) = {()} := if_pos rfl

/-! ## Where a device owes, and at which levels -/

/-- What is still to be sent along the first axis is owed to first-axis receive cells of the first-axis partner; -/
theorem Ox_pos {c : Dev nD} {n : ℕ} {g : GSem nD τ sig} {u : Unit} (h : 0 < Ox c n g u) : ∃ j : Fin 16, g = dCell 1 j (xp c) := by
  obtain ⟨j, -, hj⟩ := Pipeline.sum_pos_exists h
  exact ⟨j, (Pipeline.tallyAt_pos hj).1⟩
/-- what is still to be forwarded, to second-axis receive cells of the second-axis partner. -/
theorem Oy_pos {c : Dev nD} {n : ℕ} {g : GSem nD τ sig} {u : Unit} (h : 0 < Oy c n g u) : ∃ j : Fin 16, g = dCell 3 j (yp c) := by
  obtain ⟨j, -, hj⟩ := Pipeline.sum_pos_exists h
  exact ⟨j, (Pipeline.tallyAt_pos hj).1⟩

/-- At launch a device owes receive cells of its two partners and their two barrier cells, nothing else. -/
theorem O₀_pos {c : Dev nD} {g : GSem nD τ sig} {u : Unit} (h : 0 < O₀ c g u) :
    (∃ j : Fin 16, g = dCell 3 j (yp c)) ∨ (∃ j : Fin 16, g = dCell 1 j (xp c)) ∨ g = barCell (yp c) ∨ g = barCell (xp c) := by
  rcases Pipeline.add_pos_cases h with h | h
  · rcases Pipeline.add_pos_cases h with h | h
    · rcases Pipeline.add_pos_cases h with h | h
      · exact Or.inl (Oy_pos h)
      · exact Or.inr (Or.inl (Ox_pos h))
    · exact Or.inr (Or.inr (Or.inl (Pipeline.tallyAt_pos h).1))
  · exact Or.inr (Or.inr (Or.inr (Pipeline.tallyAt_pos h).1))

theorem lv_bar (d : Dev nD) : lv (barCell d) () = 1 := rfl
theorem lv_d1 (j : Fin 16) (d : Dev nD) : lv (dCell 1 j d) () = 2 := by
  have := j.isLt
  show (if 18 ≤ 2 + 16 * 1 + j.val ∧ 2 + 16 * 1 + j.val < 34 then 2 else if 50 ≤ 2 + 16 * 1 + j.val then 3 else 0) = 2
  rw [if_pos (by omega)]
theorem lv_d3 (j : Fin 16) (d : Dev nD) : lv (dCell 3 j d) () = 3 := by
  have := j.isLt
  show (if 18 ≤ 2 + 16 * 3 + j.val ∧ 2 + 16 * 3 + j.val < 34 then 2 else if 50 ≤ 2 + 16 * 3 + j.val then 3 else 0) = 3
  rw [if_neg (by omega), if_pos (by omega)]
theorem lv_stage (c : Dev nD) (q : DmaSem sig) (hq : q.val < 2) : lv ((c : Thread nD τ), .dma q) () = 0 := by
  show (if 18 ≤ q.val ∧ q.val < 34 then 2 else if 50 ≤ q.val then 3 else 0) = 0
  rw [if_neg (by omega), if_neg (by omega)]

/-- At its barrier wait a device owes only transfers: receive cells, above its barrier cell. -/
theorem mayWait_bar (c : Dev nD) :
    (levAts L lv : sProp 𝕄) ⊢ MayWait (c : Thread nD τ) (.reg barS) () (Oy c 0 + Ox c 0) :=
  MayOwe.of_cut (L := L) (lev := lv) 1 (fun p hp => by rw [Finset.mem_singleton.mp hp, L_tc]; exact Finset.mem_singleton_self _)
    (fun g u hg => by
      rcases Pipeline.add_pos_cases hg with h | h
      · obtain ⟨j, rfl⟩ := Oy_pos h; exact Finset.mem_singleton_self _
      · obtain ⟨j, rfl⟩ := Ox_pos h; exact Finset.mem_singleton_self _)
    (fun p hp => by rw [Finset.mem_singleton.mp hp]; exact le_of_eq (lv_bar c))
    (fun g u hg => by
      rcases Pipeline.add_pos_cases hg with h | h
      · obtain ⟨j, rfl⟩ := Oy_pos h; rw [show u = () from rfl, lv_d3]; decide
      · obtain ⟨j, rfl⟩ := Ox_pos h; rw [show u = () from rfl, lv_d1]; decide)
/-- Waiting for a chunk of the first axis it owes only forwards along the second. -/
theorem mayWait_rx (c : Dev nD) (i : Fin 16) (n : ℕ) :
    (levAts L lv : sProp 𝕄) ⊢ MayWait (c : Thread nD τ) (.dma (dS 1 i)) () (Oy c n) :=
  MayOwe.of_cut (L := L) (lev := lv) 2 (fun p hp => by rw [Finset.mem_singleton.mp hp, L_tc]; exact Finset.mem_singleton_self _)
    (fun g u hg => by obtain ⟨j, rfl⟩ := Oy_pos hg; exact Finset.mem_singleton_self _)
    (fun p hp => by rw [Finset.mem_singleton.mp hp]; exact le_of_eq (lv_d1 i c))
    (fun g u hg => by obtain ⟨j, rfl⟩ := Oy_pos hg; rw [show u = () from rfl, lv_d3]; decide)
/-- The pipeline's own staging cells (DMA semaphores 0 and 1) sit below everything a device owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨j, rfl⟩ | rfl | rfl <;> exact Finset.mem_singleton_self _)
      (fun p hp => by rw [Finset.mem_singleton.mp hp]; exact le_of_eq (lv_stage c q hq))
      (fun g u hg => by
        rcases O₀_pos hg with ⟨j, rfl⟩ | ⟨j, rfl⟩ | rfl | rfl
        · rw [show u = () from rfl, lv_d3]; decide
        · rw [show u = () from rfl, lv_d1]; decide
        · rw [show u = () from rfl, lv_bar]; decide
        · rw [show u = () from rfl, lv_bar]; decide)
  · rw [MayWait_zero]; iintro -; iempintro

/-! ## The launch credit -/

/-- Every device owing chunk `j`'s credit to its first-axis partner's receive cell, each device is credited a chunk on its own; -/
theorem launch_Ox (c : Dev nD) :
    (Pipeline.launchCred (fun d => Ox d 0) c : sProp 𝕄) ⊢ bigSep Finset.univ fun i : Fin 16 => cred (tallyAt (dCell 1 i c) () N) := by
  have e : (Pipeline.launchCred (fun d => Ox d 0) c : sProp 𝕄)
      = bigSep (Finset.univ.filter fun j : Fin 16 => 0 ≤ j.val) fun j => Pipeline.launchCred (fun d => tallyAt (dCell 1 j (xp d)) () N) c :=
    Pipeline.launchCred_sum _ (fun j d => tallyAt (dCell 1 j (xp d)) () N) c
  rw [e, Finset.filter_true_of_mem fun j _ => Nat.zero_le _]
  exact bigSep_mono fun j _ => Pipeline.launchCred_tallyAt (.dma (dS 1 j)) xp xp xp_xp xp_xp () N c
/-- likewise along the second axis. -/
theorem launch_Oy (c : Dev nD) :
    (Pipeline.launchCred (fun d => Oy d 0) c : sProp 𝕄) ⊢ bigSep Finset.univ fun i : Fin 16 => cred (tallyAt (dCell 3 i c) () N) := by
  have e : (Pipeline.launchCred (fun d => Oy d 0) c : sProp 𝕄)
      = bigSep (Finset.univ.filter fun j : Fin 16 => 0 ≤ j.val) fun j => Pipeline.launchCred (fun d => tallyAt (dCell 3 j (yp d)) () N) c :=
    Pipeline.launchCred_sum _ (fun j d => tallyAt (dCell 3 j (yp d)) () N) c
  rw [e, Finset.filter_true_of_mem fun j _ => Nat.zero_le _]
  exact bigSep_mono fun j _ => Pipeline.launchCred_tallyAt (.dma (dS 3 j)) yp yp yp_yp yp_yp () N c

/-- The launch credits each cell what all devices together owe it: a device's barrier two units (one from each partner),
    each of its receive cells one chunk's credit. -/
theorem creds_of_launch (c : Dev nD) : (Pipeline.launchCred O₀ c : sProp 𝕄) ⊢ creds c := by
  have e : (Pipeline.launchCred O₀ c : sProp 𝕄)
      = iprop(((Pipeline.launchCred (fun d => Oy d 0) c ∗ Pipeline.launchCred (fun d => Ox d 0) c)
          ∗ Pipeline.launchCred (fun d => tallyAt (barCell (yp d)) () 1) c)
          ∗ Pipeline.launchCred (fun d => tallyAt (barCell (xp d)) () 1) c) := by
    rw [← Pipeline.launchCred_add, ← Pipeline.launchCred_add, ← Pipeline.launchCred_add]; rfl
  have hby : (Pipeline.launchCred (fun d => tallyAt (barCell (yp d)) () 1) c : sProp 𝕄) ⊢ cred (tallyAt (barCell c) () 1) :=
    Pipeline.launchCred_tallyAt (.reg barS) yp yp yp_yp yp_yp () 1 c
  have hbx : (Pipeline.launchCred (fun d => tallyAt (barCell (xp d)) () 1) c : sProp 𝕄) ⊢ cred (tallyAt (barCell c) () 1) :=
    Pipeline.launchCred_tallyAt (.reg barS) xp xp xp_xp xp_xp () 1 c
  have h2 : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from (tallyAt_add _ _ 1 1).symm]
    exact (cred_add _ _).2
  rw [e]; unfold creds
  rw [bigSep_sep']
  iintro ⟨⟨⟨Hy, Hx⟩, Hby⟩, Hbx⟩
  isplitl [Hby Hbx]
  · iapply h2
    isplitl [Hby]
    · iapply hby; iexact Hby
    · iapply hbx; iexact Hbx
  isplitl [Hx]
  · iapply (launch_Ox c); iexact Hx
  · iapply (launch_Oy c); iexact Hy

/-- info: 'Cert.KernelIdeal.P.Ox_succ' depends on axioms: [propext, Classical.choice, Quot.sound] -/
#guard_msgs in #print axioms Ox_succ
/-- info: 'Cert.KernelIdeal.P.mayWait_bar' depends on axioms: [propext, Classical.choice, Quot.sound] -/
#guard_msgs in #print axioms mayWait_bar
/-- info: 'Cert.KernelIdeal.P.mayWait_rx' depends on axioms: [propext, Classical.choice, Quot.sound] -/
#guard_msgs in #print axioms mayWait_rx
/-- info: 'Cert.KernelIdeal.P.mayWait_stage' depends on axioms: [propext, Classical.choice, Quot.sound] -/
#guard_msgs in #print axioms mayWait_stage
/-- info: 'Cert.KernelIdeal.P.creds_of_launch' depends on axioms: [propext, Classical.choice, Quot.sound] -/
#guard_msgs in #print axioms creds_of_launch
/-- info: 'Cert.KernelIdeal.P.Oy_succ' depends on axioms: [propext, Classical.choice, Quot.sound] -/
#guard_msgs in #print axioms Oy_succ
/-- info: 'Cert.KernelIdeal.P.Ox_end' depends on axioms: [propext, Classical.choice, Quot.sound] -/
#guard_msgs in #print axioms Ox_end
/-- info: 'Cert.KernelIdeal.P.Oy_end' depends on axioms: [propext, Classical.choice, Quot.sound] -/
#guard_msgs in #print axioms Oy_end

end Cert.KernelIdeal.P

end
-- ==== Proof.Launch2.lean ====
/- The launch, second part. What a device holds when it enters its one point (its ghost state, the credit it is owed, the
   levels, and its two receive buffers whole at any contents) and what it hands back after it (the receive buffers and its
   sixty-four own cells at zero); that it may wait on its two staging cells whatever it owes; the run of all thirty-two
   devices from any memory with every counter at zero, given the body's obligation at every device; and what the two
   arrays hold afterwards: the argument array what it held, the result array what the body left in the output buffer. -/
import proofs.«900724_g7700000000000725_dist_ar_v7x_xyz2x4x4_x_m512_n512_f32_1_alg».proof.Proof.Launch1
import proofs.«900724_g7700000000000725_dist_ar_v7x_xyz2x4x4_x_m512_n512_f32_1_alg».proof.Proof.Levels
import proofs.«900724_g7700000000000725_dist_ar_v7x_xyz2x4x4_x_m512_n512_f32_1_alg».proof.Proof.Gen.KernelIdeal.Points

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The theorem's side conditions -/

/-- What a device starts the region with: its ghost state from the global step, the credit the launch hands it, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

/-- The scoped buffers that are no staging buffer are the two receive buffers, whole, at any contents. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ rxAny ryAny
  iintro ⟨Hs, -, Hx, Hy⟩
  isplitl [Hs]; · iexact Hs
  isplitl [Hx]; · iexact Hx
  iexact Hy

/-- After the point the receive buffers and the sixty-four own cells, at zero, go back. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ rxAny ryAny
  iintro ⟨Hx, Hy, Hz⟩
  isplitr; · iempintro
  isplitl [Hz]; · iexact Hz
  isplitl [Hx]; · iexact Hx
  iexact Hy

/-- The two staging cells are DMA semaphores 0 and 1, below everything a device owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by unfold Dat.share; split <;> rfl

/-! ## The run -/

set_option maxRecDepth 100000 in
/-- On the mesh of thirty-two devices, for any float values, from any memory with every counter at zero, if the body meets
    its obligation at every device: every weakly fair execution of @main terminates, and every final state has each
    device's two arrays at what the proof data say they hold after the one point. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The arrays after the run -/

/-- The argument array is an input: nothing writes it. -/
theorem final_x (c : Dev nD) : (dats m 0 c).arrAt (0 : Fin 2) cfg0.N = m ((c : Thread nD τ).loc main_arg0) :=
  (dats (F := F) m 0 c).arrAt_in (0 : Fin 2) rfl _

/-- Writing a whole block back over the whole array leaves the block as the array. -/
theorem write_back (c : Dev nD) (f : Buf (Elt F) ((cfg0.win (1 : Fin 2)).arr.view.loc (c : Thread nD τ))) (w : (cc0_stg1_0 : Ref sig .tc).ty.Contents (Elt F)) :
    ((cfg0.win (1 : Fin 2)).blk t0_0).view.write (Elt F) f ((cfg0.win (1 : Fin 2)).cut (cfg0.grid.coords t0_0) w) Finset.univ = w := by
  have hz : (fun a => (win0_1.index t0_0) a * main_v1.ty.shape.size a) = fun _ => 0 := funext fun a => Nat.zero_mul _
  exact Memref.write_access_unit_zero_univ (Elt F) main_v1 hz (fun a => by fin_cases a <;> decide) f w

section
-- the result's closed form stays folded: only its name is read here
attribute [local irreducible] outAt

/-- The result array is written back once, whole, at the one point: it holds what the body left in the output buffer. -/
theorem final_out (c : Dev nD) : (dats m 0 c).arrAt (1 : Fin 2) cfg0.N = outAt m c := by
  rw [show cfg0.N = (t0_0 : Fin cfg0.N).val + 1 from rfl, (dats m 0 c).arrAt_succ (1 : Fin 2) t0_0, flush0_1 t0_0, if_pos rfl]
  exact write_back c _ (outAt m c)

end

/-- info: 'Cert.KernelIdeal.P.run_main' depends on axioms: [propext, Classical.choice, Quot.sound] -/
#guard_msgs in #print axioms run_main

/-- info: 'Cert.KernelIdeal.P.final_x' depends on axioms: [propext, Classical.choice, Quot.sound] -/
#guard_msgs in #print axioms final_x

/-- info: 'Cert.KernelIdeal.P.final_out' depends on axioms: [propext, Classical.choice, Quot.sound] -/
#guard_msgs in #print axioms final_out

end Cert.KernelIdeal.P

end
-- ==== Proof.States.lean ====
/- A device's holdings along its body: chunk by chunk what each of the four rounds needs and what it leaves. -/
import proofs.«900724_g7700000000000725_dist_ar_v7x_xyz2x4x4_x_m512_n512_f32_1_alg».proof.Proof.Cells

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## Sixteen chunks, some done -/

/-- The chunks below `n` hold `Ψ` (done), the others `Φ` (to do). -/
def chunks (Φ Ψ : Fin 16 → sProp 𝕄) (n : ℕ) : sProp 𝕄 :=
  iprop(bigSep (Finset.univ.filter fun j : Fin 16 => j.val < n) Ψ ∗ bigSep (Finset.univ.filter fun j : Fin 16 => n ≤ j.val) Φ)

theorem chunks_zero (Φ Ψ : Fin 16 → sProp 𝕄) : bigSep Finset.univ Φ ⊢ chunks Φ Ψ 0 := by
  have h1 : (Finset.univ.filter fun j : Fin 16 => j.val < 0) = ∅ := by ext j; simp
  have h2 : (Finset.univ.filter fun j : Fin 16 => 0 ≤ j.val) = Finset.univ := by ext j; simp
  unfold chunks; rw [h1, h2, BI.bigSep_empty]
  iintro H; isplitr; · iempintro
  iexact H

theorem chunks_end (Φ Ψ : Fin 16 → sProp 𝕄) : chunks Φ Ψ 16 ⊢ bigSep Finset.univ Ψ := by
  have h1 : (Finset.univ.filter fun j : Fin 16 => j.val < 16) = Finset.univ := by ext j; simp [j.isLt]
  have h2 : (Finset.univ.filter fun j : Fin 16 => 16 ≤ j.val) = ∅ := by ext j; simp
  unfold chunks; rw [h1, h2, BI.bigSep_empty]
  iintro ⟨H, -⟩; iexact H

/-- Taking the next chunk out, to put it back done. -/
theorem chunks_step (Φ Ψ : Fin 16 → sProp 𝕄) (n : ℕ) (hn : n < 16) :
    chunks Φ Ψ n ⊢ iprop(Φ ⟨n, hn⟩ ∗ (Ψ ⟨n, hn⟩ -∗ chunks Φ Ψ (n + 1))) := by
  have h1 : (Finset.univ.filter fun j : Fin 16 => n ≤ j.val) = insert ⟨n, hn⟩ (Finset.univ.filter fun j : Fin 16 => n + 1 ≤ j.val) := by
    ext j; simp only [Finset.mem_filter, Finset.mem_univ, true_and, Finset.mem_insert, Fin.ext_iff]; omega
  have h2 : (Finset.univ.filter fun j : Fin 16 => j.val < n + 1) = insert ⟨n, hn⟩ (Finset.univ.filter fun j : Fin 16 => j.val < n) := by
    ext j; simp only [Finset.mem_filter, Finset.mem_univ, true_and, Finset.mem_insert, Fin.ext_iff]; omega
  have n1 : (⟨n, hn⟩ : Fin 16) ∉ Finset.univ.filter fun j : Fin 16 => n + 1 ≤ j.val := by simp
  have n2 : (⟨n, hn⟩ : Fin 16) ∉ Finset.univ.filter fun j : Fin 16 => j.val < n := by simp
  have e1 : bigSep (insert (⟨n, hn⟩ : Fin 16) (Finset.univ.filter fun j : Fin 16 => n + 1 ≤ j.val)) Φ
      = iprop(Φ ⟨n, hn⟩ ∗ bigSep (Finset.univ.filter fun j : Fin 16 => n + 1 ≤ j.val) Φ) := by rw [BI.bigSep_insert n1]; rfl
  have e2 : bigSep (insert (⟨n, hn⟩ : Fin 16) (Finset.univ.filter fun j : Fin 16 => j.val < n)) Ψ
      = iprop(Ψ ⟨n, hn⟩ ∗ bigSep (Finset.univ.filter fun j : Fin 16 => j.val < n) Ψ) := by rw [BI.bigSep_insert n2]; rfl
  unfold chunks
  rw [h1, h2, e1, e2]
  iintro ⟨Hd, Hc, Hr⟩
  isplitl [Hc]; · iexact Hc
  iintro Hn
  isplitl [Hd Hn]
  · isplitl [Hn]; · iexact Hn
    iexact Hd
  · iexact Hr

/-! ## What the rounds need and leave, per chunk -/

/-- The standing facts: every cell's invariant and reached mark, and the levels. -/
def ctx : sProp 𝕄 := iprop(records m K ∗ levAts L lv)
instance ctx_persistent : BI.Persistent (ctx m K) := by unfold ctx; infer_instance

abbrev xLoc : Loc nD τ sig := (xM : Memref sig .tc .vmem S512x512 .f32).view.loc (c : Thread nD τ)

/-- For chunk `i`'s transfer along the first axis: a read share of the input buffer, the partner's slot, the two duties' tokens. -/
def needX (i : Fin 16) : sProp 𝕄 :=
  iprop((xLoc c ↦[Finset.univ]{qTok i} xstg m c)
    ∗ (∃ f, (rxSlot i : Memref sig .tc .vmem S16x512 .f32).view.loc ((xp c : Dev nD) : Thread nD τ) ↦[(rxSlot i : Memref sig .tc .vmem S16x512 .f32).view.set]{fullShare} f)
    ∗ dutyTok ER (dCell 0 i c) 0 false ∗ dutyTok ER (dCell 1 i (xp c)) 0 false)
/-- It leaves the share off the chunk's rows and the send cell's credit. -/
def gotX (i : Fin 16) : sProp 𝕄 :=
  iprop((xLoc c ↦[Finset.univ \ (xRow c i : Memref sig .tc .vmem S16x512 .f32).view.set]{qTok i} xstg m c) ∗ cred (tallyAt (dCell 0 i c) () N))

/-- For the first round of sums on chunk `i`: the receive cell's position and credit, the second partner's slot, the forward's tokens. -/
def needY (i : Fin 16) : sProp 𝕄 :=
  iprop(atPos ER (dCell 1 i c) 0 ∅ 0 ∗ cred (tallyAt (dCell 1 i c) () N)
    ∗ (∃ f, (rySlot i : Memref sig .tc .vmem S16x512 .f32).view.loc ((yp c : Dev nD) : Thread nD τ) ↦[(rySlot i : Memref sig .tc .vmem S16x512 .f32).view.set]{fullShare} f)
    ∗ dutyTok ER (dCell 2 i c) 0 false ∗ dutyTok ER (dCell 3 i (yp c)) 0 false)
/-- It leaves half of slot `i` at the partner's rows, the forward's send credit, the receive cell past its round. -/
def gotY (i : Fin 16) : sProp 𝕄 :=
  iprop(((rxSlot i : Memref sig .tc .vmem S16x512 .f32).view.loc (c : Thread nD τ) ↦[(rxSlot i : Memref sig .tc .vmem S16x512 .f32).view.set]{fullShare.left} rxLanded m c i)
    ∗ cred (tallyAt (dCell 2 i c) () N) ∗ atPos ER (dCell 1 i c) 1 ∅ 0)

def needZ (i : Fin 16) : sProp 𝕄 := iprop(atPos ER (dCell 3 i c) 0 ∅ 0 ∗ cred (tallyAt (dCell 3 i c) () N))
def gotZ (i : Fin 16) : sProp 𝕄 :=
  iprop(((rySlot i : Memref sig .tc .vmem S16x512 .f32).view.loc (c : Thread nD τ) ↦[(rySlot i : Memref sig .tc .vmem S16x512 .f32).view.set]{fullShare} ryLanded m c i)
    ∗ atPos ER (dCell 3 i c) 1 ∅ 0)

def needW (i : Fin 16) : sProp 𝕄 := iprop(atPos ER (dCell 0 i c) 0 ∅ 0 ∗ atPos ER (dCell 2 i c) 0 ∅ 0)
/-- After both send waits: the read share whole again, slot `i` whole again, both send cells past their round. -/
def gotW (i : Fin 16) : sProp 𝕄 :=
  iprop((xLoc c ↦[Finset.univ]{qTok i} xstg m c)
    ∗ ((rxSlot i : Memref sig .tc .vmem S16x512 .f32).view.loc (c : Thread nD τ) ↦[(rxSlot i : Memref sig .tc .vmem S16x512 .f32).view.set]{fullShare} rxLanded m c i)
    ∗ atPos ER (dCell 0 i c) 1 ∅ 0 ∗ atPos ER (dCell 2 i c) 1 ∅ 0)

/-- The share of the input buffer the loads read through. -/
def xKeep : sProp 𝕄 := xLoc c ↦[Finset.univ]{qKeep} xstg m c
/-- The output buffer, whole. -/
def outPts (f : (cc0_stg1_0 : Ref sig .tc).ty.Contents (Elt F)) : sProp 𝕄 :=
  (oM : Memref sig .tc .vmem S512x512 .f32).view.loc (c : Thread nD τ) ↦[Finset.univ]{fullShare} f
/-- What the device owes, at whatever waits it has recorded. -/
def owing (O : CellTallies nD τ sig Unit) : sProp 𝕄 := iprop(∃ W : Waits sig Unit, owes (c : Thread nD τ) O W)

end Cert.KernelIdeal.P

end
-- ==== Proof.Geometry.lean ====
/- Where the chunks lie: the slots of a receive buffer partition it, the row chunks of the two rounds cover the output. -/
import proofs.«900724_g7700000000000725_dist_ar_v7x_xyz2x4x4_x_m512_n512_f32_1_alg».proof.Proof.Cells
import Idealize.ShloMosaic.Lib.Pipeline.Value

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a view's elements held before a transfer overwrote them all does not matter. -/
theorem landed_congr {sp : Space} {s : Shape} {e : EltTy} (t : Thread nD τ) (v : View sig t.2.kind sp s e) (q : PosShare TreeShare)
    (fd fd' : v.ty.Contents (Elt F)) (w : s.Idx → Elt F e) :
    (v.loc t ↦[v.set]{q} v.write (Elt F) fd w Finset.univ : sProp 𝕄) = (v.loc t ↦[v.set]{q} v.write (Elt F) fd' w Finset.univ) :=
  pointsTo_congr fun i hi => View.write_congr (fun _ _ _ => rfl) fun h => absurd hi h

/-! ## The sixteen slots of a receive buffer

Slot `i` is the indices whose first coordinate is `i`: different slots share no index, and every index lies in the slot
its first coordinate names. -/

theorem rxSlot_set (i : Fin 16) : (rxSlot i : Memref sig .tc .vmem S16x512 .f32).view.set = (slotRect i).set :=
  (View.set_reshape _ _).trans (View.set_slice_whole _ _)
theorem rySlot_set (i : Fin 16) : (rySlot i : Memref sig .tc .vmem S16x512 .f32).view.set = (slotRect i).set :=
  (View.set_reshape _ _).trans (View.set_slice_whole _ _)

theorem slot_disjoint {i j : Fin 16} (h : i ≠ j) : Disjoint (slotRect i).set (slotRect j).set :=
  Rect.unit_disjoint 0 (by show i.val + 1 ≤ j.val ∨ j.val + 1 ≤ i.val; have := Fin.val_ne_of_ne h; omega)

/-- Every index lies in the slot its first coordinate names. -/
theorem slot_mem (x : S16x16x512.Idx) : x ∈ (slotRect ⟨(x 0).val, (x 0).isLt⟩).set := by
  have h1 : (x 1).val < 16 := (x 1).isLt
  have h2 : (x 2).val < 512 := (x 2).isLt
  refine Rect.mem_set_unit.mpr (Fin.forall_fin_succ.mpr ⟨?_, Fin.forall_fin_succ.mpr ⟨?_, Fin.forall_fin_succ.mpr ⟨?_, fun a => a.elim0⟩⟩⟩)
  · show (x 0).val ≤ (x 0).val ∧ (x 0).val < (x 0).val + 1; omega
  · show 0 ≤ (x 1).val ∧ (x 1).val < 0 + 16; omega
  · show 0 ≤ (x 2).val ∧ (x 2).val < 0 + 512; omega

/-- A buffer held whole is held set by set along sixteen sets that share no index and together are everything, -/
theorem split16 {ℓ : Loc nD τ sig} (K : Fin 16 → Finset (Idx ℓ)) (hd : ∀ i j, i ≠ j → Disjoint (K i) (K j))
    (hx : ∀ x, ∃ i, x ∈ K i) :
    (iprop(∃ f : Buf (Elt F) ℓ, ℓ ↦{fullShare} f) : sProp 𝕄) ⊢ bigSep Finset.univ fun i : Fin 16 => iprop(∃ f, ℓ ↦[K i]{fullShare} f) := by
  have hc : Finset.univ.biUnion K = Finset.univ :=
    Finset.eq_univ_iff_forall.mpr fun x => Finset.mem_biUnion.mpr ((hx x).imp fun i h => ⟨Finset.mem_univ i, h⟩)
  refine exists_elim fun f => ?_
  have e : (ℓ ↦{fullShare} f : sProp 𝕄) = bigSep Finset.univ fun i : Fin 16 => ℓ ↦[K i]{fullShare} f := by
    rw [← pointsTo_biUnion Finset.univ K fun i _ j _ h => hd i j h, hc]
  rw [e]
  exact bigSep_mono fun i _ => exists_intro (Φ := fun f => (ℓ ↦[K i]{fullShare} f : sProp 𝕄)) f
/-- and back: the sixteen contents are pieced together. -/
theorem join16 {ℓ : Loc nD τ sig} (K : Fin 16 → Finset (Idx ℓ)) (hd : ∀ i j, i ≠ j → Disjoint (K i) (K j))
    (hx : ∀ x, ∃ i, x ∈ K i) :
    (bigSep Finset.univ fun i : Fin 16 => iprop(∃ f, ℓ ↦[K i]{fullShare} f) : sProp 𝕄) ⊢ iprop(∃ f : Buf (Elt F) ℓ, ℓ ↦{fullShare} f) := by
  have hc : Finset.univ.biUnion K = Finset.univ :=
    Finset.eq_univ_iff_forall.mpr fun x => Finset.mem_biUnion.mpr ((hx x).imp fun i h => ⟨Finset.mem_univ i, h⟩)
  haveI : Nonempty (Buf (Elt F) ℓ) := ⟨anyBuf⟩
  refine (bigSep_exists_pi Finset.univ fun (i : Fin 16) (f : Buf (Elt F) ℓ) => (ℓ ↦[K i]{fullShare} f : sProp 𝕄)).trans ?_
  refine exists_elim fun fs => ?_
  have h : (bigSep Finset.univ (fun i : Fin 16 => ℓ ↦[K i]{fullShare} fs i) : sProp 𝕄) ⊢ _ :=
    pointsTo_biUnion_join Finset.univ K fs anyBuf fun i _ j _ h => hd i j h
  rw [hc] at h
  refine h.trans (exists_elim fun g => ?_)
  iintro ⟨-, H⟩
  iexists g
  iexact H

/-- A receive buffer held whole is its sixteen slots held one by one, and back. -/
theorem rx_split (c : Dev nD) : rxAny (F := F) c ⊢
    (bigSep Finset.univ fun i : Fin 16 => iprop(∃ f, (rxSlot i : Memref sig .tc .vmem S16x512 .f32).view.loc (c : Thread nD τ) ↦[(rxSlot i : Memref sig .tc .vmem S16x512 .f32).view.set]{fullShare} f) : sProp 𝕄) :=
  split16 (ℓ := (c : Thread nD τ).loc cc0_scratch0) (fun i => (rxSlot i : Memref sig .tc .vmem S16x512 .f32).view.set)
    (fun i j h => by rw [rxSlot_set, rxSlot_set]; exact slot_disjoint h) (fun x => ⟨⟨(x 0).val, (x 0).isLt⟩, by rw [rxSlot_set]; exact slot_mem x⟩)
theorem rx_join (c : Dev nD) :
    (bigSep Finset.univ fun i : Fin 16 => iprop(∃ f, (rxSlot i : Memref sig .tc .vmem S16x512 .f32).view.loc (c : Thread nD τ) ↦[(rxSlot i : Memref sig .tc .vmem S16x512 .f32).view.set]{fullShare} f) : sProp 𝕄)
      ⊢ rxAny (F := F) c :=
  join16 (ℓ := (c : Thread nD τ).loc cc0_scratch0) (fun i => (rxSlot i : Memref sig .tc .vmem S16x512 .f32).view.set)
    (fun i j h => by rw [rxSlot_set, rxSlot_set]; exact slot_disjoint h) (fun x => ⟨⟨(x 0).val, (x 0).isLt⟩, by rw [rxSlot_set]; exact slot_mem x⟩)
theorem ry_split (c : Dev nD) : ryAny (F := F) c ⊢
    (bigSep Finset.univ fun i : Fin 16 => iprop(∃ f, (rySlot i : Memref sig .tc .vmem S16x512 .f32).view.loc (c : Thread nD τ) ↦[(rySlot i : Memref sig .tc .vmem S16x512 .f32).view.set]{fullShare} f) : sProp 𝕄) :=
  split16 (ℓ := (c : Thread nD τ).loc cc0_scratch1) (fun i => (rySlot i : Memref sig .tc .vmem S16x512 .f32).view.set)
    (fun i j h => by rw [rySlot_set, rySlot_set]; exact slot_disjoint h) (fun x => ⟨⟨(x 0).val, (x 0).isLt⟩, by rw [rySlot_set]; exact slot_mem x⟩)
theorem ry_join (c : Dev nD) :
    (bigSep Finset.univ fun i : Fin 16 => iprop(∃ f, (rySlot i : Memref sig .tc .vmem S16x512 .f32).view.loc (c : Thread nD τ) ↦[(rySlot i : Memref sig .tc .vmem S16x512 .f32).view.set]{fullShare} f) : sProp 𝕄)
      ⊢ ryAny (F := F) c :=
  join16 (ℓ := (c : Thread nD τ).loc cc0_scratch1) (fun i => (rySlot i : Memref sig .tc .vmem S16x512 .f32).view.set)
    (fun i j h => by rw [rySlot_set, rySlot_set]; exact slot_disjoint h) (fun x => ⟨⟨(x 0).val, (x 0).isLt⟩, by rw [rySlot_set]; exact slot_mem x⟩)

/-! ## The thirty-two stores cover the output

Two runs of the stores from different contents agree at an index as soon as one store has gone through it: a store
writes its payload on its own elements whatever was there, and keeps elsewhere whatever agreement there was. The first
round's rectangles are the rows `256 * hh c + 16 * j`, …, the second's the rows `256 * (1 - hh c) + 16 * j`, …, sixteen
rows each for `j < 16`: an index of row `r` lies in chunk `r % 256 / 16` of the round whose half `r / 256` names. -/

theorem out2_succ (c : Dev nD) (f0 : (cc0_stg1_0 : Ref sig .tc).ty.Contents (Elt F)) (n : ℕ) (h : n < 16) :
    out2 m c f0 (n + 1) = ((oM : Memref sig .tc .vmem S512x512 .f32).access (rowRect2 c ⟨n, h⟩)).write (Elt F) (out2 m c f0 n) (sum2 m c ⟨n, h⟩) Finset.univ := by
  rw [out2, dif_pos h]
theorem out3_succ (c : Dev nD) (f0 : (cc0_stg1_0 : Ref sig .tc).ty.Contents (Elt F)) (n : ℕ) (h : n < 16) :
    out3 m c f0 (n + 1) = ((oM : Memref sig .tc .vmem S512x512 .f32).access (rowRect3 c ⟨n, h⟩)).write (Elt F) (out3 m c f0 n) (sum3 m c ⟨n, h⟩) Finset.univ := by
  rw [out3, dif_pos h]

/-- After a store through the rectangle `r`, two contents agree at `i` if `i` is in `r` or they agreed there before. -/
theorem store_agree (r : Rect S512x512) (f g : (cc0_stg1_0 : Ref sig .tc).ty.Contents (Elt F)) (w : r.shape.Idx → Elt F .f32)
    (i : (cc0_stg1_0 : Ref sig .tc).ty.Idx) (h : i ∈ r.set ∨ f i = g i) :
    ((oM : Memref sig .tc .vmem S512x512 .f32).access r).write (Elt F) f w Finset.univ i
      = ((oM : Memref sig .tc .vmem S512x512 .f32).access r).write (Elt F) g w Finset.univ i :=
  View.write_congr (fun _ _ _ => rfl) fun hn => h.resolve_left fun hi => hn (by rw [View.setOn_univ, View.set_slice_whole]; exact hi)

theorem out2_agree (c : Dev nD) (f0 f0' : (cc0_stg1_0 : Ref sig .tc).ty.Contents (Elt F)) (i : (cc0_stg1_0 : Ref sig .tc).ty.Idx) :
    ∀ n, n ≤ 16 → (∃ j : Fin 16, j.val < n ∧ i ∈ (rowRect2 c j).set) → out2 m c f0 n i = out2 m c f0' n i
  | 0, _, ⟨_, hj, _⟩ => absurd hj (Nat.not_lt_zero _)
  | n + 1, hn, ⟨j, hj, hi⟩ => by
    have h : n < 16 := hn
    rw [out2_succ m c f0 n h, out2_succ m c f0' n h]
    refine store_agree _ _ _ _ i ?_
    by_cases e : j = ⟨n, h⟩
    · exact Or.inl (e ▸ hi)
    · exact Or.inr (out2_agree c f0 f0' i n (Nat.le_of_lt h) ⟨j, by have := Fin.val_ne_of_ne e; simp only at this; omega, hi⟩)

theorem out3_agree (c : Dev nD) (f0 f0' : (cc0_stg1_0 : Ref sig .tc).ty.Contents (Elt F)) (i : (cc0_stg1_0 : Ref sig .tc).ty.Idx) :
    ∀ n, n ≤ 16 → ((∃ j : Fin 16, i ∈ (rowRect2 c j).set) ∨ ∃ j : Fin 16, j.val < n ∧ i ∈ (rowRect3 c j).set) →
      out3 m c f0 n i = out3 m c f0' n i
  | 0, _, hc => by
    rw [out3, out3]
    rcases hc with ⟨j, hi⟩ | ⟨_, hj, _⟩
    · exact out2_agree m c f0 f0' i 16 (Nat.le_refl _) ⟨j, j.isLt, hi⟩
    · exact absurd hj (Nat.not_lt_zero _)
  | n + 1, hn, hc => by
    have h : n < 16 := hn
    rw [out3_succ m c f0 n h, out3_succ m c f0' n h]
    refine store_agree _ _ _ _ i ?_
    rcases hc with h2 | ⟨j, hj, hi⟩
    · exact Or.inr (out3_agree c f0 f0' i n (Nat.le_of_lt h) (Or.inl h2))
    · by_cases e : j = ⟨n, h⟩
      · exact Or.inl (e ▸ hi)
      · exact Or.inr (out3_agree c f0 f0' i n (Nat.le_of_lt h) (Or.inr ⟨j, by have := Fin.val_ne_of_ne e; simp only at this; omega, hi⟩))

/-- Every index of the output lies in a rectangle of the first round or of the second. -/
theorem rows_cover (c : Dev nD) (i : (cc0_stg1_0 : Ref sig .tc).ty.Idx) :
    (∃ j : Fin 16, i ∈ (rowRect2 c j).set) ∨ ∃ j : Fin 16, i ∈ (rowRect3 c j).set := by
  have h0 : (i 0).val < 512 := (i 0).isLt
  have h1 : (i 1).val < 512 := (i 1).isLt
  have hc := hh_le c
  have hj : (i 0).val % 256 / 16 < 16 := by omega
  by_cases e : (i 0).val / 256 = hh c
  · refine Or.inl ⟨⟨(i 0).val % 256 / 16, hj⟩, ?_⟩
    rw [Rect.mem_set_unit, off2_eq]
    refine Fin.forall_fin_two.mpr ⟨?_, ?_⟩
    · show 256 * hh c + 16 * ((i 0).val % 256 / 16) ≤ (i 0).val ∧ (i 0).val < 256 * hh c + 16 * ((i 0).val % 256 / 16) + 16
      omega
    · show 0 ≤ (i 1).val ∧ (i 1).val < 0 + 512
      omega
  · refine Or.inr ⟨⟨(i 0).val % 256 / 16, hj⟩, ?_⟩
    rw [Rect.mem_set_unit, off3_eq]
    refine Fin.forall_fin_two.mpr ⟨?_, ?_⟩
    · show 256 * (1 - hh c) + 16 * ((i 0).val % 256 / 16) ≤ (i 0).val ∧ (i 0).val < 256 * (1 - hh c) + 16 * ((i 0).val % 256 / 16) + 16
      omega
    · show 0 ≤ (i 1).val ∧ (i 1).val < 0 + 512
      omega

/-- The thirty-two stores overwrite every row of the output: what it held before does not matter. -/
theorem out_indep (c : Dev nD) (f0 : (cc0_stg1_0 : Ref sig .tc).ty.Contents (Elt F)) : out3 m c f0 16 = outAt m c :=
  funext fun i => out3_agree m c f0 anyBuf i 16 (Nat.le_refl _) ((rows_cover c i).imp id fun ⟨j, hj⟩ => ⟨j, j.isLt, hj⟩)

/-- info: 'Cert.KernelIdeal.P.landed_congr' depends on axioms: [propext, Classical.choice, Quot.sound] -/
#guard_msgs in #print axioms landed_congr
/-- info: 'Cert.KernelIdeal.P.rx_split' depends on axioms: [propext, Classical.choice, Quot.sound] -/
#guard_msgs in #print axioms rx_split
/-- info: 'Cert.KernelIdeal.P.rx_join' depends on axioms: [propext, Classical.choice, Quot.sound] -/
#guard_msgs in #print axioms rx_join
/-- info: 'Cert.KernelIdeal.P.ry_split' depends on axioms: [propext, Classical.choice, Quot.sound] -/
#guard_msgs in #print axioms ry_split
/-- info: 'Cert.KernelIdeal.P.ry_join' depends on axioms: [propext, Classical.choice, Quot.sound] -/
#guard_msgs in #print axioms ry_join
/-- info: 'Cert.KernelIdeal.P.out_indep' depends on axioms: [propext, Classical.choice, Quot.sound] -/
#guard_msgs in #print axioms out_indep

end Cert.KernelIdeal.P

end
-- ==== Proof.Steps.lean ====
/- One rule per effect of a device's body, from what it holds to what it then holds. -/
import proofs.«900724_g7700000000000725_dist_ar_v7x_xyz2x4x4_x_m512_n512_f32_1_alg».proof.Proof.Cells
import proofs.«900724_g7700000000000725_dist_ar_v7x_xyz2x4x4_x_m512_n512_f32_1_alg».proof.Proof.States
import proofs.«900724_g7700000000000725_dist_ar_v7x_xyz2x4x4_x_m512_n512_f32_1_alg».proof.Proof.Levels
import proofs.«900724_g7700000000000725_dist_ar_v7x_xyz2x4x4_x_m512_n512_f32_1_alg».proof.Proof.Geometry

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## The entry handshake -/

/-- The first signal, to the first-axis partner's barrier: its duty `true`, paid with this device's first receive buffer. -/
theorem step_sig1 {α : Type} {Q : α → sProp 𝕄} {k : PUnit → Prog (TpuEff nD τ sig (Elt F) Λ₀ .tc) α} (n : Dev nD) (hn : n = xp c) (W : Waits sig Unit) :
    iprop(ctx m K ∗ owes (c : Thread nD τ) (O₀ c) W ∗ dutyTok ER (barCell (xp c)) 0 true ∗ rxAny c)
      ⊢ iprop((owes (c : Thread nD τ) (O₁ c) W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS (1#32).toNat) k) Q) := by
  subst hn
  unfold ctx
  iintro ⟨⟨#HR, #Hlev⟩, HO, Htok, Hrx⟩ Hk
  iapply (Rounds.wp_signal 𝒱₀ ER (Rd m) (c : Thread nD τ) none (dst := ((xp c : Dev nD) : Thread nD τ)) (κ := K (xp c, none))
      (d := true) (by rw [duties_bar]; exact Finset.mem_univ _) ((amount_bar m (xp c) true).trans (by decide)) () (O₁ c) rfl) $$ [HO Htok Hrx]
  · isplitr; · iapply (inv_at m K (xp c, none)); iexact HR
    isplitl [HO]; · iexact HO
    isplitl [Htok]; · iexact Htok
    isplitl [Hrx]
    · rw [payload_bar_true]; unfold barPayX; rw [xp_xp]; iapply (rx_split c); iexact Hrx
    · iapply (reached_at m K (xp c, none)); iexact HR
  iexact Hk

/-- The second signal, to the second-axis partner's barrier: its duty `false`, paid with the second receive buffer. -/
theorem step_sig2 {α : Type} {Q : α → sProp 𝕄} {k : PUnit → Prog (TpuEff nD τ sig (Elt F) Λ₀ .tc) α} (n : Dev nD) (hn : n = yp c) (W : Waits sig Unit) :
    iprop(ctx m K ∗ owes (c : Thread nD τ) (O₁ c) W ∗ dutyTok ER (barCell (yp c)) 0 false ∗ ryAny c)
      ⊢ iprop((owes (c : Thread nD τ) (Oy c 0 + Ox c 0) W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS (1#32).toNat) k) Q) := by
  subst hn
  unfold ctx
  iintro ⟨⟨#HR, #Hlev⟩, HO, Htok, Hry⟩ Hk
  iapply (Rounds.wp_signal 𝒱₀ ER (Rd m) (c : Thread nD τ) none (dst := ((yp c : Dev nD) : Thread nD τ)) (κ := K (yp c, none))
      (d := false) (by rw [duties_bar]; exact Finset.mem_univ _) ((amount_bar m (yp c) false).trans (by decide)) () (Oy c 0 + Ox c 0) rfl) $$ [HO Htok Hry]
  · isplitr; · iapply (inv_at m K (yp c, none)); iexact HR
    isplitl [HO]; · iexact HO
    isplitl [Htok]; · iexact Htok
    isplitl [Hry]
    · rw [payload_bar_false]; unfold barPayY; rw [yp_yp]; iapply (ry_split c); iexact Hry
    · iapply (reached_at m K (yp c, none)); iexact HR
  iexact Hk

/-- The wait for both partners' signals: both partners' receive buffers come with them. -/
theorem step_barwait {α : Type} {Q : α → sProp 𝕄} {k : PUnit → Prog (TpuEff nD τ sig (Elt F) Λ₀ .tc) α} (W : Waits sig Unit) :
    iprop(ctx m K ∗ owes (c : Thread nD τ) (Oy c 0 + Ox c 0) W ∗ cred (tallyAt (barCell c) () 2) ∗ atPos ER (barCell c) 0 ∅ 0)
      ⊢ iprop((owing c (Oy c 0 + Ox c 0) ∗ barPayY c ∗ barPayX c -∗ wp frame (wpE (defs₀ (F := F)) 𝒱₀ c none) Set.univ (k ⟨⟩) Q)
          -∗ wp frame (wpE (defs₀ (F := F)) 𝒱₀ c none) Set.univ (.op (.semWait barS (2#32).toNat) k) Q) := by
  unfold ctx
  iintro ⟨⟨#HR, #Hlev⟩, HO, Hc, Hat⟩ Hk
  iapply (Rounds.wp_wait_rest_token 𝒱₀ ER (Rd m) (c : Thread nD τ) none (κ := K (c, none))
      (wpE_semWait_eq 𝒱₀ (c : Thread nD τ) none Set.univ) (Set.mem_univ _) () (O := Oy c 0 + Ox c 0) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · unfold owing; iexists _; iexact HO
  iexact Hp

/-! ## The transfers along the first axis -/

/-- Chunk `i`'s rows to the first-axis partner's slot `i`, on a read share of the input buffer. -/
theorem step_xsend {α : Type} {Q : α → sProp 𝕄} (i : Fin 16) {k : PUnit → Prog (TpuEff nD τ sig (Elt F) Λ₀ .tc) α} (n : Dev nD) (hn : n = xp c)
    {sS sR : DmaSem sig} (hS : sS = dS 0 i) (hR : sR = dS 1 i)
    {hsc : (rxSlot i : Memref sig (Dev.tc n : Thread nD τ).2.kind .vmem S16x512 .f32).view.ref.isScScratch = false}
    {hsrc : (xRow c i : Memref sig .tc .vmem S16x512 .f32).view.WordExact} {hdst : (rxSlot i : Memref sig .tc .vmem S16x512 .f32).view.WordExact}
    {hsem : DmaTarget.Typed .vmem (.dma sR) (.remote (Dev.tc n : Thread nD τ) (rxSlot i : Memref sig .tc .vmem S16x512 .f32) (.dma sS) hsc)} :
    iprop(ctx m K ∗ owing c (Oy c 0 + Ox c i.val) ∗ needX m c i)
      ⊢ iprop((owing c (Oy c 0 + Ox c (i.val + 1)) ∗ gotX m c i -∗ wp frame (wpE (defs₀ (F := F)) 𝒱₀ c none) Set.univ (k ⟨⟩) Q)
          -∗ wp frame (wpE (defs₀ (F := F)) 𝒱₀ c none) Set.univ
              (.op (.enqueueDma (xRow c i) (.remote (Dev.tc n : Thread nD τ) (rxSlot i) (.dma sS) hsc) (.dma sR) hsrc hdst hsem) k) Q) := by
  subst hn hS hR
  unfold ctx owing needX
  iintro ⟨⟨#HR, #Hlev⟩, ⟨%W, HO⟩, Hx, ⟨%f, Hslot⟩, HtS, HtR⟩ Hk
  ihave Hx2 := (pointsTo_split_subset (Finset.subset_univ ((xRow c i : Memref sig .tc .vmem S16x512 .f32).view.set))).1 $$ Hx
  icases Hx2 with ⟨Hrows, Hrest⟩
  iapply (Rounds.wp_send_pointsTo 𝒱₀ ER (Rd m) (c : Thread nD τ) none (κ₁ := K (c, some (0, i))) (κ₂ := K (xp c, some (1, i)))
      (r₁ := 0) (r₂ := 0) (d₁ := false) (d₂ := false) (fd := f) (O₀ := Oy c 0 + Ox c i.val)
      (by rw [duties_d]; exact Finset.mem_singleton_self _) (by rw [duties_d]; exact Finset.mem_singleton_self _)
      () () N rfl (amount_d m c 0 i false) (amount_d m (xp c) 1 i false) (Oy c 0 + Ox c (i.val + 1))
      (by rw [Ox_succ c i.val i.isLt, add_assoc]) (W := W)
      (by rw [payload_d0]; exact BI.Entails.refl _)
      (by rw [payload_d1]; unfold pay1 rxLanded; rw [xp_xp]; exact Entails.of_eq (landed_congr _ _ _ _ _ _))) $$ [HO Hrows Hslot HtS HtR]
  · isplitr; · iapply (inv_at m K (c, some (0, i))); iexact HR
    isplitr; · iapply (inv_at m K (xp c, some (1, i))); iexact HR
    isplitl [Hrows]; · iexact Hrows
    isplitl [Hslot]; · iexact Hslot
    isplitl [HO]; · iexact HO
    isplitl [HtS]; · iexact HtS
    isplitr; · iapply (reached_at m K (c, some (0, i))); iexact HR
    isplitl [HtR]; · iexact HtR
    iapply (reached_at m K (xp c, some (1, i))); iexact HR
  iintro ⟨Hcr, HO⟩
  iapply Hk
  isplitl [HO]; · iexists W; iexact HO
  unfold gotX
  isplitl [Hrest]; · iexact Hrest
  iexact Hcr

/-! ## Waits on the device's own DMA cells -/

theorem dmaPay_0 (i : Fin 16) : dmaPay m 0 i c = pay0 m i c := rfl
theorem dmaPay_1 (i : Fin 16) : dmaPay m 1 i c = pay1 m i c := rfl
theorem dmaPay_2 (i : Fin 16) : dmaPay m 2 i c = pay2 m i c := rfl
theorem dmaPay_3 (i : Fin 16) : dmaPay m 3 i c = pay3 m i c := rfl

/-- A wait for a chunk's credit on cell `a, i`, owing `O` all of which lies above the cell: the landing's delivery comes
    with it, and the cell is past its one round. -/
theorem step_wait {α : Type} {Q : α → sProp 𝕄} (a : Fin 4) (i : Fin 16) (O : CellTallies nD τ sig Unit)
    (hmw : (levAts L lv : sProp 𝕄) ⊢ MayWait (c : Thread nD τ) (.dma (dS a i)) () O)
    {k : PUnit → Prog (TpuEff nD τ sig (Elt F) Λ₀ .tc) α}
    {sp sp' : Space} {s s' : Shape} {e e' : EltTy} {sem : DmaSem sig} (hsem : sem = dS a i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c O ∗ cred (tallyAt (dCell a i c) () N) ∗ atPos ER (dCell a i c) 0 ∅ 0)
      ⊢ iprop((owing c O ∗ dmaPay m a i c ∗ atPos ER (dCell a i c) 1 ∅ 0 -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  subst hsem
  unfold ctx owing
  iintro ⟨⟨#HR, #Hlev⟩, ⟨%W, HO⟩, Hc, Hat⟩ Hk
  ihave Hc' := (Entails.of_eq (show (cred (tallyAt (dCell a i c) () N) : sProp 𝕄) = cred (tallyAt (dCell a i c) () dst.view.dmaCredit) by rw [hN])) $$ Hc
  iapply (Rounds.wp_wait_rest_token 𝒱₀ ER (Rd m) (c : Thread nD τ) none (κ := K (c, some (a, i)))
      (wpE_waitDma2_eq 𝒱₀ (c : Thread nD τ) none Set.univ) (Set.mem_univ _) () (O := O) (W := W) (R := 0) (m := 0) (T := ∅)
      (by rw [Nat.zero_add, expect_d, hN])) $$ [Hc' HO Hat]
  · isplitr; · iapply (inv_at m K (c, some (a, i))); iexact HR
    isplitl [Hc']; · iexact Hc'
    isplitl [HO]; · iexact HO
    isplitr; · iapply hmw; iexact Hlev
    iexact Hat
  iintro ⟨HO, Hat, -, Hpay⟩
  ihave Hp := (Entails.of_eq (rest_d m c a i)) $$ Hpay
  iapply Hk
  isplitl [HO]; · iexists _; iexact HO
  isplitl [Hp]; · iexact Hp
  iexact Hat

theorem mayWait_none (g : SemLoc sig) : (levAts L lv : sProp 𝕄) ⊢ MayWait (c : Thread nD τ) g () 0 := by
  rw [MayWait_zero]; iintro -; iempintro

/-! ## The forwards along the second axis -/

/-- Chunk `i` between its landing and its forward: slot `i` whole at the partner's rows. -/
def midY (i : Fin 16) : sProp 𝕄 :=
  iprop(pay1 m i c ∗ atPos ER (dCell 1 i c) 1 ∅ 0
    ∗ (∃ f, (rySlot i : Memref sig .tc .vmem S16x512 .f32).view.loc ((yp c : Dev nD) : Thread nD τ) ↦[(rySlot i : Memref sig .tc .vmem S16x512 .f32).view.set]{fullShare} f)
    ∗ dutyTok ER (dCell 2 i c) 0 false ∗ dutyTok ER (dCell 3 i (yp c)) 0 false)

/-- Slot `i` forwarded to the second-axis partner's slot `i` on half its share; the other half stays for the sum. -/
theorem step_ysend {α : Type} {Q : α → sProp 𝕄} (i : Fin 16) {k : PUnit → Prog (TpuEff nD τ sig (Elt F) Λ₀ .tc) α} (n : Dev nD) (hn : n = yp c)
    {sS sR : DmaSem sig} (hS : sS = dS 2 i) (hR : sR = dS 3 i)
    {hsc : (rySlot i : Memref sig (Dev.tc n : Thread nD τ).2.kind .vmem S16x512 .f32).view.ref.isScScratch = false}
    {hsrc : (rxSlot i : Memref sig .tc .vmem S16x512 .f32).view.WordExact} {hdst : (rySlot i : Memref sig .tc .vmem S16x512 .f32).view.WordExact}
    {hsem : DmaTarget.Typed .vmem (.dma sR) (.remote (Dev.tc n : Thread nD τ) (rySlot i : Memref sig .tc .vmem S16x512 .f32) (.dma sS) hsc)} :
    iprop(ctx m K ∗ owing c (Oy c i.val) ∗ midY m c i)
      ⊢ iprop((owing c (Oy c (i.val + 1)) ∗ gotY m c i -∗ wp frame (wpE (defs₀ (F := F)) 𝒱₀ c none) Set.univ (k ⟨⟩) Q)
          -∗ wp frame (wpE (defs₀ (F := F)) 𝒱₀ c none) Set.univ
              (.op (.enqueueDma (rxSlot i) (.remote (Dev.tc n : Thread nD τ) (rySlot i) (.dma sS) hsc) (.dma sR) hsrc hdst hsem) k) Q) := by
  subst hn hS hR
  unfold ctx owing midY pay1
  iintro ⟨⟨#HR, #Hlev⟩, ⟨%W, HO⟩, Hsl, Hat, ⟨%f, Hslot⟩, HtS, HtR⟩ Hk
  ihave Hsl2 := (pointsTo_share (PosShare.mem_left_op_right fullShare)).1 $$ Hsl
  icases Hsl2 with ⟨Hl, Hr⟩
  iapply (Rounds.wp_send_pointsTo 𝒱₀ ER (Rd m) (c : Thread nD τ) none (κ₁ := K (c, some (2, i))) (κ₂ := K (yp c, some (3, i)))
      (r₁ := 0) (r₂ := 0) (d₁ := false) (d₂ := false) (fd := f)
      (by rw [duties_d]; exact Finset.mem_singleton_self _) (by rw [duties_d]; exact Finset.mem_singleton_self _)
      () () N rfl (amount_d m c 2 i false) (amount_d m (yp c) 3 i false) (Oy c (i.val + 1))
      (Oy_succ c i.val i.isLt) (W := W)
      (by rw [payload_d2]; exact BI.Entails.refl _)
      (by rw [payload_d3]; unfold pay3 ryLanded; rw [yp_yp]; exact Entails.of_eq (landed_congr _ _ _ _ _ _))) $$ [HO Hr Hslot HtS HtR]
  · isplitr; · iapply (inv_at m K (c, some (2, i))); iexact HR
    isplitr; · iapply (inv_at m K (yp c, some (3, i))); iexact HR
    isplitl [Hr]; · iexact Hr
    isplitl [Hslot]; · iexact Hslot
    isplitl [HO]; · iexact HO
    isplitl [HtS]; · iexact HtS
    isplitr; · iapply (reached_at m K (c, some (2, i))); iexact HR
    isplitl [HtR]; · iexact HtR
    iapply (reached_at m K (yp c, some (3, i))); iexact HR
  iintro ⟨Hcr, HO⟩
  iapply Hk
  isplitl [HO]; · iexists W; iexact HO
  unfold gotY
  isplitl [Hl]; · iexact Hl
  isplitl [Hcr]; · iexact Hcr
  iexact Hat

/-! ## Loads and stores -/

/-- A load of rows of the input buffer, through the share the loads keep. -/
theorem step_loadx {α : Type} {Q : α → sProp 𝕄} {r : LoadRect S512x512} {hl : (xM : Memref sig .tc .vmem S512x512 .f32).view.LoadsAt r}
    {k : (r.shape.Idx → Elt F .f32) → Prog (TpuEff nD τ sig (Elt F) Λ₀ .tc) α} :
    xKeep m c ⊢ iprop((xKeep m c -∗ wp frame (wpE (defs₀ (F := F)) 𝒱₀ c none) Set.univ (k ((xM : Memref sig .tc .vmem S512x512 .f32).view.readAt (Elt F) r (xstg m c))) Q)
        -∗ wp frame (wpE (defs₀ (F := F)) 𝒱₀ c none) Set.univ (.op (.load xM r hl) k) Q) :=
  wp_load 𝒱₀ (c : Thread nD τ) none Set.univ (Finset.subset_univ _)

/-- A load of rows of the output buffer (what a store's mask would keep): whatever it holds. -/
theorem step_loadout {α : Type} {Q : α → sProp 𝕄} (f : (cc0_stg1_0 : Ref sig .tc).ty.Contents (Elt F)) {r : LoadRect S512x512} {hl : (oM : Memref sig .tc .vmem S512x512 .f32).view.LoadsAt r}
    {k : (r.shape.Idx → Elt F .f32) → Prog (TpuEff nD τ sig (Elt F) Λ₀ .tc) α} :
    outPts c f ⊢ iprop((outPts c f -∗ wp frame (wpE (defs₀ (F := F)) 𝒱₀ c none) Set.univ (k ((oM : Memref sig .tc .vmem S512x512 .f32).view.readAt (Elt F) r f)) Q)
        -∗ wp frame (wpE (defs₀ (F := F)) 𝒱₀ c none) Set.univ (.op (.load oM r hl) k) Q) :=
  wp_load 𝒱₀ (c : Thread nD τ) none Set.univ (Finset.subset_univ _)

theorem slot_setOn_rx (i : Fin 16) : (rxM : Memref sig .tc .vmem S16x16x512 .f32).view.setOn (slotRect i).toLoadRect.set ⊆ (rxSlot i : Memref sig .tc .vmem S16x512 .f32).view.set := by
  have e : (rxSlot i : Memref sig .tc .vmem S16x512 .f32).view.set = ((rxM : Memref sig .tc .vmem S16x16x512 .f32).view.slice (slotRect i)).set := View.set_reshape _ _
  rw [e, View.set_slice]; exact subset_rfl
theorem slot_setOn_ry (i : Fin 16) : (ryM : Memref sig .tc .vmem S16x16x512 .f32).view.setOn (slotRect i).toLoadRect.set ⊆ (rySlot i : Memref sig .tc .vmem S16x512 .f32).view.set := by
  have e : (rySlot i : Memref sig .tc .vmem S16x512 .f32).view.set = ((ryM : Memref sig .tc .vmem S16x16x512 .f32).view.slice (slotRect i)).set := View.set_reshape _ _
  rw [e, View.set_slice]; exact subset_rfl

/-- A load of slot `i` of the first receive buffer, at any share of the slot. -/
theorem step_loadrx {α : Type} {Q : α → sProp 𝕄} (i : Fin 16) (q : PosShare TreeShare) (f : Buf (Elt F) ((rxM : Memref sig .tc .vmem S16x16x512 .f32).view.loc (c : Thread nD τ)))
    {hl : (rxM : Memref sig .tc .vmem S16x16x512 .f32).view.LoadsAt (slotRect i).toLoadRect}
    {k : ((slotRect i).toLoadRect.shape.Idx → Elt F .f32) → Prog (TpuEff nD τ sig (Elt F) Λ₀ .tc) α} :
    ((rxM : Memref sig .tc .vmem S16x16x512 .f32).view.loc (c : Thread nD τ) ↦[(rxSlot i : Memref sig .tc .vmem S16x512 .f32).view.set]{q} f)
      ⊢ iprop((((rxM : Memref sig .tc .vmem S16x16x512 .f32).view.loc (c : Thread nD τ) ↦[(rxSlot i : Memref sig .tc .vmem S16x512 .f32).view.set]{q} f)
            -∗ wp frame (wpE (defs₀ (F := F)) 𝒱₀ c none) Set.univ (k ((rxM : Memref sig .tc .vmem S16x16x512 .f32).view.readAt (Elt F) (slotRect i).toLoadRect f)) Q)
        -∗ wp frame (wpE (defs₀ (F := F)) 𝒱₀ c none) Set.univ (.op (.load rxM (slotRect i).toLoadRect hl) k) Q) :=
  wp_load 𝒱₀ (c : Thread nD τ) none Set.univ (slot_setOn_rx i)

theorem step_loadry {α : Type} {Q : α → sProp 𝕄} (i : Fin 16) (q : PosShare TreeShare) (f : Buf (Elt F) ((ryM : Memref sig .tc .vmem S16x16x512 .f32).view.loc (c : Thread nD τ)))
    {hl : (ryM : Memref sig .tc .vmem S16x16x512 .f32).view.LoadsAt (slotRect i).toLoadRect}
    {k : ((slotRect i).toLoadRect.shape.Idx → Elt F .f32) → Prog (TpuEff nD τ sig (Elt F) Λ₀ .tc) α} :
    ((ryM : Memref sig .tc .vmem S16x16x512 .f32).view.loc (c : Thread nD τ) ↦[(rySlot i : Memref sig .tc .vmem S16x512 .f32).view.set]{q} f)
      ⊢ iprop((((ryM : Memref sig .tc .vmem S16x16x512 .f32).view.loc (c : Thread nD τ) ↦[(rySlot i : Memref sig .tc .vmem S16x512 .f32).view.set]{q} f)
            -∗ wp frame (wpE (defs₀ (F := F)) 𝒱₀ c none) Set.univ (k ((ryM : Memref sig .tc .vmem S16x16x512 .f32).view.readAt (Elt F) (slotRect i).toLoadRect f)) Q)
        -∗ wp frame (wpE (defs₀ (F := F)) 𝒱₀ c none) Set.univ (.op (.load ryM (slotRect i).toLoadRect hl) k) Q) :=
  wp_load 𝒱₀ (c : Thread nD τ) none Set.univ (slot_setOn_ry i)

/-- The first round's store of chunk `i`: the next step of the output's chain. -/
theorem step_store2 {α : Type} {Q : α → sProp 𝕄} (i : Fin 16) (f0 : (cc0_stg1_0 : Ref sig .tc).ty.Contents (Elt F)) {w : (rowRect2 c i).shape.Idx → Elt F .f32} (hw : w = sum2 m c i)
    {hx : ((oM : Memref sig .tc .vmem S512x512 .f32).access (rowRect2 c i)).Stores Finset.univ} {hm : (Finset.univ : Finset (rowRect2 c i).shape.Idx) = Finset.univ ∨ ∀ a, (rowRect2 c i).stride a = 1}
    {k : PUnit → Prog (TpuEff nD τ sig (Elt F) Λ₀ .tc) α} :
    outPts c (out2 m c f0 i.val) ⊢ iprop((outPts c (out2 m c f0 (i.val + 1)) -∗ wp frame (wpE (defs₀ (F := F)) 𝒱₀ c none) Set.univ (k ⟨⟩) Q)
        -∗ wp frame (wpE (defs₀ (F := F)) 𝒱₀ c none) Set.univ (.op (.store oM (rowRect2 c i) w Finset.univ hx hm) k) Q) := by
  subst hw
  have e : out2 m c f0 (i.val + 1) = ((oM : Memref sig .tc .vmem S512x512 .f32).access (rowRect2 c i)).write (Elt F) (out2 m c f0 i.val) (sum2 m c i) Finset.univ := by
    rw [out2, dif_pos i.isLt]
  rw [e]
  exact wp_store 𝒱₀ (c : Thread nD τ) none Set.univ (m := oM) (r := rowRect2 c i) (Mk := Finset.univ) (Finset.subset_univ _)

theorem step_store3 {α : Type} {Q : α → sProp 𝕄} (i : Fin 16) (f0 : (cc0_stg1_0 : Ref sig .tc).ty.Contents (Elt F)) {w : (rowRect3 c i).shape.Idx → Elt F .f32} (hw : w = sum3 m c i)
    {hx : ((oM : Memref sig .tc .vmem S512x512 .f32).access (rowRect3 c i)).Stores Finset.univ} {hm : (Finset.univ : Finset (rowRect3 c i).shape.Idx) = Finset.univ ∨ ∀ a, (rowRect3 c i).stride a = 1}
    {k : PUnit → Prog (TpuEff nD τ sig (Elt F) Λ₀ .tc) α} :
    outPts c (out3 m c f0 i.val) ⊢ iprop((outPts c (out3 m c f0 (i.val + 1)) -∗ wp frame (wpE (defs₀ (F := F)) 𝒱₀ c none) Set.univ (k ⟨⟩) Q)
        -∗ wp frame (wpE (defs₀ (F := F)) 𝒱₀ c none) Set.univ (.op (.store oM (rowRect3 c i) w Finset.univ hx hm) k) Q) := by
  subst hw
  have e : out3 m c f0 (i.val + 1) = ((oM : Memref sig .tc .vmem S512x512 .f32).access (rowRect3 c i)).write (Elt F) (out3 m c f0 i.val) (sum3 m c i) Finset.univ := by
    rw [out3, dif_pos i.isLt]
  rw [e]
  exact wp_store 𝒱₀ (c : Thread nD τ) none Set.univ (m := oM) (r := rowRect3 c i) (Mk := Finset.univ) (Finset.subset_univ _)

end Cert.KernelIdeal.P

end
-- ==== Proof.Glue.lean ====
/- Regrouping a device's holdings: at the start, chunk by chunk for the four rounds; at the end, back into whole buffers and closed cells. -/
import proofs.«900724_g7700000000000725_dist_ar_v7x_xyz2x4x4_x_m512_n512_f32_1_alg».proof.Proof.Cells
import proofs.«900724_g7700000000000725_dist_ar_v7x_xyz2x4x4_x_m512_n512_f32_1_alg».proof.Proof.States
import proofs.«900724_g7700000000000725_dist_ar_v7x_xyz2x4x4_x_m512_n512_f32_1_alg».proof.Proof.Levels
import proofs.«900724_g7700000000000725_dist_ar_v7x_xyz2x4x4_x_m512_n512_f32_1_alg».proof.Proof.Geometry

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-- The sixteen read shares of the input buffer, one per chunk. -/
def xToks : sProp 𝕄 := bigSep Finset.univ fun i : Fin 16 => (xLoc c ↦[Finset.univ]{qTok i} xstg m c)

/-- The input buffer held whole is the share the loads keep and the sixteen read shares, and back. -/
theorem x_split : (xLoc c ↦[Finset.univ]{fullShare} xstg m c : sProp 𝕄) ⊢ iprop(xKeep m c ∗ xToks m c) := by
  unfold xKeep xToks
  exact Transfers.pointsTo_toks_split fullShare 16
theorem x_join : iprop(xKeep m c ∗ xToks m c) ⊢ (xLoc c ↦[Finset.univ]{fullShare} xstg m c : sProp 𝕄) := by
  unfold xKeep xToks
  exact Transfers.pointsTo_toks_join fullShare 16

/-- After the entry handshake: everything dealt out chunk by chunk to the four rounds. -/
theorem regroup_start :
    iprop(xToks m c ∗ barPayX c ∗ barPayY c
      ∗ (bigSep Finset.univ fun i : Fin 16 => iprop(atPos ER (dCell 0 i c) 0 ∅ 0 ∗ atPos ER (dCell 1 i c) 0 ∅ 0 ∗ atPos ER (dCell 2 i c) 0 ∅ 0 ∗ atPos ER (dCell 3 i c) 0 ∅ 0))
      ∗ (bigSep Finset.univ fun i : Fin 16 => iprop(dutyTok ER (dCell 0 i c) 0 false ∗ dutyTok ER (dCell 1 i (xp c)) 0 false ∗ dutyTok ER (dCell 2 i c) 0 false ∗ dutyTok ER (dCell 3 i (yp c)) 0 false))
      ∗ (bigSep Finset.univ fun i : Fin 16 => iprop(cred (tallyAt (dCell 1 i c) () N) ∗ cred (tallyAt (dCell 3 i c) () N))))
      ⊢ (iprop((bigSep Finset.univ fun i : Fin 16 => needX m c i) ∗ (bigSep Finset.univ fun i : Fin 16 => needY c i)
          ∗ (bigSep Finset.univ fun i : Fin 16 => needZ c i) ∗ (bigSep Finset.univ fun i : Fin 16 => needW c i)) : sProp 𝕄) := by
  simp only [needX, needY, needZ, needW, xToks, barPayX, barPayY, bigSep_sep']
  iintro ⟨HxT, HbX, HbY, ⟨Ha0, Ha1, Ha2, Ha3⟩, ⟨Ht0, Ht1, Ht2, Ht3⟩, Hc1, Hc3⟩
  isplitl [HxT HbX Ht0 Ht1]
  · isplitl [HxT]; · iexact HxT
    isplitl [HbX]; · iexact HbX
    isplitl [Ht0]; · iexact Ht0
    iexact Ht1
  isplitl [Ha1 Hc1 HbY Ht2 Ht3]
  · isplitl [Ha1]; · iexact Ha1
    isplitl [Hc1]; · iexact Hc1
    isplitl [HbY]; · iexact HbY
    isplitl [Ht2]; · iexact Ht2
    iexact Ht3
  isplitl [Ha3 Hc3]
  · isplitl [Ha3]; · iexact Ha3
    iexact Hc3
  isplitl [Ha0]; · iexact Ha0
  iexact Ha2

/-- What chunk `i` brings to the last round: what the first two rounds left it, and the two send cells' positions. -/
def inW (i : Fin 16) : sProp 𝕄 := iprop(gotX m c i ∗ gotY m c i ∗ needW c i)
theorem regroup_last :
    iprop((bigSep Finset.univ fun i : Fin 16 => gotX m c i) ∗ (bigSep Finset.univ fun i : Fin 16 => gotY m c i) ∗ (bigSep Finset.univ fun i : Fin 16 => needW c i))
      ⊢ (bigSep Finset.univ fun i : Fin 16 => inW m c i : sProp 𝕄) := by
  simp only [inW, bigSep_sep']
  iintro ⟨HX, HY, HW⟩
  isplitl [HX]; · iexact HX
  isplitl [HY]; · iexact HY
  iexact HW

/-- Chunk `i` after its two send waits: the borrowed rows and the borrowed half slot are back. -/
def doneW (i : Fin 16) : sProp 𝕄 :=
  iprop((xLoc c ↦[Finset.univ]{qTok i} xstg m c)
    ∗ ((rxSlot i : Memref sig .tc .vmem S16x512 .f32).view.loc (c : Thread nD τ) ↦[(rxSlot i : Memref sig .tc .vmem S16x512 .f32).view.set]{fullShare} rxLanded m c i)
    ∗ atPos ER (dCell 0 i c) 1 ∅ 0 ∗ atPos ER (dCell 1 i c) 1 ∅ 0 ∗ atPos ER (dCell 2 i c) 1 ∅ 0)
theorem close_chunk (i : Fin 16) :
    iprop((xLoc c ↦[Finset.univ \ (xRow c i : Memref sig .tc .vmem S16x512 .f32).view.set]{qTok i} xstg m c) ∗ pay0 m i c
      ∗ ((rxSlot i : Memref sig .tc .vmem S16x512 .f32).view.loc (c : Thread nD τ) ↦[(rxSlot i : Memref sig .tc .vmem S16x512 .f32).view.set]{fullShare.left} rxLanded m c i) ∗ pay2 m i c
      ∗ atPos ER (dCell 0 i c) 1 ∅ 0 ∗ atPos ER (dCell 1 i c) 1 ∅ 0 ∗ atPos ER (dCell 2 i c) 1 ∅ 0)
      ⊢ doneW m c i := by
  unfold doneW pay0 pay2
  iintro ⟨Hx, Hp0, Hl, Hr, Ha0, Ha1, Ha2⟩
  isplitl [Hx Hp0]
  · iapply (pointsTo_split_subset (ℓ := xLoc c) (q := qTok i) (f := xstg m c)
      (Finset.subset_univ ((xRow c i : Memref sig .tc .vmem S16x512 .f32).view.set))).2
    isplitl [Hp0]; · iexact Hp0
    iexact Hx
  isplitl [Hl Hr]
  · iapply (pointsTo_share (PosShare.mem_left_op_right fullShare)).2
    isplitl [Hl]; · iexact Hl
    iexact Hr
  isplitl [Ha0]; · iexact Ha0
  isplitl [Ha1]; · iexact Ha1
  iexact Ha2

/-- A family's sixteen cells, each past its one round with nothing taken, close: their counters read zero. -/
theorem close_family (a : Fin 4) :
    iprop(records m K ∗ bigSep Finset.univ fun i : Fin 16 => atPos ER (dCell a i c) 1 ∅ 0)
      ⊢ (|={Set.univ}=> bigSep Finset.univ fun i : Fin 16 => semVal (dCell a i c) 0 : sProp 𝕄) := by
  refine BIBase.Entails.trans ?_ (bigSep_fupd _ _)
  refine bigSep_with_persistent (R := records m K) fun i _ => ?_
  iintro ⟨#HR, Hat⟩
  iapply (Rounds.cell_close ER (Rd m) (Set.mem_univ (K (c, some (a, i)))) (fun h => h) (R := 1) (duties_later m (dCell a i c)))
  isplitr
  · iapply (inv_at m K (c, some (a, i))); iexact HR
  · iexact Hat

/-- Whatever a summand holds, it holds something. -/
private theorem to_ex {α : Type} (Φ : α → sProp 𝕄) (x : α) : Φ x ⊢ iprop(∃ y, Φ y) := by
  iintro H; iexists x; iexact H

private theorem fin4_sep (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The sixty-four own cells' counters, family by family. -/
private theorem sems_fam : (bigSep Finset.univ fun ai : Fin 4 × Fin 16 => (semVal (dCell ai.1 ai.2 c) 0 : sProp 𝕄))
    = iprop((bigSep Finset.univ fun i : Fin 16 => semVal (dCell 0 i c) 0) ∗ (bigSep Finset.univ fun i : Fin 16 => semVal (dCell 1 i c) 0)
        ∗ (bigSep Finset.univ fun i : Fin 16 => semVal (dCell 2 i c) 0) ∗ (bigSep Finset.univ fun i : Fin 16 => semVal (dCell 3 i c) 0)) := by
  rw [bigSep_univ_prod, fin4_sep]

/-- At the end: the input buffer whole again, both receive buffers whole again, all sixty-four own cells closed at zero. -/
theorem finish :
    iprop(records m K ∗ xKeep m c ∗ (bigSep Finset.univ fun i : Fin 16 => doneW m c i) ∗ (bigSep Finset.univ fun i : Fin 16 => gotZ m c i))
      ⊢ (|={Set.univ}=> iprop((xLoc c ↦[Finset.univ]{fullShare} xstg m c) ∗ Φ₁ c) : sProp 𝕄) := by
  have hrx : (bigSep Finset.univ fun i : Fin 16 => ((rxSlot i : Memref sig .tc .vmem S16x512 .f32).view.loc (c : Thread nD τ) ↦[(rxSlot i : Memref sig .tc .vmem S16x512 .f32).view.set]{fullShare} rxLanded m c i : sProp 𝕄))
      ⊢ rxAny (F := F) c :=
    (bigSep_mono (s := Finset.univ) fun i _ => to_ex (fun f => ((rxSlot i : Memref sig .tc .vmem S16x512 .f32).view.loc (c : Thread nD τ) ↦[(rxSlot i : Memref sig .tc .vmem S16x512 .f32).view.set]{fullShare} f : sProp 𝕄)) (rxLanded m c i)).trans
      (rx_join (F := F) c)
  have hry : (bigSep Finset.univ fun i : Fin 16 => ((rySlot i : Memref sig .tc .vmem S16x512 .f32).view.loc (c : Thread nD τ) ↦[(rySlot i : Memref sig .tc .vmem S16x512 .f32).view.set]{fullShare} ryLanded m c i : sProp 𝕄))
      ⊢ ryAny (F := F) c :=
    (bigSep_mono (s := Finset.univ) fun i _ => to_ex (fun f => ((rySlot i : Memref sig .tc .vmem S16x512 .f32).view.loc (c : Thread nD τ) ↦[(rySlot i : Memref sig .tc .vmem S16x512 .f32).view.set]{fullShare} f : sProp 𝕄)) (ryLanded m c i)).trans
      (ry_join (F := F) c)
  simp only [doneW, gotZ, bigSep_sep']
  iintro ⟨#HR, HK, ⟨HxT, Hrx, Ha0, Ha1, Ha2⟩, Hry, Ha3⟩
  imod (close_family m K c 0) $$ [Ha0] with Hs0
  · isplitr; · iexact HR
    iexact Ha0
  imod (close_family m K c 1) $$ [Ha1] with Hs1
  · isplitr; · iexact HR
    iexact Ha1
  imod (close_family m K c 2) $$ [Ha2] with Hs2
  · isplitr; · iexact HR
    iexact Ha2
  imod (close_family m K c 3) $$ [Ha3] with Hs3
  · isplitr; · iexact HR
    iexact Ha3
  imodintro
  unfold Φ₁
  isplitl [HK HxT]
  · iapply (x_join m c)
    unfold xToks
    isplitl [HK]; · iexact HK
    iexact HxT
  isplitl [Hrx]
  · iapply hrx; iexact Hrx
  isplitl [Hry]
  · iapply hry; iexact Hry
  rw [sems_fam]
  isplitl [Hs0]; · iexact Hs0
  isplitl [Hs1]; · iexact Hs1
  isplitl [Hs2]; · iexact Hs2
  iexact Hs3

/-- info: 'Cert.KernelIdeal.P.regroup_start' depends on axioms: [propext, Classical.choice, Quot.sound] -/
#guard_msgs in #print axioms regroup_start
/-- info: 'Cert.KernelIdeal.P.close_chunk' depends on axioms: [propext, Classical.choice, Quot.sound] -/
#guard_msgs in #print axioms close_chunk
/-- info: 'Cert.KernelIdeal.P.close_family' depends on axioms: [propext, Classical.choice, Quot.sound] -/
#guard_msgs in #print axioms close_family
/-- info: 'Cert.KernelIdeal.P.finish' depends on axioms: [propext, Classical.choice, Quot.sound] -/
#guard_msgs in #print axioms finish

end Cert.KernelIdeal.P

end
-- ==== Proof.Body.lean ====
/- A device's body, effect by effect, from what the launch hands it to what it hands back. -/
import proofs.«900724_g7700000000000725_dist_ar_v7x_xyz2x4x4_x_m512_n512_f32_1_alg».proof.Proof.Cells
import proofs.«900724_g7700000000000725_dist_ar_v7x_xyz2x4x4_x_m512_n512_f32_1_alg».proof.Proof.Steps
import proofs.«900724_g7700000000000725_dist_ar_v7x_xyz2x4x4_x_m512_n512_f32_1_alg».proof.Proof.Glue

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## The effects at the level of a chunk's holdings -/

/-- The wait for chunk `i` of the first-axis partner's rows. -/
theorem step_p2wait {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 1 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c (Oy c i.val) ∗ needY c i)
      ⊢ iprop((owing c (Oy c i.val) ∗ midY m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold needY midY
  iintro ⟨#HC, HO, Hat, Hc, Hsl, Ht2, Ht3⟩ Hk
  iapply (step_wait m K c 1 i (Oy c i.val) (mayWait_rx c i i.val) hsem hN) $$ [HO Hc Hat]
  · isplitr; · iexact HC
    isplitl [HO]; · iexact HO
    isplitl [Hc]; · iexact Hc
    iexact Hat
  iintro ⟨HO, Hp, Hat⟩
  ihave Hp := (Entails.of_eq (dmaPay_1 m c i)) $$ Hp
  iapply Hk
  isplitl [HO]; · iexact HO
  isplitl [Hp]; · iexact Hp
  isplitl [Hat]; · iexact Hat
  isplitl [Hsl]; · iexact Hsl
  isplitl [Ht2]; · iexact Ht2
  iexact Ht3

/-- The load of slot `i` of the first receive buffer for the sum, through the half share the forward left. -/
theorem step_loadrx_got {α : Type} {Q : α → sProp 𝕄} (i : Fin 16)
    {hl : (rxM : Memref sig .tc .vmem S16x16x512 .f32).view.LoadsAt (slotRect i).toLoadRect}
    {k : ((slotRect i).toLoadRect.shape.Idx → Elt F .f32) → Prog (TpuEff nD τ sig (Elt F) Λ₀ .tc) α} :
    gotY m c i ⊢ iprop((gotY m c i -∗ wp frame (wpE (defs₀ (F := F)) 𝒱₀ c none) Set.univ (k ((rxM : Memref sig .tc .vmem S16x16x512 .f32).view.readAt (Elt F) (slotRect i).toLoadRect (rxLanded m c i))) Q)
        -∗ wp frame (wpE (defs₀ (F := F)) 𝒱₀ c none) Set.univ (.op (.load rxM (slotRect i).toLoadRect hl) k) Q) := by
  unfold gotY
  iintro ⟨Hs, Hr⟩ Hk
  iapply (step_loadrx c i _ _) $$ Hs
  iintro Hs
  iapply Hk
  isplitl [Hs]; · iexact Hs
  iexact Hr

/-- The wait for chunk `i` of what the second-axis partner forwards. -/
theorem step_p3wait {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 3 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c 0 ∗ needZ c i)
      ⊢ iprop((owing c 0 ∗ gotZ m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold needZ gotZ
  iintro ⟨#HC, HO, Hat, Hc⟩ Hk
  iapply (step_wait m K c 3 i 0 (mayWait_none c _) hsem hN) $$ [HO Hc Hat]
  · isplitr; · iexact HC
    isplitl [HO]; · iexact HO
    isplitl [Hc]; · iexact Hc
    iexact Hat
  iintro ⟨HO, Hp, Hat⟩
  ihave Hp := (show dmaPay m 3 i c ⊢ ((rySlot i : Memref sig .tc .vmem S16x512 .f32).view.loc (c : Thread nD τ) ↦[(rySlot i : Memref sig .tc .vmem S16x512 .f32).view.set]{fullShare} ryLanded m c i : sProp 𝕄)
    from Entails.of_eq (dmaPay_3 m c i)) $$ Hp
  iapply Hk
  isplitl [HO]; · iexact HO
  isplitl [Hp]; · iexact Hp
  iexact Hat

theorem step_loadry_got {α : Type} {Q : α → sProp 𝕄} (i : Fin 16)
    {hl : (ryM : Memref sig .tc .vmem S16x16x512 .f32).view.LoadsAt (slotRect i).toLoadRect}
    {k : ((slotRect i).toLoadRect.shape.Idx → Elt F .f32) → Prog (TpuEff nD τ sig (Elt F) Λ₀ .tc) α} :
    gotZ m c i ⊢ iprop((gotZ m c i -∗ wp frame (wpE (defs₀ (F := F)) 𝒱₀ c none) Set.univ (k ((ryM : Memref sig .tc .vmem S16x16x512 .f32).view.readAt (Elt F) (slotRect i).toLoadRect (ryLanded m c i))) Q)
        -∗ wp frame (wpE (defs₀ (F := F)) 𝒱₀ c none) Set.univ (.op (.load ryM (slotRect i).toLoadRect hl) k) Q) := by
  unfold gotZ
  iintro ⟨Hs, Hr⟩ Hk
  iapply (step_loadry c i _ _) $$ Hs
  iintro Hs
  iapply Hk
  isplitl [Hs]; · iexact Hs
  iexact Hr

/-- Chunk `i` between its two send waits. -/
def midW (i : Fin 16) : sProp 𝕄 :=
  iprop((xLoc c ↦[Finset.univ \ (xRow c i : Memref sig .tc .vmem S16x512 .f32).view.set]{qTok i} xstg m c) ∗ pay0 m i c ∗ atPos ER (dCell 0 i c) 1 ∅ 0
    ∗ gotY m c i ∗ atPos ER (dCell 2 i c) 0 ∅ 0)

/-- The wait for chunk `i`'s own transfer to have been read to the end: its rows' read share is back. -/
theorem step_p4wait0 {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 0 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c 0 ∗ inW m c i)
      ⊢ iprop((owing c 0 ∗ midW m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold inW gotX needW midW
  iintro ⟨#HC, HO, ⟨Hxr, Hc⟩, HgY, Hat0, Hat2⟩ Hk
  iapply (step_wait m K c 0 i 0 (mayWait_none c _) hsem hN) $$ [HO Hc Hat0]
  · isplitr; · iexact HC
    isplitl [HO]; · iexact HO
    isplitl [Hc]; · iexact Hc
    iexact Hat0
  iintro ⟨HO, Hp, Hat0⟩
  ihave Hp := (Entails.of_eq (dmaPay_0 m c i)) $$ Hp
  iapply Hk
  isplitl [HO]; · iexact HO
  isplitl [Hxr]; · iexact Hxr
  isplitl [Hp]; · iexact Hp
  isplitl [Hat0]; · iexact Hat0
  isplitl [HgY]; · iexact HgY
  iexact Hat2

/-- The wait for chunk `i`'s forward to have been read to the end: the slot's other half is back. -/
theorem step_p4wait2 {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 2 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c 0 ∗ midW m c i)
      ⊢ iprop((owing c 0 ∗ doneW m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold midW gotY
  iintro ⟨#HC, HO, Hxr, Hp0, Hat0, ⟨Hl, Hc, Hat1⟩, Hat2⟩ Hk
  iapply (step_wait m K c 2 i 0 (mayWait_none c _) hsem hN) $$ [HO Hc Hat2]
  · isplitr; · iexact HC
    isplitl [HO]; · iexact HO
    isplitl [Hc]; · iexact Hc
    iexact Hat2
  iintro ⟨HO, Hp, Hat2⟩
  ihave Hp := (Entails.of_eq (dmaPay_2 m c i)) $$ Hp
  iapply Hk
  isplitl [HO]; · iexact HO
  iapply (close_chunk m c i)
  isplitl [Hxr]; · iexact Hxr
  isplitl [Hp0]; · iexact Hp0
  isplitl [Hl]; · iexact Hl
  isplitl [Hp]; · iexact Hp
  isplitl [Hat0]; · iexact Hat0
  isplitl [Hat1]; · iexact Hat1
  iexact Hat2

theorem owing_x_end : owing (F := F) c (Oy c 0 + Ox c 16) ⊢ owing c (Oy c 0) := by rw [Ox_end, add_zero]
theorem owing_y_end : owing (F := F) c (Oy c 16) ⊢ owing c 0 := by rw [Oy_end]

theorem outPts_eq (f : (cc0_stg1_0 : Ref sig .tc).ty.Contents (Elt F)) : outPts (F := F) c f = (((c : Thread nD τ).loc cc0_stg1_0) ↦{fullShare} f : sProp 𝕄) := rfl
theorem xPts_eq : (xLoc c ↦[Finset.univ]{fullShare} xstg m c : sProp 𝕄) = (((c : Thread nD τ).loc cc0_stg0_0) ↦{fullShare} xstg m c : sProp 𝕄) := rfl

attribute [local irreducible] outAt

/-! ## The one point of the grid; the windows' buffers as the obligation hands them over -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, under the names `K` of the cells' invariants; -/
def bodyPre : sProp 𝕄 :=
  iprop((ctx m K ∗ positions c ∗ payToks c ∗ creds c ∗ rxAny c ∗ ryAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))
/-- and what it ends with. -/
def bodyPost : sProp 𝕄 :=
  iprop(Φ₁ c ∗ (dats m 0 c).owesAt () t₀.succ ∗ stg c cc0_stg0_0 (xstg m c) ∗ stg c cc0_stg1_0 (outAt m c))

/-! ## The body -/

set_option hygiene false in
/-- Chunk `i`'s transfer along the first axis. -/
macro "xs" i:num d:ident : tactic => `(tactic| (
  ihave H := (chunks_step (needX m c) (gotX m c) $i (by decide)) $$ HX
  icases H with ⟨HN, HXw⟩
  iapply (step_xsend m K c (⟨$i, by decide⟩ : Fin 16) _ ($d c) (sem2_eq _) (sem3_eq _)) $$ [HO HN]
  · isplitr; · iexact HC
    isplitl [HO]; · iexact HO
    iexact HN
  iintro ⟨HO, HN⟩
  ihave HX := HXw $$ HN))

set_option hygiene false in
/-- Chunk `i` of the first round: the wait, the forward, the three loads and the store. -/
macro "ys" i:num d:ident : tactic => `(tactic| (
  ihave H := (chunks_step (needY c) (gotY m c) $i (by decide)) $$ HY
  icases H with ⟨HN, HYw⟩
  iapply (step_p2wait m K c (⟨$i, by decide⟩ : Fin 16) (sem3_eq _) (dst := rxSlot (⟨$i, by decide⟩ : Fin 16)) rfl) $$ [HO HN]
  · isplitr; · iexact HC
    isplitl [HO]; · iexact HO
    iexact HN
  iintro ⟨HO, HN⟩
  iapply (step_ysend m K c (⟨$i, by decide⟩ : Fin 16) _ ($d c) (sem4_eq _) (sem5_eq _)) $$ [HO HN]
  · isplitr; · iexact HC
    isplitl [HO]; · iexact HO
    iexact HN
  iintro ⟨HO, HN⟩
  iapply (step_loadx m c) $$ Hxk
  iintro Hxk
  iapply (step_loadrx_got m c _) $$ HN
  iintro HN
  iapply (step_loadout c _) $$ Hout
  iintro Hout
  iapply (step_store2 m c (⟨$i, by decide⟩ : Fin 16) g1 rfl) $$ Hout
  iintro Hout
  ihave HY := HYw $$ HN))

set_option hygiene false in
/-- Chunk `i` of the second round: the wait, the three loads and the store. -/
macro "zs" i:num : tactic => `(tactic| (
  ihave H := (chunks_step (needZ c) (gotZ m c) $i (by decide)) $$ HZ
  icases H with ⟨HN, HZw⟩
  iapply (step_p3wait m K c (⟨$i, by decide⟩ : Fin 16) (sem5_eq _) (dst := rySlot (⟨$i, by decide⟩ : Fin 16)) rfl) $$ [HO HN]
  · isplitr; · iexact HC
    isplitl [HO]; · iexact HO
    iexact HN
  iintro ⟨HO, HN⟩
  iapply (step_loadx m c) $$ Hxk
  iintro Hxk
  iapply (step_loadry_got m c _) $$ HN
  iintro HN
  iapply (step_loadout c _) $$ Hout
  iintro Hout
  iapply (step_store3 m c (⟨$i, by decide⟩ : Fin 16) g1 rfl) $$ Hout
  iintro Hout
  ihave HZ := HZw $$ HN))

set_option hygiene false in
/-- Chunk `i`'s two send waits. -/
macro "ws" i:num : tactic => `(tactic| (
  ihave H := (chunks_step (inW m c) (doneW m c) $i (by decide)) $$ HW
  icases H with ⟨HN, HWw⟩
  iapply (step_p4wait0 m K c (⟨$i, by decide⟩ : Fin 16) (sem2_eq _) (dst := xRow c (⟨$i, by decide⟩ : Fin 16)) rfl) $$ [HO HN]
  · isplitr; · iexact HC
    isplitl [HO]; · iexact HO
    iexact HN
  iintro ⟨HO, HN⟩
  iapply (step_p4wait2 m K c (⟨$i, by decide⟩ : Fin 16) (sem4_eq _) (dst := rxSlot (⟨$i, by decide⟩ : Fin 16)) rfl) $$ [HO HN]
  · isplitr; · iexact HC
    isplitl [HO]; · iexact HO
    iexact HN
  iintro ⟨HO, HN⟩
  ihave HW := HWw $$ HN))

set_option maxHeartbeats 16000000 in
set_option maxRecDepth 65536 in
/-- The body, effect by effect: the handshake, sixteen transfers, sixteen chunks summed and forwarded, sixteen chunks
    summed, thirty-two send waits, and the cells closed. -/
theorem sound_body (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton, cc0_body_skel,
    k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel, k0_part40_eq_skeleton, k0_part40_skel,
    k0_part41_eq_skeleton, k0_part41_skel, k0_part42_eq_skeleton, k0_part42_skel, k0_part43_eq_skeleton, k0_part43_skel, k0_part44_eq_skeleton, k0_part44_skel,
    k0_part45_eq_skeleton, k0_part45_skel, k0_part46_eq_skeleton, k0_part46_skel, k0_part47_eq_skeleton, k0_part47_skel, k0_part48_eq_skeleton, k0_part48_skel,
    k0_part49_eq_skeleton, k0_part49_skel,
    semSignalWord, semWaitWord, Prog.lift, Prog.bind_op, Prog.bind_ret, Prog.pure_eq_ret, wp_deviceId]
  unfold bodyPre positions payToks creds
  iintro ⟨⟨⟨#HC, ⟨HatB, Hpos⟩, ⟨HtX, HtY, Htoks⟩, ⟨HcB, Hcreds⟩, Hrx, Hry⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the entry handshake
  iapply (step_sig1 m K c _ (dev1_eq c) W) $$ [HO HtX Hrx]
  · isplitr; · iexact HC
    isplitl [HO]; · iexact HO
    isplitl [HtX]; · iexact HtX
    iexact Hrx
  iintro HO
  iapply (step_sig2 m K c _ (dev2_eq c) W) $$ [HO HtY Hry]
  · isplitr; · iexact HC
    isplitl [HO]; · iexact HO
    isplitl [HtY]; · iexact HtY
    iexact Hry
  iintro HO
  iapply (step_barwait m K c W) $$ [HO HcB HatB]
  · isplitr; · iexact HC
    isplitl [HO]; · iexact HO
    isplitl [HcB]; · iexact HcB
    iexact HatB
  iintro ⟨HO, HbY, HbX⟩
  -- the input buffer's read shares; everything dealt out chunk by chunk
  ihave Hout := (Entails.of_eq (outPts_eq c g1).symm) $$ Hout
  ihave Hx := (Entails.of_eq (xPts_eq m c).symm) $$ Hx
  ihave Hx' := (x_split m c) $$ Hx
  icases Hx' with ⟨Hxk, Hxt⟩
  ihave Hn := (regroup_start m c) $$ [Hxt HbX HbY Hpos Htoks Hcreds]
  · isplitl [Hxt]; · iexact Hxt
    isplitl [HbX]; · iexact HbX
    isplitl [HbY]; · iexact HbY
    isplitl [Hpos]; · iexact Hpos
    isplitl [Htoks]; · iexact Htoks
    iexact Hcreds
  icases Hn with ⟨HnX, HnY, HnZ, HnW⟩
  -- sixteen transfers along the first axis
  ihave HX := (chunks_zero (needX m c) (gotX m c)) $$ HnX
  xs 0 dev3_eq
  xs 1 dev4_eq
  xs 2 dev5_eq
  xs 3 dev6_eq
  xs 4 dev7_eq
  xs 5 dev8_eq
  xs 6 dev9_eq
  xs 7 dev10_eq
  xs 8 dev11_eq
  xs 9 dev12_eq
  xs 10 dev13_eq
  xs 11 dev14_eq
  xs 12 dev15_eq
  xs 13 dev16_eq
  xs 14 dev17_eq
  xs 15 dev18_eq
  ihave HgX := (chunks_end (needX m c) (gotX m c)) $$ HX
  ihave HO := (owing_x_end c) $$ HO
  -- sixteen chunks summed and forwarded
  ihave Hout := (Entails.of_eq (show outPts c g1 = outPts c (out2 m c g1 0) from rfl)) $$ Hout
  ihave HY := (chunks_zero (needY c) (gotY m c)) $$ HnY
  ys 0 dev19_eq
  ys 1 dev20_eq
  ys 2 dev21_eq
  ys 3 dev22_eq
  ys 4 dev23_eq
  ys 5 dev24_eq
  ys 6 dev25_eq
  ys 7 dev26_eq
  ys 8 dev27_eq
  ys 9 dev28_eq
  ys 10 dev29_eq
  ys 11 dev30_eq
  ys 12 dev31_eq
  ys 13 dev32_eq
  ys 14 dev33_eq
  ys 15 dev34_eq
  ihave HgY := (chunks_end (needY c) (gotY m c)) $$ HY
  ihave HO := (owing_y_end c) $$ HO
  -- sixteen chunks summed
  ihave Hout := (Entails.of_eq (show outPts c (out2 m c g1 16) = outPts c (out3 m c g1 0) from rfl)) $$ Hout
  ihave HZ := (chunks_zero (needZ c) (gotZ m c)) $$ HnZ
  zs 0
  zs 1
  zs 2
  zs 3
  zs 4
  zs 5
  zs 6
  zs 7
  zs 8
  zs 9
  zs 10
  zs 11
  zs 12
  zs 13
  zs 14
  zs 15
  ihave HgZ := (chunks_end (needZ c) (gotZ m c)) $$ HZ
  -- thirty-two send waits
  ihave HiW := (regroup_last m c) $$ [HgX HgY HnW]
  · isplitl [HgX]; · iexact HgX
    isplitl [HgY]; · iexact HgY
    iexact HnW
  ihave HW := (chunks_zero (inW m c) (doneW m c)) $$ HiW
  ws 0
  ws 1
  ws 2
  ws 3
  ws 4
  ws 5
  ws 6
  ws 7
  ws 8
  ws 9
  ws 10
  ws 11
  ws 12
  ws 13
  ws 14
  ws 15
  ihave HdW := (chunks_end (inW m c) (doneW m c)) $$ HW
  -- the cells closed, the buffers whole again
  rw [wp_ret]
  unfold ctx
  icases HC with ⟨#HR, #Hlev⟩
  imod (finish m K c) $$ [Hxk HdW HgZ] with ⟨Hx, HΦ⟩
  · isplitr; · iexact HR
    isplitl [Hxk]; · iexact Hxk
    isplitl [HdW]; · iexact HdW
    iexact HgZ
  imodintro
  iapply Hk
  unfold bodyPost Dat.owesAt Pipeline.owesWithin owing
  rw [show (dats m 0 c).owed t₀.succ = 0 from rfl]
  icases HO with ⟨%W', HO⟩
  isplitl [HΦ]; · iexact HΦ
  isplitl [HO]
  · iexists W'
    isplitr; · ipureintro; exact fun _ _ => Or.inl trivial
    iexact HO
  ihave Hx := (Entails.of_eq (xPts_eq m c)) $$ Hx
  ihave Hout := (Entails.of_eq (outPts_eq c (out3 m c g1 16))) $$ Hout
  isplitl [Hx]
  · iexists _; isplitr; · (ipureintro; rfl)
    iexact Hx
  iexists (out3 m c g1 16); isplitr; · (ipureintro; exact out_indep m c g1)
  iexact Hout

/-! ## The obligation -/

set_option maxRecDepth 4000 in
def bodyPre' : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 65536 in
set_option maxHeartbeats 2000000 in
/-- The body obligation on device `c`. -/
theorem body_obligation : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m c)
  unfold bodyPre' Φ₀ start ghost
  iintro ⟨⟨⟨⟨%K, #HR, Hpos, Htoks⟩, Hcr, #Hlev⟩, Hrx, Hry⟩, Ho, Hx, Hout⟩
  iapply (sound_body m K c fun _ => bodyPost m c)
  unfold bodyPre ctx
  isplitr []
  · isplitl [Hpos Htoks Hcr Hrx Hry]
    · isplitr
      · isplitr; · iexact HR
        iexact Hlev
      isplitl [Hpos]; · iexact Hpos
      isplitl [Htoks]; · iexact Htoks
      isplitl [Hcr]; · iexact Hcr
      isplitl [Hrx]; · iexact Hrx
      iexact Hry
    isplitl [Ho]; · iexact Ho
    isplitl [Hx] <;> iassumption
  · iintro H; iexact H

end Cert.KernelIdeal.P

end
-- ==== Proof.RefValue.lean ====
/- The reference's value: the whole array's two halves of rows added. -/
import proofs.«900724_g7700000000000725_dist_ar_v7x_xyz2x4x4_x_m512_n512_f32_1_alg».proof.Defs
import proofs.«900724_g7700000000000725_dist_ar_v7x_xyz2x4x4_x_m512_n512_f32_1_alg».proof.Proof.Gen.ReferenceIdeal.Read
import proofs.«900724_g7700000000000725_dist_ar_v7x_xyz2x4x4_x_m512_n512_f32_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws
import Idealize.ShloMosaic.Lib.StableHlo.Run

noncomputable section

namespace Cert.RefValue

open Idealize.ShloMosaic Idealize.SL.Sem

/-- The one device's whole argument array. -/
abbrev argLoc : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_arg0
/-- The one device's result array. -/
abbrev outLoc : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_v1

/-- The reference's result as one function of its argument's contents. -/
def refOut (A : Buf (Elt Ideal) argLoc) : Buf (Elt Ideal) outLoc :=
  Cert.ReferenceIdeal.Read.val_main_v1 (F := Ideal) A

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r =>
        r.2.mem (((0 : Dev Cert.ReferenceIdeal.nD).tc : Thread Cert.ReferenceIdeal.nD Cert.ReferenceIdeal.τ).loc Cert.ReferenceIdeal.main_v1)
            = refOut (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => ⟨(h 0).1.trans (Cert.ReferenceIdeal.Read.val_main_v1_eq _), (h 0).2⟩)
    (Cert.ReferenceIdeal.Value.run (F := Ideal) m' ρ')

theorem frame_ref : Cert.frame_ReferenceIdeal (hReferenceIdeal := Cert.ReferenceIdeal.Gen.facts)
    (hPre_finite_inputs_ReferenceIdeal := Cert.Pre_finite_inputs_ReferenceIdeal.Gen.facts) :=
  fun m g _ => (θ_run Cert.ReferenceIdeal.defs _ _).mono (fun _ h c => (h c).2) (Cert.ReferenceIdeal.Value.run (F := Ideal) m g)

/-- Along the first mesh axis of the 2 × 4 × 4 mesh, device `e` holds block `e / 16`. -/
theorem meshLin_first : ∀ e : Fin 32, Layout.meshLin [2, 4, 4] e.val [0] = e.val / 16 := by decide

/-- Block `e / 16` of the whole array, at row `r` and column `l`, is the whole array at row
    `(e / 16) · 512 + r` and column `l`: the element the reference's reshape puts at `(e / 16, r, l)`. -/
theorem block_eq (A : Buf (Elt Ideal) argLoc) (e : Fin 32) (k : Fin 2) (hk : e.val / 16 = k.val)
    (i : (⟨2, ![512, 512]⟩ : Shape).Idx) :
    (Layout.blockN ⟨2, ![512, 512]⟩ ⟨2, ![1024, 512]⟩ (Layout.meshBlock [2, 4, 4] ![[0], []] e) A) i
      = A (Cert.ReferenceIdeal.Read.idx_main_v0 (Cert.ReferenceIdeal.Read.idx_main_v1 i k)) := by
  have h0 : (i 0).val < 512 := (i 0).isLt
  have h1 : (i 1).val < 512 := (i 1).isLt
  rw [Layout.blockN_apply]
  refine congrArg A (funext fun a => Fin.ext ?_)
  match a with
  | ⟨0, _⟩ =>
    show Layout.meshLin [2, 4, 4] e.val [0] * 512 + (i 0).val = ((k.val * 512 + (i 0).val) * 512 + (i 1).val) / 512
    rw [meshLin_first e, hk]; omega
  | ⟨1, _⟩ =>
    show 0 * 512 + (i 1).val = ((k.val * 512 + (i 0).val) * 512 + (i 1).val) % 512
    omega

/-- The two halves of rows, held by two devices whose first mesh coordinates differ, add up to the reference's result:
    `0 + x[r, l] + x[512 + r, l]`, the sum read in either order. -/
theorem blocks_add (A : Buf (Elt Ideal) argLoc) (c d : Fin 32) (h : d.val / 16 + c.val / 16 = 1)
    (i : (⟨2, ![512, 512]⟩ : Shape).Idx) :
    (show EReal from (Layout.blockN ⟨2, ![512, 512]⟩ ⟨2, ![1024, 512]⟩ (Layout.meshBlock [2, 4, 4] ![[0], []] c) A) i)
      + (show EReal from (Layout.blockN ⟨2, ![512, 512]⟩ ⟨2, ![1024, 512]⟩ (Layout.meshBlock [2, 4, 4] ![[0], []] d) A) i)
      = refOut A i := by
  have hr : refOut A i = (0 : EReal)
      + ((show EReal from A (Cert.ReferenceIdeal.Read.idx_main_v0 (Cert.ReferenceIdeal.Read.idx_main_v1 i 0)))
        + (show EReal from A (Cert.ReferenceIdeal.Read.idx_main_v0 (Cert.ReferenceIdeal.Read.idx_main_v1 i 1)))) := by
    unfold refOut
    rw [Cert.ReferenceIdeal.Read.val_main_v1_apply, Fin.sum_univ_two, Cert.ReferenceIdeal.Read.val_main_v0_apply,
      Cert.ReferenceIdeal.Read.val_main_v0_apply, Cert.ReferenceIdeal.Read.val_main_cst_apply]
    exact congrArg (· + _) Ideal.ofBits_zero_f32
  rw [hr, zero_add]
  rcases (show c.val / 16 = 0 ∨ c.val / 16 = 1 by omega) with hc | hc
  · rw [block_eq A c 0 hc i, block_eq A d 1 (by show d.val / 16 = 1; omega) i]
  · rw [block_eq A c 1 hc i, block_eq A d 0 (by show d.val / 16 = 0; omega) i]
    exact add_comm (G := EReal) _ _

/-- info: 'Cert.RefValue.ref_run' depends on axioms: [propext, Classical.choice, Quot.sound] -/
#guard_msgs in #print axioms ref_run
/-- info: 'Cert.RefValue.frame_ref' depends on axioms: [propext, Classical.choice, Quot.sound] -/
#guard_msgs in #print axioms frame_ref
/-- info: 'Cert.RefValue.blocks_add' depends on axioms: [propext, Classical.choice, Quot.sound] -/
#guard_msgs in #print axioms blocks_add

end Cert.RefValue

end
-- ==== Proof.KernelValue.lean ====
/- The kernel's result, index by index: every element of a device's output is the sum of that element of its own block
   and of the block of a device with the other first mesh coordinate, which is the reference's result. -/
import proofs.«900724_g7700000000000725_dist_ar_v7x_xyz2x4x4_x_m512_n512_f32_1_alg».proof.Proof.Cells
import proofs.«900724_g7700000000000725_dist_ar_v7x_xyz2x4x4_x_m512_n512_f32_1_alg».proof.Proof.RefValue
import Idealize.ShloMosaic.Lib.Pipeline.Value
import Idealize.ShloMosaic.Lib.ValueIdx

noncomputable section

namespace Cert.KernelIdeal.P

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- Sixteen rows from row `o` of the input buffer, read at `(r, l)`: the buffer at `(o + r, l)`. -/
theorem xrows_readAt {off : Fin 2 → ℕ} (inb : ∀ a, off a + S16x512.size a ≤ S512x512.size a) (o : ℕ) (hoff : off = ![o, 0])
    (f : (cc0_stg0_0 : Ref sig .tc).ty.Contents (Elt F)) (x : S16x512.Idx) (y : S512x512.Idx)
    (h0 : (y 0).val = o + (x 0).val) (h1 : (y 1).val = (x 1).val) :
    (xM : Memref sig .tc .vmem S512x512 .f32).view.readAt (Elt F) (Rect.unit (s := S512x512) off S16x512.size inb).toLoadRect f x = f y := by
  subst hoff
  rw [View.readAt_rect, View.read_apply]
  have he : (((xM : Memref sig .tc .vmem S512x512 .f32).view.slice (Rect.unit (s := S512x512) ![o, 0] S16x512.size inb)).emb x : S512x512.Idx) = y :=
    funext fun a => Fin.ext (by
      match a with
      | ⟨0, _⟩ => show o + 1 * (x 0).val = (y 0).val; omega
      | ⟨1, _⟩ => show 0 + 1 * (x 1).val = (y 1).val; omega)
  rw [he]; rfl

/-- The input buffer holds the device's block of the argument as it is. -/
theorem xstg_eq (d : Dev nD) : xstg m d = m ((d : Thread nD τ).loc main_arg0) := by
  funext x
  unfold xstg
  rw [View.read_apply]
  have he : (((win0_0.blk (0 : Fin 1)).view.emb x : S512x512.Idx)) = x :=
    funext fun a => Fin.ext (by
      match a with
      | ⟨0, _⟩ => show 0 * _ + 1 * _ = _; omega
      | ⟨1, _⟩ => show 0 * _ + 1 * _ = _; omega)
  rw [he]; rfl

/-- A payload written through a re-indexed view, read back through the view itself at the matched index. -/
theorem read_write_reshape {κ : Kind} {sp : Space} {s s' : Shape} {e : EltTy} (v : View sig κ sp s e) (h : s'.numel = s.numel)
    (f : v.ty.Contents (Elt F)) (w : s'.Idx → Elt F e) (x : s'.Idx) :
    v.read (Elt F) ((v.reshape s' h).write (Elt F) f w Finset.univ) (Shape.reshapeEquiv h x) = w x := by
  rw [View.read_apply, show v.emb (Shape.reshapeEquiv h x) = (v.reshape s' h).emb x from rfl,
    View.write_emb_of_mem _ _ (Finset.mem_univ x), cast_cast, cast_eq]

/-- Chunk `j` of the first round: at `(r, l)` the device's own element at row `256 · hh c + 16 j + r` plus its first-axis
    partner's element there. -/
theorem sum2_apply (c : Dev nD) (j : Fin 16) (x : S16x512.Idx) (y : S512x512.Idx)
    (h0 : (y 0).val = 256 * hh c + 16 * j.val + (x 0).val) (h1 : (y 1).val = (x 1).val) :
    sum2 m c j x = FloatOps.addf (m ((c : Thread nD τ).loc main_arg0) y) (m (((xp c : Dev nD) : Thread nD τ).loc main_arg0) y) := by
  have e1 : shapeCast S16x512 ((xM : Memref sig .tc .vmem S512x512 .f32).view.readAt (Elt F) (rowRect2 c j).toLoadRect (xstg m c))
      shapeCasts_S16x512_S16x512 x = m ((c : Thread nD τ).loc main_arg0) y := by
    refine (congrFun (shapeCast_self (s := S16x512) _ _) x).trans ?_
    rw [xstg_eq]
    exact xrows_readAt (k0_off2_inb c j) (256 * hh c + 16 * j.val) (off2_eq c j) _ x y h0 h1
  have e2 : shapeCast S16x512 ((rxM : Memref sig .tc .vmem S16x16x512 .f32).view.readAt (Elt F) (slotRect j).toLoadRect (rxLanded m c j))
      shapeCasts_S1x16x512_S16x512 x = m (((xp c : Dev nD) : Thread nD τ).loc main_arg0) y := by
    unfold shapeCast rxLanded
    rw [View.readAt_rect]
    refine (read_write_reshape ((rxM : Memref sig .tc .vmem S16x16x512 .f32).view.slice (slotRect j)) _ anyBuf _ x).trans ?_
    rw [xstg_eq]
    exact xrows_readAt (k0_off1_inb (xp c) j) (256 * hh (xp c) + 16 * j.val) (off1_eq (xp c) j) _ x y (by rw [hh_xp]; exact h0) h1
  show FloatOps.addf (shapeCast S16x512 _ shapeCasts_S16x512_S16x512 x) (shapeCast S16x512 _ shapeCasts_S1x16x512_S16x512 x) = _
  rw [e1, e2]

/-- Chunk `j` of the second round: at `(r, l)` the device's own element at row `256 · (1 - hh c) + 16 j + r` plus the
    element there of the first-axis partner of its second-axis partner, which that partner forwarded. -/
theorem sum3_apply (c : Dev nD) (j : Fin 16) (x : S16x512.Idx) (y : S512x512.Idx)
    (h0 : (y 0).val = 256 * (1 - hh c) + 16 * j.val + (x 0).val) (h1 : (y 1).val = (x 1).val) :
    sum3 m c j x = FloatOps.addf (m ((c : Thread nD τ).loc main_arg0) y) (m (((xp (yp c) : Dev nD) : Thread nD τ).loc main_arg0) y) := by
  have e1 : shapeCast S16x512 ((xM : Memref sig .tc .vmem S512x512 .f32).view.readAt (Elt F) (rowRect3 c j).toLoadRect (xstg m c))
      shapeCasts_S16x512_S16x512 x = m ((c : Thread nD τ).loc main_arg0) y := by
    refine (congrFun (shapeCast_self (s := S16x512) _ _) x).trans ?_
    rw [xstg_eq]
    exact xrows_readAt (k0_off3_inb c j) (256 * (1 - hh c) + 16 * j.val) (off3_eq c j) _ x y h0 h1
  have e2 : shapeCast S16x512 ((ryM : Memref sig .tc .vmem S16x16x512 .f32).view.readAt (Elt F) (slotRect j).toLoadRect (ryLanded m c j))
      shapeCasts_S1x16x512_S16x512 x = m (((xp (yp c) : Dev nD) : Thread nD τ).loc main_arg0) y := by
    unfold shapeCast ryLanded
    rw [View.readAt_rect]
    refine (read_write_reshape ((ryM : Memref sig .tc .vmem S16x16x512 .f32).view.slice (slotRect j)) _ anyBuf _ x).trans ?_
    unfold rxLanded
    rw [View.read_write_univ, xstg_eq]
    exact xrows_readAt (k0_off1_inb (xp (yp c)) j) (256 * hh (xp (yp c)) + 16 * j.val) (off1_eq (xp (yp c)) j) _ x y
      (by rw [hh_xp, hh_yp]; exact h0) h1
  show FloatOps.addf (shapeCast S16x512 _ shapeCasts_S16x512_S16x512 x) (shapeCast S16x512 _ shapeCasts_S1x16x512_S16x512 x) = _
  rw [e1, e2]

/-- One store of sixteen rows from row `o` into the output buffer, read at an index: the payload inside those rows, the
    old contents outside. -/
theorem orows_write_apply {off : Fin 2 → ℕ} (inb : ∀ a, off a + S16x512.size a ≤ S512x512.size a) (o : ℕ) (hoff : off = ![o, 0])
    (f : (cc0_stg1_0 : Ref sig .tc).ty.Contents (Elt F)) (w : S16x512.Idx → Elt F .f32) (i : S512x512.Idx) :
    (((oM : Memref sig .tc .vmem S512x512 .f32).access (Rect.unit (s := S512x512) off S16x512.size inb)).write (Elt F) f w Finset.univ) i
      = if h : o ≤ (i 0).val ∧ (i 0).val < o + 16 then w (ix2 ⟨(i 0).val - o, by omega⟩ ⟨(i 1).val, idx2_lt1 i⟩) else f i := by
  subst hoff
  by_cases h : o ≤ (i 0).val ∧ (i 0).val < o + 16
  · rw [dif_pos h]
    have he : ((((oM : Memref sig .tc .vmem S512x512 .f32).access (Rect.unit (s := S512x512) ![o, 0] S16x512.size inb)).emb
        (ix2 ⟨(i 0).val - o, by omega⟩ ⟨(i 1).val, idx2_lt1 i⟩) : S512x512.Idx)) = i :=
      funext fun a => Fin.ext (by
        match a with
        | ⟨0, _⟩ => show o + 1 * ((i 0).val - o) = (i 0).val; omega
        | ⟨1, _⟩ => show 0 + 1 * (i 1).val = (i 1).val; omega)
    have hw := View.write_emb_of_mem (v := ((oM : Memref sig .tc .vmem S512x512 .f32).access (Rect.unit (s := S512x512) ![o, 0] S16x512.size inb)))
      (Val := Elt F) f w (M := Finset.univ) (x := ix2 ⟨(i 0).val - o, by omega⟩ ⟨(i 1).val, idx2_lt1 i⟩) (Finset.mem_univ _)
    rw [he] at hw
    exact hw
  · rw [dif_neg h]
    refine View.write_of_not_mem _ _ _ ?_
    intro hmem
    obtain ⟨x, -, hx⟩ := Finset.mem_map.mp hmem
    have h0 : (i 0).val = o + 1 * (x 0).val := by rw [← hx]; rfl
    have hx0 : (x 0).val < 16 := (x 0).isLt
    omega

/-- After `n` stores of the first round, the rows `[256 · hh c, 256 · hh c + 16 n)` hold the sums with the first-axis
    partner, every other row what the buffer held. -/
theorem out2_apply (c : Dev nD) (f0 : (cc0_stg1_0 : Ref sig .tc).ty.Contents (Elt F)) (n : ℕ) (hn : n ≤ 16) (i : S512x512.Idx) :
    out2 m c f0 n i
      = if 256 * hh c ≤ (i 0).val ∧ (i 0).val < 256 * hh c + 16 * n then
          FloatOps.addf (m ((c : Thread nD τ).loc main_arg0) i) (m (((xp c : Dev nD) : Thread nD τ).loc main_arg0) i)
        else f0 i := by
  induction n with
  | zero => rw [if_neg (by omega)]; rfl
  | succ n ih =>
    have hn' : n < 16 := by omega
    have e : out2 m c f0 (n + 1) = ((oM : Memref sig .tc .vmem S512x512 .f32).access (rowRect2 c ⟨n, hn'⟩)).write (Elt F) (out2 m c f0 n)
        (sum2 m c ⟨n, hn'⟩) Finset.univ := by
      show (if h : n < 16 then _ else _) = _
      rw [dif_pos hn']
    rw [e, orows_write_apply (k0_off2_inb c ⟨n, hn'⟩) (256 * hh c + 16 * n) (off2_eq c ⟨n, hn'⟩)]
    by_cases h : 256 * hh c + 16 * n ≤ (i 0).val ∧ (i 0).val < 256 * hh c + 16 * n + 16
    · rw [dif_pos h, if_pos (by omega)]
      exact sum2_apply m c ⟨n, hn'⟩ _ i (by show (i 0).val = 256 * hh c + 16 * n + ((i 0).val - (256 * hh c + 16 * n)); omega) rfl
    · rw [dif_neg h, ih (by omega)]
      by_cases h' : 256 * hh c ≤ (i 0).val ∧ (i 0).val < 256 * hh c + 16 * n
      · rw [if_pos h', if_pos (by omega)]
      · rw [if_neg h', if_neg (by omega)]

/-- After the first round and `n` stores of the second, the rows `[256 · (1 - hh c), 256 · (1 - hh c) + 16 n)` hold the
    sums with the first-axis partner of the second-axis partner, every other row what the first round left. -/
theorem out3_apply (c : Dev nD) (f0 : (cc0_stg1_0 : Ref sig .tc).ty.Contents (Elt F)) (n : ℕ) (hn : n ≤ 16) (i : S512x512.Idx) :
    out3 m c f0 n i
      = if 256 * (1 - hh c) ≤ (i 0).val ∧ (i 0).val < 256 * (1 - hh c) + 16 * n then
          FloatOps.addf (m ((c : Thread nD τ).loc main_arg0) i) (m (((xp (yp c) : Dev nD) : Thread nD τ).loc main_arg0) i)
        else out2 m c f0 16 i := by
  induction n with
  | zero => rw [if_neg (by omega)]; rfl
  | succ n ih =>
    have hn' : n < 16 := by omega
    have e : out3 m c f0 (n + 1) = ((oM : Memref sig .tc .vmem S512x512 .f32).access (rowRect3 c ⟨n, hn'⟩)).write (Elt F) (out3 m c f0 n)
        (sum3 m c ⟨n, hn'⟩) Finset.univ := by
      show (if h : n < 16 then _ else _) = _
      rw [dif_pos hn']
    rw [e, orows_write_apply (k0_off3_inb c ⟨n, hn'⟩) (256 * (1 - hh c) + 16 * n) (off3_eq c ⟨n, hn'⟩)]
    by_cases h : 256 * (1 - hh c) + 16 * n ≤ (i 0).val ∧ (i 0).val < 256 * (1 - hh c) + 16 * n + 16
    · rw [dif_pos h, if_pos (by omega)]
      exact sum3_apply m c ⟨n, hn'⟩ _ i (by show (i 0).val = 256 * (1 - hh c) + 16 * n + ((i 0).val - (256 * (1 - hh c) + 16 * n)); omega) rfl
    · rw [dif_neg h, ih (by omega)]
      by_cases h' : 256 * (1 - hh c) ≤ (i 0).val ∧ (i 0).val < 256 * (1 - hh c) + 16 * n
      · rw [if_pos h', if_pos (by omega)]
      · rw [if_neg h', if_neg (by omega)]

/-- Every element of the result: the device's own plus that of a device with the other first mesh coordinate. -/
theorem outAt_apply (c : Dev nD) (i : S512x512.Idx) :
    ∃ d : Dev nD, d.val / 16 + c.val / 16 = 1 ∧
      outAt m c i = FloatOps.addf (m ((c : Thread nD τ).loc main_arg0) i) (m ((d : Thread nD τ).loc main_arg0) i) := by
  have hh1 : hh c ≤ 1 := hh_le c
  have hi : (i 0).val < 512 := idx2_lt0 i
  unfold outAt
  rw [out3_apply m c anyBuf 16 (le_refl _) i]
  by_cases h : 256 * (1 - hh c) ≤ (i 0).val ∧ (i 0).val < 256 * (1 - hh c) + 16 * 16
  · rw [if_pos h]
    exact ⟨xp (yp c), by have := xp_div (yp c); have := yp_div c; omega, rfl⟩
  · rw [if_neg h, out2_apply m c anyBuf 16 (le_refl _) i, if_pos (by omega)]
    exact ⟨xp c, xp_div c, rfl⟩

end Cert.KernelIdeal.P

namespace Cert.KernelIdeal.P

open Cert.KernelIdeal Cert.KernelIdeal.Gen Cert.KernelIdeal.Mesh
open Idealize.ShloMosaic Idealize.ShloMosaic.TcCoe

/-- At the extended reals, from memories where every device holds its block of the whole argument, every device's
    result is the reference's: the two halves of the rows added. -/
theorem out_value (m : (ℓ : Loc nD τ sig) → Buf (Elt Ideal) ℓ) (A : Buf (Elt Ideal) Cert.RefValue.argLoc)
    (hA : ∀ d : Dev nD, m ((d.tc : Thread nD τ).loc main_arg0)
      = Layout.blockN ⟨2, ![512, 512]⟩ ⟨2, ![1024, 512]⟩ (Layout.meshBlock [2, 4, 4] ![[0], []] d) A)
    (c : Dev nD) : outAt (F := Ideal) m c = Cert.RefValue.refOut A := by
  funext i
  obtain ⟨d, hd, e⟩ := outAt_apply m c i
  rw [e, hA c, hA d]
  exact Cert.RefValue.blocks_add A c d hd i

/-- info: 'Cert.KernelIdeal.P.sum2_apply' depends on axioms: [propext, Classical.choice, Quot.sound] -/
#guard_msgs in #print axioms sum2_apply
/-- info: 'Cert.KernelIdeal.P.sum3_apply' depends on axioms: [propext, Classical.choice, Quot.sound] -/
#guard_msgs in #print axioms sum3_apply
/-- info: 'Cert.KernelIdeal.P.outAt_apply' depends on axioms: [propext, Classical.choice, Quot.sound] -/
#guard_msgs in #print axioms outAt_apply
/-- info: 'Cert.KernelIdeal.P.out_value' depends on axioms: [propext, Classical.choice, Quot.sound] -/
#guard_msgs in #print axioms out_value

end Cert.KernelIdeal.P

end
-- ==== Proof.Bits.Mesh.lean ====
/- The mesh's arithmetic. Device `c` sits at (c / 16, c / 4 % 4, c % 4) of the 2 × 4 × 4 mesh. Its partner along the
   first axis, `xp c`, has the other first coordinate; its partner along the second axis, `yp c`, is the other
   member of its pair {0,1} or {2,3} of second coordinates. `hh c` is the parity of the second coordinate: it says which
   half of the rows device `c` reduces first. The kernel's device chains and row offsets in closed form. -/
import proofs.«900724_g7700000000000725_dist_ar_v7x_xyz2x4x4_x_m512_n512_f32_1_alg».proof.Proof.Gen.Kernel

set_option Elab.async false

namespace Cert.Kernel.Mesh

open Idealize.ShloMosaic Cert.Kernel Cert.Kernel.Gen

/-- The partner along the first mesh axis. -/
def xp (c : Dev nD) : Dev nD := ⟨(c.val + 16) % 32, Nat.mod_lt _ (by decide)⟩
/-- The partner along the second mesh axis: second coordinate 0 ↔ 1, 2 ↔ 3. -/
def yp (c : Dev nD) : Dev nD := ⟨if (c.val / 4) % 2 = 0 then (c.val + 4) % 32 else (c.val + 28) % 32, by split <;> exact Nat.mod_lt _ (by decide)⟩
/-- The parity of the second mesh coordinate. -/
def hh (c : Dev nD) : ℕ := (c.val / 4) % 2

theorem xp_xp (c : Dev nD) : xp (xp c) = c := by revert c; decide
theorem yp_yp (c : Dev nD) : yp (yp c) = c := by revert c; decide
theorem hh_xp (c : Dev nD) : hh (xp c) = hh c := by revert c; decide
theorem hh_yp (c : Dev nD) : hh (yp c) = 1 - hh c := by revert c; decide
theorem hh_le (c : Dev nD) : hh c ≤ 1 := by revert c; decide
theorem xp_yp (c : Dev nD) : xp (yp c) = yp (xp c) := by revert c; decide
/-- The first mesh coordinate of the partner is the other one. -/
theorem xp_div (c : Dev nD) : (xp c).val / 16 + c.val / 16 = 1 := by revert c; decide
theorem yp_div (c : Dev nD) : (yp c).val / 16 = c.val / 16 := by revert c; decide

/-! ## The device chains in closed form

Each device chain of the kernel recomputes the mesh coordinates (c / 16, c / 4 % 4, c % 4) of device `c`, changes one
of them, and reassembles the logical id. Seventeen chains replace the first coordinate `x` by `1 - x`: the result is
`xp c`. Seventeen replace the second coordinate `y` by `y + 1 - 2 * (y % 2)`, its neighbour inside the pair {0,1} or
{2,3}: the result is `yp c`. Each equation is checked at the 32 devices. -/

theorem dev1_eq (c : Dev nD) : (⟨k0_dev1 c, k0_dev1_lt c⟩ : Dev nD) = xp c := by revert c; decide +kernel
theorem dev3_eq (c : Dev nD) : (⟨k0_dev3 c, k0_dev3_lt c⟩ : Dev nD) = xp c := by revert c; decide +kernel
theorem dev4_eq (c : Dev nD) : (⟨k0_dev4 c, k0_dev4_lt c⟩ : Dev nD) = xp c := by revert c; decide +kernel
theorem dev5_eq (c : Dev nD) : (⟨k0_dev5 c, k0_dev5_lt c⟩ : Dev nD) = xp c := by revert c; decide +kernel
theorem dev6_eq (c : Dev nD) : (⟨k0_dev6 c, k0_dev6_lt c⟩ : Dev nD) = xp c := by revert c; decide +kernel
theorem dev7_eq (c : Dev nD) : (⟨k0_dev7 c, k0_dev7_lt c⟩ : Dev nD) = xp c := by revert c; decide +kernel
theorem dev8_eq (c : Dev nD) : (⟨k0_dev8 c, k0_dev8_lt c⟩ : Dev nD) = xp c := by revert c; decide +kernel
theorem dev9_eq (c : Dev nD) : (⟨k0_dev9 c, k0_dev9_lt c⟩ : Dev nD) = xp c := by revert c; decide +kernel
theorem dev10_eq (c : Dev nD) : (⟨k0_dev10 c, k0_dev10_lt c⟩ : Dev nD) = xp c := by revert c; decide +kernel
theorem dev11_eq (c : Dev nD) : (⟨k0_dev11 c, k0_dev11_lt c⟩ : Dev nD) = xp c := by revert c; decide +kernel
theorem dev12_eq (c : Dev nD) : (⟨k0_dev12 c, k0_dev12_lt c⟩ : Dev nD) = xp c := by revert c; decide +kernel
theorem dev13_eq (c : Dev nD) : (⟨k0_dev13 c, k0_dev13_lt c⟩ : Dev nD) = xp c := by revert c; decide +kernel
theorem dev14_eq (c : Dev nD) : (⟨k0_dev14 c, k0_dev14_lt c⟩ : Dev nD) = xp c := by revert c; decide +kernel
theorem dev15_eq (c : Dev nD) : (⟨k0_dev15 c, k0_dev15_lt c⟩ : Dev nD) = xp c := by revert c; decide +kernel
theorem dev16_eq (c : Dev nD) : (⟨k0_dev16 c, k0_dev16_lt c⟩ : Dev nD) = xp c := by revert c; decide +kernel
theorem dev17_eq (c : Dev nD) : (⟨k0_dev17 c, k0_dev17_lt c⟩ : Dev nD) = xp c := by revert c; decide +kernel
theorem dev18_eq (c : Dev nD) : (⟨k0_dev18 c, k0_dev18_lt c⟩ : Dev nD) = xp c := by revert c; decide +kernel

theorem dev2_eq (c : Dev nD) : (⟨k0_dev2 c, k0_dev2_lt c⟩ : Dev nD) = yp c := by revert c; decide +kernel
theorem dev19_eq (c : Dev nD) : (⟨k0_dev19 c, k0_dev19_lt c⟩ : Dev nD) = yp c := by revert c; decide +kernel
theorem dev20_eq (c : Dev nD) : (⟨k0_dev20 c, k0_dev20_lt c⟩ : Dev nD) = yp c := by revert c; decide +kernel
theorem dev21_eq (c : Dev nD) : (⟨k0_dev21 c, k0_dev21_lt c⟩ : Dev nD) = yp c := by revert c; decide +kernel
theorem dev22_eq (c : Dev nD) : (⟨k0_dev22 c, k0_dev22_lt c⟩ : Dev nD) = yp c := by revert c; decide +kernel
theorem dev23_eq (c : Dev nD) : (⟨k0_dev23 c, k0_dev23_lt c⟩ : Dev nD) = yp c := by revert c; decide +kernel
theorem dev24_eq (c : Dev nD) : (⟨k0_dev24 c, k0_dev24_lt c⟩ : Dev nD) = yp c := by revert c; decide +kernel
theorem dev25_eq (c : Dev nD) : (⟨k0_dev25 c, k0_dev25_lt c⟩ : Dev nD) = yp c := by revert c; decide +kernel
theorem dev26_eq (c : Dev nD) : (⟨k0_dev26 c, k0_dev26_lt c⟩ : Dev nD) = yp c := by revert c; decide +kernel
theorem dev27_eq (c : Dev nD) : (⟨k0_dev27 c, k0_dev27_lt c⟩ : Dev nD) = yp c := by revert c; decide +kernel
theorem dev28_eq (c : Dev nD) : (⟨k0_dev28 c, k0_dev28_lt c⟩ : Dev nD) = yp c := by revert c; decide +kernel
theorem dev29_eq (c : Dev nD) : (⟨k0_dev29 c, k0_dev29_lt c⟩ : Dev nD) = yp c := by revert c; decide +kernel
theorem dev30_eq (c : Dev nD) : (⟨k0_dev30 c, k0_dev30_lt c⟩ : Dev nD) = yp c := by revert c; decide +kernel
theorem dev31_eq (c : Dev nD) : (⟨k0_dev31 c, k0_dev31_lt c⟩ : Dev nD) = yp c := by revert c; decide +kernel
theorem dev32_eq (c : Dev nD) : (⟨k0_dev32 c, k0_dev32_lt c⟩ : Dev nD) = yp c := by revert c; decide +kernel
theorem dev33_eq (c : Dev nD) : (⟨k0_dev33 c, k0_dev33_lt c⟩ : Dev nD) = yp c := by revert c; decide +kernel
theorem dev34_eq (c : Dev nD) : (⟨k0_dev34 c, k0_dev34_lt c⟩ : Dev nD) = yp c := by revert c; decide +kernel

/-! ## The row offsets in closed form

A row-offset chain computes the parity `(c / 4 % 4) % 2` of the second coordinate, which is `hh c`, multiplies it (or
its complement `1 - hh c`) by 256, the number of rows in a half, and adds the first row `16 * r` of chunk `r`; the
column offset is 0. No step leaves the range of a 32-bit word, so the value is the natural-number expression. Each
equation is checked at the 32 devices, the 16 chunks and the 2 coordinates. -/

theorem off1_eq (c : Dev nD) (r : Fin 16) : k0_off1 c (BitVec.ofNat 32 (16 * r.val)) = ![256 * hh c + 16 * r.val, 0] := funext (by revert c r; decide +kernel)
theorem off2_eq (c : Dev nD) (r : Fin 16) : k0_off2 c (BitVec.ofNat 32 (16 * r.val)) = ![256 * hh c + 16 * r.val, 0] := funext (by revert c r; decide +kernel)
theorem off3_eq (c : Dev nD) (r : Fin 16) : k0_off3 c (BitVec.ofNat 32 (16 * r.val)) = ![256 * (1 - hh c) + 16 * r.val, 0] := funext (by revert c r; decide +kernel)

end Cert.Kernel.Mesh
-- ==== Proof.Bits.Cells.lean ====
/- The exchange's vocabulary. Every device sends each of its sixteen row chunks of the half of the rows it reduces
   first to its partner along the first mesh axis, adds what it receives to its own rows, forwards what it received to
   its partner along the second mesh axis (which reduces the other half first), and adds what that partner forwards to
   its own other rows. Here: the two resource algebras side by side, the buffers and their row chunks and slots, the
   sixty-five semaphore cells of a device, and what each landing delivers. -/
import proofs.«900724_g7700000000000725_dist_ar_v7x_xyz2x4x4_x_m512_n512_f32_1_alg».proof.Proof.Bits.Mesh
import proofs.«900724_g7700000000000725_dist_ar_v7x_xyz2x4x4_x_m512_n512_f32_1_alg».proof.Proof.Gen.Kernel.Skeleton
import proofs.«900724_g7700000000000725_dist_ar_v7x_xyz2x4x4_x_m512_n512_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's own rounds (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers, a chunk's rows, a chunk's slot -/

abbrev xM : Memref sig .tc .vmem S512x512 .f32 := Memref.whole cc0_stg0_0
abbrev oM : Memref sig .tc .vmem S512x512 .f32 := Memref.whole cc0_stg1_0
abbrev rxM : Memref sig .tc .vmem S16x16x512 .f32 := Memref.whole cc0_scratch0
abbrev ryM : Memref sig .tc .vmem S16x16x512 .f32 := Memref.whole cc0_scratch1

theorem slot_inb : ∀ (i : Fin 16) a, (![i.val, 0, 0] : Fin 3 → Nat) a + S1x16x512.size a ≤ S16x16x512.size a := by decide
theorem sem_inb : ∀ (i : Fin 16) a, (![i.val] : Fin 1 → Nat) a + S1.size a ≤ S16.size a := by decide

/-- Chunk `i`'s rectangle of a receive buffer: its slot `i`. -/
abbrev slotRect (i : Fin 16) : Rect S16x16x512 := Rect.unit (s := S16x16x512) ![i.val, 0, 0] S1x16x512.size (slot_inb i)
/-- Slot `i` of the first receive buffer, as a 16 × 512 memref. -/
abbrev rxSlot (i : Fin 16) : Memref sig .tc .vmem S16x512 .f32 := (rxM.slice (slotRect i) (fun _ => rfl)).squeeze S16x512 squeezes_S1x16x512_S16x512
/-- Slot `i` of the second receive buffer. -/
abbrev rySlot (i : Fin 16) : Memref sig .tc .vmem S16x512 .f32 := (ryM.slice (slotRect i) (fun _ => rfl)).squeeze S16x512 squeezes_S1x16x512_S16x512

/-- Chunk `i` of the rows device `c` reduces first, as the source of its transfer along the first axis, -/
abbrev rowRect1 (c : Dev nD) (i : Fin 16) : Rect S512x512 := Rect.unit (s := S512x512) (k0_off1 c (BitVec.ofNat 32 (16 * i.val))) S16x512.size (k0_off1_inb c i)
/-- as the rows it loads and stores in the first round of sums, -/
abbrev rowRect2 (c : Dev nD) (i : Fin 16) : Rect S512x512 := Rect.unit (s := S512x512) (k0_off2 c (BitVec.ofNat 32 (16 * i.val))) S16x512.size (k0_off2_inb c i)
/-- and chunk `i` of its other rows, loaded and stored in the second round. -/
abbrev rowRect3 (c : Dev nD) (i : Fin 16) : Rect S512x512 := Rect.unit (s := S512x512) (k0_off3 c (BitVec.ofNat 32 (16 * i.val))) S16x512.size (k0_off3_inb c i)
abbrev xRow (c : Dev nD) (i : Fin 16) : Memref sig .tc .vmem S16x512 .f32 := xM.slice (rowRect1 c i) (fun _ => rfl)

/-! ## The cells -/

/-- The barrier semaphore of the collective. -/
abbrev barS : Sem sig := (SemArray.scalar (sig.barrier 0 rfl) : Sems sig S_).sem
/-- DMA semaphore `i` of family `a`: 0 the first axis' send semaphores, 1 its receive semaphores, 2 and 3 the second axis'. -/
def dS (a : Fin 4) (i : Fin 16) : DmaSem sig := ⟨2 + 16 * a.val + i.val, by have := a.isLt; have := i.isLt; show 2 + 16 * a.val + i.val < 66; omega⟩

abbrev barCell (c : Dev nD) : GSem nD τ sig := ((c : Thread nD τ), .reg barS)
abbrev dCell (a : Fin 4) (i : Fin 16) (c : Dev nD) : GSem nD τ sig := ((c : Thread nD τ), .dma (dS a i))

/-- The printed semaphore of family `a` at chunk `i` is `dS a i`. -/
theorem sem2_eq : ∀ i : Fin 16, ((cc0_scratch2.slice (Rect.unit (s := S16) ![i.val] S1.size (sem_inb i))).squeeze S_ squeezes_S1_S_).sem = dS 0 i := by decide
theorem sem3_eq : ∀ i : Fin 16, ((cc0_scratch3.slice (Rect.unit (s := S16) ![i.val] S1.size (sem_inb i))).squeeze S_ squeezes_S1_S_).sem = dS 1 i := by decide
theorem sem4_eq : ∀ i : Fin 16, ((cc0_scratch4.slice (Rect.unit (s := S16) ![i.val] S1.size (sem_inb i))).squeeze S_ squeezes_S1_S_).sem = dS 2 i := by decide
theorem sem5_eq : ∀ i : Fin 16, ((cc0_scratch5.slice (Rect.unit (s := S16) ![i.val] S1.size (sem_inb i))).squeeze S_ squeezes_S1_S_).sem = dS 3 i := by decide

/-- The credit of one chunk's transfer. -/
abbrev N : ℕ := (rxSlot 0 : Memref sig .tc .vmem S16x512 .f32).view.dmaCredit
theorem N_pos : 0 < N := View.dmaCredit_pos _ (by decide)
theorem N_rx (i : Fin 16) : (rxSlot i : Memref sig .tc .vmem S16x512 .f32).view.dmaCredit = N := rfl
theorem N_ry (i : Fin 16) : (rySlot i : Memref sig .tc .vmem S16x512 .f32).view.dmaCredit = N := rfl
theorem N_x (c : Dev nD) (i : Fin 16) : (xRow c i : Memref sig .tc .vmem S16x512 .f32).view.dmaCredit = N := rfl

/-! ## Contents -/

/-- Device `c`'s block of the argument, as its input buffer holds it. -/
def xstg (c : Dev nD) : (cc0_stg0_0 : Ref sig .tc).ty.Contents (Elt F) :=
  (win0_0.blk (0 : Fin 1)).view.read (Elt F) (m ((c : Thread nD τ).loc main_arg0))

/-- Contents nobody reads: what a slot held before a landing overwrote it. -/
def anyBuf {t : BufTy} : BufTy.Contents (Elt F) t := fun _ => Classical.arbitrary _

/-- The first receive buffer of device `c` once chunk `i` of its first-axis partner's rows has landed in slot `i`. -/
def rxLanded (c : Dev nD) (i : Fin 16) : Buf (Elt F) ((rxM : Memref sig .tc .vmem S16x16x512 .f32).view.loc (c : Thread nD τ)) :=
  (rxSlot i : Memref sig .tc .vmem S16x512 .f32).view.write (Elt F) anyBuf
    ((xRow (xp c) i : Memref sig .tc .vmem S16x512 .f32).view.read (Elt F) (xstg m (xp c))) Finset.univ
/-- The second receive buffer of device `c` once its second-axis partner has forwarded what landed in ITS slot `i`. -/
def ryLanded (c : Dev nD) (i : Fin 16) : Buf (Elt F) ((ryM : Memref sig .tc .vmem S16x16x512 .f32).view.loc (c : Thread nD τ)) :=
  (rySlot i : Memref sig .tc .vmem S16x512 .f32).view.write (Elt F) anyBuf
    ((rxSlot i : Memref sig .tc .vmem S16x512 .f32).view.read (Elt F) (rxLanded m (yp c) i)) Finset.univ

/-- The read share of the input buffer that chunk `i`'s transfer borrows; -/
abbrev qTok (i : Fin 16) : PosShare TreeShare := Transfers.shareTok fullShare 16 i
/-- the share the loads keep. -/
abbrev qKeep : PosShare TreeShare := Transfers.shareDrop fullShare 16

/-! ## What each landing hands its cell's owner -/

/-- Family 0 (own transfer along the first axis read to the end): the borrowed share of the chunk's rows comes back. -/
def pay0 (i : Fin 16) (c : Dev nD) : sProp 𝕄 :=
  (xRow c i : Memref sig .tc .vmem S16x512 .f32).view.loc (c : Thread nD τ) ↦[(xRow c i : Memref sig .tc .vmem S16x512 .f32).view.set]{qTok i} xstg m c
/-- Family 1 (the partner's chunk landed): slot `i` of the first receive buffer, at the partner's rows. -/
def pay1 (i : Fin 16) (c : Dev nD) : sProp 𝕄 :=
  (rxSlot i : Memref sig .tc .vmem S16x512 .f32).view.loc (c : Thread nD τ) ↦[(rxSlot i : Memref sig .tc .vmem S16x512 .f32).view.set]{fullShare} rxLanded m c i
/-- Family 2 (own forward read to the end): the half of slot `i` the forward borrowed comes back. -/
def pay2 (i : Fin 16) (c : Dev nD) : sProp 𝕄 :=
  (rxSlot i : Memref sig .tc .vmem S16x512 .f32).view.loc (c : Thread nD τ) ↦[(rxSlot i : Memref sig .tc .vmem S16x512 .f32).view.set]{fullShare.right} rxLanded m c i
/-- Family 3 (the second-axis partner's forward landed): slot `i` of the second receive buffer. -/
def pay3 (i : Fin 16) (c : Dev nD) : sProp 𝕄 :=
  (rySlot i : Memref sig .tc .vmem S16x512 .f32).view.loc (c : Thread nD τ) ↦[(rySlot i : Memref sig .tc .vmem S16x512 .f32).view.set]{fullShare} ryLanded m c i

def dmaPay (a : Fin 4) (i : Fin 16) (c : Dev nD) : sProp 𝕄 :=
  if a = 0 then pay0 m i c else if a = 1 then pay1 m i c else if a = 2 then pay2 m i c else pay3 m i c

/-- The first-axis partner's entry signal hands over ITS first receive buffer, slot by slot, at any contents; -/
def barPayX (c : Dev nD) : sProp 𝕄 :=
  bigSep Finset.univ fun i : Fin 16 => iprop(∃ f, (rxSlot i : Memref sig .tc .vmem S16x512 .f32).view.loc ((xp c : Dev nD) : Thread nD τ) ↦[(rxSlot i : Memref sig .tc .vmem S16x512 .f32).view.set]{fullShare} f)
/-- the second-axis partner's its second receive buffer. -/
def barPayY (c : Dev nD) : sProp 𝕄 :=
  bigSep Finset.univ fun i : Fin 16 => iprop(∃ f, (rySlot i : Memref sig .tc .vmem S16x512 .f32).view.loc ((yp c : Dev nD) : Thread nD τ) ↦[(rySlot i : Memref sig .tc .vmem S16x512 .f32).view.set]{fullShare} f)

/-- Family and chunk of one of the kernel's own DMA semaphores (numbers 2 to 65 of the pool). -/
def fam (q : DmaSem sig) : Fin 4 := ⟨(q.val - 2) / 16 % 4, Nat.mod_lt _ (by decide)⟩
def chk (q : DmaSem sig) : Fin 16 := ⟨(q.val - 2) % 16, Nat.mod_lt _ (by decide)⟩
theorem fam_dS : ∀ (a : Fin 4) (i : Fin 16), fam (dS a i) = a := by decide
theorem chk_dS : ∀ (a : Fin 4) (i : Fin 16), chk (dS a i) = i := by decide
theorem two_le_dS (a : Fin 4) (i : Fin 16) : 2 ≤ (dS a i).val := by show 2 ≤ 2 + 16 * a.val + i.val; omega

/-! ## The schedule: one round; a barrier cell has the two duties `true` (the first-axis partner's signal) and `false`
    (the second-axis partner's), one unit each; every DMA cell of the kernel's own the one duty `false` of a chunk's credit -/

def Rd : Rounds.Schedule (GSem nD τ sig) Bool 𝕄 where
  duties g r := if r = 0 ∧ g.1.2 = .tc then (match g.2 with | .reg _ => Finset.univ | .dma q => if 2 ≤ q.val then {false} else ∅) else ∅
  amount g _ _ := match g.2 with | .reg _ => 1 | .dma _ => N
  payload g _ d := match g.2 with
    | .reg _ => if d then barPayX g.1.1 else barPayY g.1.1
    | .dma q => dmaPay m (fam q) (chk q) g.1.1
  amount_pos g _ _ _ := by
    rcases g with ⟨t, sm⟩
    cases sm
    · exact Nat.one_pos
    · exact N_pos

instance Rd_payload_storable (g : GSem nD τ sig) (r : ℕ) (d : Bool) :
    BI.Storable (upEmb : UEmb _ 𝕄) ((Rd (F := F) m).payload g r d) := by
  rcases g with ⟨t, sm⟩
  cases sm with
  | reg s =>
    show BI.Storable upEmb (if d then barPayX t.1 else barPayY t.1)
    unfold barPayX barPayY
    split <;> infer_instance
  | dma q =>
    show BI.Storable upEmb (dmaPay m (fam q) (chk q) t.1)
    unfold dmaPay pay0 pay1 pay2 pay3
    (repeat' split) <;> infer_instance

section Sched
variable (c : Dev nD) (a : Fin 4) (i : Fin 16)

theorem duties_bar : (Rd (F := F) m).duties (barCell c) 0 = Finset.univ := by dsimp only [Rd]; exact if_pos ⟨rfl, rfl⟩
theorem duties_d : (Rd (F := F) m).duties (dCell a i c) 0 = {false} := by
  dsimp only [Rd]; rw [if_pos ⟨rfl, rfl⟩]; exact if_pos (two_le_dS a i)
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem amount_d (d : Bool) : (Rd (F := F) m).amount (dCell a i c) 0 d = N := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (Rd (F := F) m).expect (dCell a i c) 0 = N := by
  unfold Schedule.expect Schedule.amountOf; rw [duties_d, Finset.sum_singleton, amount_d]

theorem payload_bar_true : (Rd (F := F) m).payload (barCell c) 0 true = barPayX c := rfl
theorem payload_bar_false : (Rd (F := F) m).payload (barCell c) 0 false = barPayY c := rfl
theorem payload_d (d : Bool) : (Rd (F := F) m).payload (dCell a i c) 0 d = dmaPay m a i c := by
  show dmaPay m (fam (dS a i)) (chk (dS a i)) c = _
  rw [fam_dS, chk_dS]
theorem payload_d0 (d : Bool) : (Rd (F := F) m).payload (dCell 0 i c) 0 d = pay0 m i c := by rw [payload_d]; rfl
theorem payload_d1 (d : Bool) : (Rd (F := F) m).payload (dCell 1 i c) 0 d = pay1 m i c := by rw [payload_d]; rfl
theorem payload_d2 (d : Bool) : (Rd (F := F) m).payload (dCell 2 i c) 0 d = pay2 m i c := by rw [payload_d]; rfl
theorem payload_d3 (d : Bool) : (Rd (F := F) m).payload (dCell 3 i c) 0 d = pay3 m i c := by rw [payload_d]; rfl

/-- The whole of a barrier cell's round: both partners' receive buffers. -/
theorem rest_bar : bigSep ((Rd (F := F) m).duties (barCell c) 0 \ ∅) (fun d => (Rd (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_d : bigSep ((Rd (F := F) m).duties (dCell a i c) 0 \ ∅) (fun d => (Rd (F := F) m).payload (dCell a i c) 0 d) = dmaPay m a i c := by
  rw [Finset.sdiff_empty, duties_d, bigSep_singleton, payload_d]

end Sched

/-! ## A device's cells, indexed: the barrier cell (`none`) and the DMA cell of family `a` at chunk `i` (`some (a, i)`) -/

abbrev CIx : Type := Option (Fin 4 × Fin 16)
abbrev csem : CIx → SemLoc sig
  | none => .reg barS
  | some ai => .dma (dS ai.1 ai.2)
abbrev kcell (ck : Dev nD × CIx) : GSem nD τ sig := ((ck.1 : Thread nD τ), csem ck.2)

/-- Every cell's invariant, under the names `K`, and that every cell has reached its round 0. -/
def records (K : Dev nD × CIx → ℕ) : sProp 𝕄 :=
  iprop((bigSep Finset.univ fun ck : Dev nD × CIx => cellInv ER (Rd m) (K ck) (kcell ck))
    ∗ bigSep Finset.univ fun ck : Dev nD × CIx => reached ER (kcell ck) 0)

instance records_persistent (K : Dev nD × CIx → ℕ) : BI.Persistent (records m K) := by unfold records; infer_instance

theorem inv_at (K : Dev nD × CIx → ℕ) (ck : Dev nD × CIx) : records m K ⊢ cellInv ER (Rd m) (K ck) (kcell ck) := by
  have h : (bigSep Finset.univ fun ck : Dev nD × CIx => (cellInv ER (Rd m) (K ck) (kcell ck) : sProp 𝕄)) ⊢ cellInv ER (Rd m) (K ck) (kcell ck) :=
    bigSep_elim (Finset.mem_univ ck)
  unfold records; iintro ⟨H, -⟩; iapply h; iexact H
theorem reached_at (K : Dev nD × CIx → ℕ) (ck : Dev nD × CIx) : records m K ⊢ reached ER (kcell ck) 0 := by
  have h : (bigSep Finset.univ fun ck : Dev nD × CIx => (reached ER (kcell ck) 0 : sProp 𝕄)) ⊢ reached ER (kcell ck) 0 :=
    bigSep_elim (Finset.mem_univ ck)
  unfold records; iintro ⟨-, H⟩; iapply h; iexact H

/-! ## What a device owes -/

/-- The credits of the chunks `n`, …, 15 still to be sent along the first axis, -/
def Ox (c : Dev nD) (n : ℕ) : CellTallies nD τ sig Unit :=
  ∑ j ∈ Finset.univ.filter (fun j : Fin 16 => n ≤ j.val), tallyAt (dCell 1 j (xp c)) () N
/-- and of those still to be forwarded along the second. -/
def Oy (c : Dev nD) (n : ℕ) : CellTallies nD τ sig Unit :=
  ∑ j ∈ Finset.univ.filter (fun j : Fin 16 => n ≤ j.val), tallyAt (dCell 3 j (yp c)) () N
/-- After its first entry signal a device owes all its transfers and the second signal; at launch the first as well. -/
def O₁ (c : Dev nD) : CellTallies nD τ sig Unit := Oy c 0 + Ox c 0 + tallyAt (barCell (yp c)) () 1
def O₀ (c : Dev nD) : CellTallies nD τ sig Unit := O₁ c + tallyAt (barCell (xp c)) () 1

/-- Levels: a barrier cell at 1, a first-axis receive cell at 2, a second-axis receive cell at 3, every other cell at 0:
    a device waits on its barrier owing only transfers, on a first-axis receive cell owing only forwards, and on
    everything else owing nothing. -/
def L (g : GSem nD τ sig) : Finset Unit := if g.1.2 = .tc then {()} else ∅
def lv (g : GSem nD τ sig) (_ : Unit) : ℕ :=
  match g.2 with
  | .reg _ => 1
  | .dma q => if 18 ≤ q.val ∧ q.val < 34 then 2 else if 50 ≤ q.val then 3 else 0

/-! ## The ghost state a device starts from -/

/-- Its positions: round 0 of each of its sixty-five cells, nothing taken. -/
def positions (c : Dev nD) : sProp 𝕄 :=
  iprop(atPos ER (barCell c) 0 ∅ 0 ∗ bigSep Finset.univ fun i : Fin 16 =>
    iprop(atPos ER (dCell 0 i c) 0 ∅ 0 ∗ atPos ER (dCell 1 i c) 0 ∅ 0 ∗ atPos ER (dCell 2 i c) 0 ∅ 0 ∗ atPos ER (dCell 3 i c) 0 ∅ 0))
/-- The tokens of the duties IT pays: its two entry signals, and per chunk its own two send cells and the two partners' receive cells. -/
def payToks (c : Dev nD) : sProp 𝕄 :=
  iprop(dutyTok ER (barCell (xp c)) 0 true ∗ dutyTok ER (barCell (yp c)) 0 false ∗ bigSep Finset.univ fun i : Fin 16 =>
    iprop(dutyTok ER (dCell 0 i c) 0 false ∗ dutyTok ER (dCell 1 i (xp c)) 0 false ∗ dutyTok ER (dCell 2 i c) 0 false ∗ dutyTok ER (dCell 3 i (yp c)) 0 false))
def ghost (K : Dev nD × CIx → ℕ) (c : Dev nD) : sProp 𝕄 := iprop(records m K ∗ positions c ∗ payToks c)
/-- The credit it is owed: two units on its barrier, a chunk's credit on each of its receive cells. -/
def creds (c : Dev nD) : sProp 𝕄 :=
  iprop(cred (tallyAt (barCell c) () 2) ∗ bigSep Finset.univ fun i : Fin 16 =>
    iprop(cred (tallyAt (dCell 1 i c) () N) ∗ cred (tallyAt (dCell 3 i c) () N)))
def start (c : Dev nD) : sProp 𝕄 := iprop((∃ K, ghost m K c) ∗ creds c ∗ levAts L lv)

/-- A receive buffer, whole, at any contents. -/
def rxAny (c : Dev nD) : sProp 𝕄 := iprop(∃ f : Buf (Elt F) ((c : Thread nD τ).loc cc0_scratch0), ((c : Thread nD τ).loc cc0_scratch0) ↦{fullShare} f)
def ryAny (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m c ∗ rxAny c ∗ ryAny c)
/-- After the point: both receive buffers whole again, the sixty-four own cells at zero, closed. -/
def Φ₁ (c : Dev nD) : sProp 𝕄 :=
  iprop(rxAny c ∗ ryAny c ∗ bigSep Finset.univ fun ai : Fin 4 × Fin 16 => semVal (dCell ai.1 ai.2 c) 0)

/-! ## The result -/

/-- The sum the first round stores in chunk `i` of the rows reduced first: own rows plus slot `i` of the first receive buffer, -/
def sum2 (c : Dev nD) (i : Fin 16) : FVec F S16x512 .f32 :=
  k0_pay1 ((xM : Memref sig .tc .vmem S512x512 .f32).view.readAt (Elt F) (rowRect2 c i).toLoadRect (xstg m c))
    ((rxM : Memref sig .tc .vmem S16x16x512 .f32).view.readAt (Elt F) (slotRect i).toLoadRect (rxLanded m c i))
/-- and the second in chunk `i` of the other rows: own rows plus slot `i` of the second receive buffer. -/
def sum3 (c : Dev nD) (i : Fin 16) : FVec F S16x512 .f32 :=
  k0_pay1 ((xM : Memref sig .tc .vmem S512x512 .f32).view.readAt (Elt F) (rowRect3 c i).toLoadRect (xstg m c))
    ((ryM : Memref sig .tc .vmem S16x16x512 .f32).view.readAt (Elt F) (slotRect i).toLoadRect (ryLanded m c i))

/-- The output buffer after `n` stores of the first round, from contents `f0`, -/
def out2 (c : Dev nD) (f0 : (cc0_stg1_0 : Ref sig .tc).ty.Contents (Elt F)) : ℕ → (cc0_stg1_0 : Ref sig .tc).ty.Contents (Elt F)
  | 0 => f0
  | n + 1 => if h : n < 16 then ((oM : Memref sig .tc .vmem S512x512 .f32).access (rowRect2 c ⟨n, h⟩)).write (Elt F) (out2 c f0 n) (sum2 m c ⟨n, h⟩) Finset.univ else out2 c f0 n
/-- and after the first round and `n` stores of the second. -/
def out3 (c : Dev nD) (f0 : (cc0_stg1_0 : Ref sig .tc).ty.Contents (Elt F)) : ℕ → (cc0_stg1_0 : Ref sig .tc).ty.Contents (Elt F)
  | 0 => out2 m c f0 16
  | n + 1 => if h : n < 16 then ((oM : Memref sig .tc .vmem S512x512 .f32).access (rowRect3 c ⟨n, h⟩)).write (Elt F) (out3 c f0 n) (sum3 m c ⟨n, h⟩) Finset.univ else out3 c f0 n
/-- The result: every row is overwritten, so it does not depend on what the buffer held. -/
def outAt (c : Dev nD) : (cc0_stg1_0 : Ref sig .tc).ty.Contents (Elt F) := out3 m c anyBuf 16

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.P

end
-- ==== Proof.Bits.Launch1.lean ====
/- The launch, first part: the cells' ghost state minted for all devices at once, each cell's invariant allocated from its counter at zero, and the tokens dealt to the devices that pay with them. -/
import proofs.«900724_g7700000000000725_dist_ar_v7x_xyz2x4x4_x_m512_n512_f32_1_alg».proof.Proof.Bits.Cells
import Mathlib.Logic.Equiv.Fin.Basic
import Mathlib.Logic.Equiv.Option
import Mathlib.Logic.Equiv.Prod
import Mathlib.Data.Fintype.Sum
import Mathlib.Data.Fintype.Option

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The kernel's own (scoped) semaphores as the launch indexes them: DMA semaphores 2 to 65. -/
abbrev osem : Fin 64 → SemLoc sig := fun k => .dma ⟨k.val + 2, by have := k.isLt; show k.val + 2 < 66; omega⟩

theorem ownSemFacts : Pipeline.OwnSemFacts cfg0.spec osem := by decide

/-- A device's cells are pairwise distinct: the barrier cell is a regular semaphore, and a DMA cell's number gives back
    its family and its chunk. -/
theorem csem_injective : Function.Injective (csem : CIx → SemLoc sig) := by
  rintro (_ | ⟨a, i⟩) (_ | ⟨a', i'⟩) h
  · rfl
  · have h' : (SemLoc.reg barS : SemLoc sig) = .dma (dS a' i') := h
    cases h'
  · have h' : (SemLoc.dma (dS a i) : SemLoc sig) = .reg barS := h
    cases h'
  · have h' : (SemLoc.dma (dS a i) : SemLoc sig) = .dma (dS a' i') := h
    have hd : dS a i = dS a' i' := by injection h'
    have ha : a = a' := by rw [← fam_dS a i, hd, fam_dS]
    have hi : i = i' := by rw [← chk_dS a i, hd, chk_dS]
    rw [ha, hi]

theorem kcell_injective : Function.Injective (kcell : Dev nD × CIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- All devices' cells; -/
def allCells : Finset (GSem nD τ sig) := Finset.univ.map ⟨kcell, kcell_injective⟩

/-- A duty of one of a device's own cells: a barrier duty by its name, or the one duty of the DMA cell of a family at a chunk. -/
abbrev TIx : Type := Bool ⊕ Fin 4 × Fin 16
/-- The token of duty `j` of device `c`'s cells, as minted. -/
abbrev tokOf (cj : Dev nD × TIx) : GSem nD τ sig × ℕ × Bool := match cj.2 with
  | .inl b => (barCell cj.1, 0, b)
  | .inr ai => (dCell ai.1 ai.2 cj.1, 0, false)
theorem tokOf_injective : Function.Injective (tokOf : Dev nD × TIx → GSem nD τ sig × ℕ × Bool) := by
  rintro ⟨c, j⟩ ⟨c', j'⟩ h
  have h1 : c = c' := by
    have := congrArg (fun x : GSem nD τ sig × ℕ × Bool => x.1.1.1) h
    rcases j with b | ai <;> rcases j' with b' | ai' <;> exact this
  subst h1
  have : j = j' := by
    rcases j with b | ⟨a, i⟩ <;> rcases j' with b' | ⟨a', i'⟩
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · have h2 : csem (some (a, i)) = csem (some (a', i')) := congrArg (fun x : GSem nD τ sig × ℕ × Bool => x.1.2) h
      rw [Option.some.inj (csem_injective h2)]
  subst this; rfl
/-- and all their duties' tokens: a barrier's two, a DMA cell's one. -/
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((dutyTok ER (barCell c) 0 true ∗ dutyTok ER (barCell c) 0 false) ∗ bigSep Finset.univ fun i : Fin 16 =>
    iprop(dutyTok ER (dCell 0 i c) 0 false ∗ dutyTok ER (dCell 1 i c) 0 false ∗ dutyTok ER (dCell 2 i c) 0 false ∗ dutyTok ER (dCell 3 i c) 0 false))

/-- What the launch element deals device `c`: its own cells' round states, positions, reached marks and duty tokens. -/
def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks c)
/-- What the global step makes of it. -/
def G' (c : Dev nD) : sProp 𝕄 := iprop(∃ K, ghost m K c)

/-! ## Sums over a device's cells, one by one -/

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_bool (Φ : Bool → sProp 𝕄) : bigSep Finset.univ Φ = iprop(Φ true ∗ Φ false) := bigSep_univ_eq_bigSepL [true, false] (by decide) (by decide) Φ
/-- Over the families and chunks: chunk by chunk, the four families side by side. -/
theorem bigSep_fam (Φ : Fin 4 → Fin 16 → sProp 𝕄) :
    (bigSep Finset.univ fun ai : Fin 4 × Fin 16 => Φ ai.1 ai.2) = bigSep Finset.univ fun i : Fin 16 => iprop(Φ 0 i ∗ Φ 1 i ∗ Φ 2 i ∗ Φ 3 i) := by
  rw [bigSep_univ_equiv (Equiv.prodComm (Fin 16) (Fin 4)) (fun ai : Fin 4 × Fin 16 => Φ ai.1 ai.2), bigSep_univ_prod]
  exact bigSep_congr fun i _ => bigSep_fin4 fun a => Φ a i
/-- Over a device's cells: the barrier cell, then the DMA cells. -/
theorem bigSep_cix (Φ : CIx → sProp 𝕄) : bigSep Finset.univ Φ = iprop(Φ none ∗ bigSep Finset.univ fun ai : Fin 4 × Fin 16 => Φ (some ai)) := by
  rw [bigSep_univ_equiv (Equiv.optionEquivSumPUnit.{0, 0} (Fin 4 × Fin 16)).symm Φ, bigSep_univ_sum, bigSep_univ_of_subsingleton (PUnit.unit : PUnit.{1})]
  show iprop((bigSep Finset.univ fun ai : Fin 4 × Fin 16 => Φ (some ai)) ∗ Φ none) = iprop(Φ none ∗ bigSep Finset.univ fun ai : Fin 4 × Fin 16 => Φ (some ai))
  exact equiv_iff.mp ⟨BI.sep_comm, BI.sep_comm⟩

/-! ## The launch element, dealt -/

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum]
    show iprop(bigSep Finset.univ (fun b : Bool => (dutyTok ER (barCell c) 0 b : sProp 𝕄))
      ∗ bigSep Finset.univ (fun ai : Fin 4 × Fin 16 => (dutyTok ER (dCell ai.1 ai.2 c) 0 false : sProp 𝕄))) = toks c
    rw [bigSep_bool, bigSep_fam (fun a i => (dutyTok ER (dCell a i c) 0 false : sProp 𝕄))]
    rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores the launch hands over -/

/-- The kernel's own semaphores are its sixty-four DMA cells. -/
theorem ownSems0_eq (c : Dev nD) : (Pipeline.ownSems0 (Ix := Unit) (Name := ℕ) (U := UU) (Lvl := ℕ) (Val := Elt F) (τ := τ) osem c : sProp 𝕄)
    = bigSep Finset.univ fun ai : Fin 4 × Fin 16 => semVal (dCell ai.1 ai.2 c) 0 := by
  unfold Pipeline.ownSems0
  rw [bigSep_univ_equiv (finProdFinEquiv : Fin 4 × Fin 16 ≃ Fin 64)]
  refine bigSep_congr fun ai _ => ?_
  have h : osem (finProdFinEquiv ai : Fin 64) = .dma (dS ai.1 ai.2) := by
    show (SemLoc.dma _ : SemLoc sig) = SemLoc.dma _
    congr 1
    apply Fin.ext
    show (finProdFinEquiv ai : Fin 64).val + 2 = 2 + 16 * ai.1.val + ai.2.val
    rw [finProdFinEquiv_apply_val]; omega
  rw [h]
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cix]
  iintro ⟨HS, HB⟩
  isplitl [HB]; · iexact HB
  iexact HS

/-! ## The global step -/

/-- Each of a device's cells gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m) (kcell (c, k)) 0)
      ⊢ (|={Set.univ}=> bigSep Finset.univ fun k : CIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions are those of its sixty-five cells. -/
theorem positions_eq (c : Dev nD) : (bigSep Finset.univ fun k : CIx => (atPos ER (kcell (c, k)) 0 ∅ 0 : sProp 𝕄)) = positions c := by
  rw [bigSep_cix]
  show iprop(atPos ER (barCell c) 0 ∅ 0 ∗ bigSep Finset.univ fun ai : Fin 4 × Fin 16 => (atPos ER (dCell ai.1 ai.2 c) 0 ∅ 0 : sProp 𝕄)) = positions c
  rw [bigSep_fam (fun a i => (atPos ER (dCell a i c) 0 ∅ 0 : sProp 𝕄))]
  rfl

/-- What stays with device `c`: its positions, and the tokens of the duties it pays. -/
def linear (c : Dev nD) : sProp 𝕄 := iprop(positions c ∗ payToks c)

theorem ghost_intro (K : Dev nD × CIx → ℕ) (c : Dev nD) : iprop(records m K ∗ linear c) ⊢ G' m c := by
  unfold linear G' ghost
  iintro ⟨HR, HP, HT⟩
  iexists K
  isplitl [HR]; · iexact HR
  isplitl [HP]; · iexact HP
  iexact HT

/-- The partners along the two axes, as permutations of the devices. -/
def xpE : Dev nD ≃ Dev nD := ⟨xp, xp, xp_xp, xp_xp⟩
def ypE : Dev nD ≃ Dev nD := ⟨yp, yp, yp_yp, yp_yp⟩

/-- The tokens dealt to their payers: a barrier's `true` token and a first-axis receive cell's token go to the partner
    along the first axis, a barrier's `false` token and a second-axis receive cell's token to the partner along the
    second; the send cells' tokens stay. -/
theorem toks_around : (bigSep Finset.univ fun c : Dev nD => (toks c : sProp 𝕄)) ⊢ bigSep Finset.univ fun c : Dev nD => payToks c := by
  unfold toks payToks
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => bigSep Finset.univ fun i : Fin 16 => (dutyTok ER (dCell 1 i c) 0 false : sProp 𝕄)),
    bigSep_univ_equiv ypE (fun c : Dev nD => bigSep Finset.univ fun i : Fin 16 => (dutyTok ER (dCell 3 i c) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

theorem regroup :
    (bigSep Finset.univ fun c : Dev nD => iprop((bigSep Finset.univ fun k : CIx => iprop(∃ κ : ℕ, cellInv ER (Rd m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CIx => (atPos ER (kcell (c, k)) 0 ∅ 0 : sProp 𝕄)) payToks).symm).trans
      (bigSep_mono fun c _ => show _ ⊢ linear c from Entails.of_eq (by unfold linear; rw [positions_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.P.fund_cells' depends on axioms: [propext, Classical.choice, Quot.sound] -/
#guard_msgs in #print axioms fund_cells

/-- info: 'Cert.Kernel.P.glob' depends on axioms: [propext, Classical.choice, Quot.sound] -/
#guard_msgs in #print axioms glob

end Cert.Kernel.P

end
-- ==== Proof.Bits.Levels.lean ====
/- What a device owes, chunk by chunk; the levels at which it may wait; the credit the launch hands it. -/
import proofs.«900724_g7700000000000725_dist_ar_v7x_xyz2x4x4_x_m512_n512_f32_1_alg».proof.Proof.Bits.Cells

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The chunks still to be sent, one chunk at a time -/

/-- The chunks from `n` on are chunk `n` and the chunks from `n + 1` on. -/
theorem sum_from_succ {M : Type} [AddCommMonoid M] (f : Fin 16 → M) (n : ℕ) (hn : n < 16) :
    ∑ j ∈ Finset.univ.filter (fun j : Fin 16 => n ≤ j.val), f j
      = ∑ j ∈ Finset.univ.filter (fun j : Fin 16 => n + 1 ≤ j.val), f j + f ⟨n, hn⟩ := by
  have hs : (Finset.univ.filter fun j : Fin 16 => n ≤ j.val)
      = insert (⟨n, hn⟩ : Fin 16) (Finset.univ.filter fun j : Fin 16 => n + 1 ≤ j.val) := by
    ext j
    simp only [Finset.mem_filter, Finset.mem_univ, true_and, Finset.mem_insert, Fin.ext_iff]
    omega
  have hm : (⟨n, hn⟩ : Fin 16) ∉ Finset.univ.filter fun j : Fin 16 => n + 1 ≤ j.val := by
    simp only [Finset.mem_filter, Finset.mem_univ, true_and]
    omega
  rw [hs, Finset.sum_insert hm, add_comm]

/-- There is no chunk from 16 on. -/
theorem sum_from_end {M : Type} [AddCommMonoid M] (f : Fin 16 → M) :
    ∑ j ∈ Finset.univ.filter (fun j : Fin 16 => 16 ≤ j.val), f j = 0 := by
  have hs : (Finset.univ.filter fun j : Fin 16 => 16 ≤ j.val) = ∅ := by
    ext j
    simp only [Finset.mem_filter, Finset.mem_univ, true_and, Finset.notMem_empty, iff_false]
    have := j.isLt
    omega
  rw [hs, Finset.sum_empty]

theorem Ox_succ (c : Dev nD) (n : ℕ) (hn : n < 16) : Ox c n = Ox c (n + 1) + tallyAt (dCell 1 ⟨n, hn⟩ (xp c)) () N :=
  sum_from_succ (fun j => tallyAt (dCell 1 j (xp c)) () N) n hn
theorem Oy_succ (c : Dev nD) (n : ℕ) (hn : n < 16) : Oy c n = Oy c (n + 1) + tallyAt (dCell 3 ⟨n, hn⟩ (yp c)) () N :=
  sum_from_succ (fun j => tallyAt (dCell 3 j (yp c)) () N) n hn
theorem Ox_end (c : Dev nD) : Ox c 16 = 0 := sum_from_end fun j => tallyAt (dCell 1 j (xp c)) () N
theorem Oy_end (c : Dev nD) : Oy c 16 = 0 := sum_from_end fun j => tallyAt (dCell 3 j (yp c)) () N

theorem L_of_ne (g : GSem nD τ sig) (h : g.1.2 ≠ .tc) : L g = ∅ := if_neg h
theorem L_tc (c : Dev nD) (sm : SemLoc sig) : L ((c : Thread nD τ), sm) = {()} := if_pos rfl

/-! ## Where a device owes, and at which levels -/

/-- What is still to be sent along the first axis is owed to first-axis receive cells of the first-axis partner; -/
theorem Ox_pos {c : Dev nD} {n : ℕ} {g : GSem nD τ sig} {u : Unit} (h : 0 < Ox c n g u) : ∃ j : Fin 16, g = dCell 1 j (xp c) := by
  obtain ⟨j, -, hj⟩ := Pipeline.sum_pos_exists h
  exact ⟨j, (Pipeline.tallyAt_pos hj).1⟩
/-- what is still to be forwarded, to second-axis receive cells of the second-axis partner. -/
theorem Oy_pos {c : Dev nD} {n : ℕ} {g : GSem nD τ sig} {u : Unit} (h : 0 < Oy c n g u) : ∃ j : Fin 16, g = dCell 3 j (yp c) := by
  obtain ⟨j, -, hj⟩ := Pipeline.sum_pos_exists h
  exact ⟨j, (Pipeline.tallyAt_pos hj).1⟩

/-- At launch a device owes receive cells of its two partners and their two barrier cells, nothing else. -/
theorem O₀_pos {c : Dev nD} {g : GSem nD τ sig} {u : Unit} (h : 0 < O₀ c g u) :
    (∃ j : Fin 16, g = dCell 3 j (yp c)) ∨ (∃ j : Fin 16, g = dCell 1 j (xp c)) ∨ g = barCell (yp c) ∨ g = barCell (xp c) := by
  rcases Pipeline.add_pos_cases h with h | h
  · rcases Pipeline.add_pos_cases h with h | h
    · rcases Pipeline.add_pos_cases h with h | h
      · exact Or.inl (Oy_pos h)
      · exact Or.inr (Or.inl (Ox_pos h))
    · exact Or.inr (Or.inr (Or.inl (Pipeline.tallyAt_pos h).1))
  · exact Or.inr (Or.inr (Or.inr (Pipeline.tallyAt_pos h).1))

theorem lv_bar (d : Dev nD) : lv (barCell d) () = 1 := rfl
theorem lv_d1 (j : Fin 16) (d : Dev nD) : lv (dCell 1 j d) () = 2 := by
  have := j.isLt
  show (if 18 ≤ 2 + 16 * 1 + j.val ∧ 2 + 16 * 1 + j.val < 34 then 2 else if 50 ≤ 2 + 16 * 1 + j.val then 3 else 0) = 2
  rw [if_pos (by omega)]
theorem lv_d3 (j : Fin 16) (d : Dev nD) : lv (dCell 3 j d) () = 3 := by
  have := j.isLt
  show (if 18 ≤ 2 + 16 * 3 + j.val ∧ 2 + 16 * 3 + j.val < 34 then 2 else if 50 ≤ 2 + 16 * 3 + j.val then 3 else 0) = 3
  rw [if_neg (by omega), if_pos (by omega)]
theorem lv_stage (c : Dev nD) (q : DmaSem sig) (hq : q.val < 2) : lv ((c : Thread nD τ), .dma q) () = 0 := by
  show (if 18 ≤ q.val ∧ q.val < 34 then 2 else if 50 ≤ q.val then 3 else 0) = 0
  rw [if_neg (by omega), if_neg (by omega)]

/-- At its barrier wait a device owes only transfers: receive cells, above its barrier cell. -/
theorem mayWait_bar (c : Dev nD) :
    (levAts L lv : sProp 𝕄) ⊢ MayWait (c : Thread nD τ) (.reg barS) () (Oy c 0 + Ox c 0) :=
  MayOwe.of_cut (L := L) (lev := lv) 1 (fun p hp => by rw [Finset.mem_singleton.mp hp, L_tc]; exact Finset.mem_singleton_self _)
    (fun g u hg => by
      rcases Pipeline.add_pos_cases hg with h | h
      · obtain ⟨j, rfl⟩ := Oy_pos h; exact Finset.mem_singleton_self _
      · obtain ⟨j, rfl⟩ := Ox_pos h; exact Finset.mem_singleton_self _)
    (fun p hp => by rw [Finset.mem_singleton.mp hp]; exact le_of_eq (lv_bar c))
    (fun g u hg => by
      rcases Pipeline.add_pos_cases hg with h | h
      · obtain ⟨j, rfl⟩ := Oy_pos h; rw [show u = () from rfl, lv_d3]; decide
      · obtain ⟨j, rfl⟩ := Ox_pos h; rw [show u = () from rfl, lv_d1]; decide)
/-- Waiting for a chunk of the first axis it owes only forwards along the second. -/
theorem mayWait_rx (c : Dev nD) (i : Fin 16) (n : ℕ) :
    (levAts L lv : sProp 𝕄) ⊢ MayWait (c : Thread nD τ) (.dma (dS 1 i)) () (Oy c n) :=
  MayOwe.of_cut (L := L) (lev := lv) 2 (fun p hp => by rw [Finset.mem_singleton.mp hp, L_tc]; exact Finset.mem_singleton_self _)
    (fun g u hg => by obtain ⟨j, rfl⟩ := Oy_pos hg; exact Finset.mem_singleton_self _)
    (fun p hp => by rw [Finset.mem_singleton.mp hp]; exact le_of_eq (lv_d1 i c))
    (fun g u hg => by obtain ⟨j, rfl⟩ := Oy_pos hg; rw [show u = () from rfl, lv_d3]; decide)
/-- The pipeline's own staging cells (DMA semaphores 0 and 1) sit below everything a device owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, rfl⟩ | ⟨j, rfl⟩ | rfl | rfl <;> exact Finset.mem_singleton_self _)
      (fun p hp => by rw [Finset.mem_singleton.mp hp]; exact le_of_eq (lv_stage c q hq))
      (fun g u hg => by
        rcases O₀_pos hg with ⟨j, rfl⟩ | ⟨j, rfl⟩ | rfl | rfl
        · rw [show u = () from rfl, lv_d3]; decide
        · rw [show u = () from rfl, lv_d1]; decide
        · rw [show u = () from rfl, lv_bar]; decide
        · rw [show u = () from rfl, lv_bar]; decide)
  · rw [MayWait_zero]; iintro -; iempintro

/-! ## The launch credit -/

/-- Every device owing chunk `j`'s credit to its first-axis partner's receive cell, each device is credited a chunk on its own; -/
theorem launch_Ox (c : Dev nD) :
    (Pipeline.launchCred (fun d => Ox d 0) c : sProp 𝕄) ⊢ bigSep Finset.univ fun i : Fin 16 => cred (tallyAt (dCell 1 i c) () N) := by
  have e : (Pipeline.launchCred (fun d => Ox d 0) c : sProp 𝕄)
      = bigSep (Finset.univ.filter fun j : Fin 16 => 0 ≤ j.val) fun j => Pipeline.launchCred (fun d => tallyAt (dCell 1 j (xp d)) () N) c :=
    Pipeline.launchCred_sum _ (fun j d => tallyAt (dCell 1 j (xp d)) () N) c
  rw [e, Finset.filter_true_of_mem fun j _ => Nat.zero_le _]
  exact bigSep_mono fun j _ => Pipeline.launchCred_tallyAt (.dma (dS 1 j)) xp xp xp_xp xp_xp () N c
/-- likewise along the second axis. -/
theorem launch_Oy (c : Dev nD) :
    (Pipeline.launchCred (fun d => Oy d 0) c : sProp 𝕄) ⊢ bigSep Finset.univ fun i : Fin 16 => cred (tallyAt (dCell 3 i c) () N) := by
  have e : (Pipeline.launchCred (fun d => Oy d 0) c : sProp 𝕄)
      = bigSep (Finset.univ.filter fun j : Fin 16 => 0 ≤ j.val) fun j => Pipeline.launchCred (fun d => tallyAt (dCell 3 j (yp d)) () N) c :=
    Pipeline.launchCred_sum _ (fun j d => tallyAt (dCell 3 j (yp d)) () N) c
  rw [e, Finset.filter_true_of_mem fun j _ => Nat.zero_le _]
  exact bigSep_mono fun j _ => Pipeline.launchCred_tallyAt (.dma (dS 3 j)) yp yp yp_yp yp_yp () N c

/-- The launch credits each cell what all devices together owe it: a device's barrier two units (one from each partner),
    each of its receive cells one chunk's credit. -/
theorem creds_of_launch (c : Dev nD) : (Pipeline.launchCred O₀ c : sProp 𝕄) ⊢ creds c := by
  have e : (Pipeline.launchCred O₀ c : sProp 𝕄)
      = iprop(((Pipeline.launchCred (fun d => Oy d 0) c ∗ Pipeline.launchCred (fun d => Ox d 0) c)
          ∗ Pipeline.launchCred (fun d => tallyAt (barCell (yp d)) () 1) c)
          ∗ Pipeline.launchCred (fun d => tallyAt (barCell (xp d)) () 1) c) := by
    rw [← Pipeline.launchCred_add, ← Pipeline.launchCred_add, ← Pipeline.launchCred_add]; rfl
  have hby : (Pipeline.launchCred (fun d => tallyAt (barCell (yp d)) () 1) c : sProp 𝕄) ⊢ cred (tallyAt (barCell c) () 1) :=
    Pipeline.launchCred_tallyAt (.reg barS) yp yp yp_yp yp_yp () 1 c
  have hbx : (Pipeline.launchCred (fun d => tallyAt (barCell (xp d)) () 1) c : sProp 𝕄) ⊢ cred (tallyAt (barCell c) () 1) :=
    Pipeline.launchCred_tallyAt (.reg barS) xp xp xp_xp xp_xp () 1 c
  have h2 : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from (tallyAt_add _ _ 1 1).symm]
    exact (cred_add _ _).2
  rw [e]; unfold creds
  rw [bigSep_sep']
  iintro ⟨⟨⟨Hy, Hx⟩, Hby⟩, Hbx⟩
  isplitl [Hby Hbx]
  · iapply h2
    isplitl [Hby]
    · iapply hby; iexact Hby
    · iapply hbx; iexact Hbx
  isplitl [Hx]
  · iapply (launch_Ox c); iexact Hx
  · iapply (launch_Oy c); iexact Hy

/-- info: 'Cert.Kernel.P.Ox_succ' depends on axioms: [propext, Classical.choice, Quot.sound] -/
#guard_msgs in #print axioms Ox_succ
/-- info: 'Cert.Kernel.P.mayWait_bar' depends on axioms: [propext, Classical.choice, Quot.sound] -/
#guard_msgs in #print axioms mayWait_bar
/-- info: 'Cert.Kernel.P.mayWait_rx' depends on axioms: [propext, Classical.choice, Quot.sound] -/
#guard_msgs in #print axioms mayWait_rx
/-- info: 'Cert.Kernel.P.mayWait_stage' depends on axioms: [propext, Classical.choice, Quot.sound] -/
#guard_msgs in #print axioms mayWait_stage
/-- info: 'Cert.Kernel.P.creds_of_launch' depends on axioms: [propext, Classical.choice, Quot.sound] -/
#guard_msgs in #print axioms creds_of_launch
/-- info: 'Cert.Kernel.P.Oy_succ' depends on axioms: [propext, Classical.choice, Quot.sound] -/
#guard_msgs in #print axioms Oy_succ
/-- info: 'Cert.Kernel.P.Ox_end' depends on axioms: [propext, Classical.choice, Quot.sound] -/
#guard_msgs in #print axioms Ox_end
/-- info: 'Cert.Kernel.P.Oy_end' depends on axioms: [propext, Classical.choice, Quot.sound] -/
#guard_msgs in #print axioms Oy_end

end Cert.Kernel.P

end
-- ==== Proof.Bits.Launch2.lean ====
/- The launch, second part. What a device holds when it enters its one point (its ghost state, the credit it is owed, the
   levels, and its two receive buffers whole at any contents) and what it hands back after it (the receive buffers and its
   sixty-four own cells at zero); that it may wait on its two staging cells whatever it owes; the run of all thirty-two
   devices from any memory with every counter at zero, given the body's obligation at every device; and what the two
   arrays hold afterwards: the argument array what it held, the result array what the body left in the output buffer. -/
import proofs.«900724_g7700000000000725_dist_ar_v7x_xyz2x4x4_x_m512_n512_f32_1_alg».proof.Proof.Bits.Launch1
import proofs.«900724_g7700000000000725_dist_ar_v7x_xyz2x4x4_x_m512_n512_f32_1_alg».proof.Proof.Bits.Levels
import proofs.«900724_g7700000000000725_dist_ar_v7x_xyz2x4x4_x_m512_n512_f32_1_alg».proof.Proof.Gen.Kernel.Points

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The theorem's side conditions -/

/-- What a device starts the region with: its ghost state from the global step, the credit the launch hands it, the levels. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

/-- The scoped buffers that are no staging buffer are the two receive buffers, whole, at any contents. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ rxAny ryAny
  iintro ⟨Hs, -, Hx, Hy⟩
  isplitl [Hs]; · iexact Hs
  isplitl [Hx]; · iexact Hx
  iexact Hy

/-- After the point the receive buffers and the sixty-four own cells, at zero, go back. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ rxAny ryAny
  iintro ⟨Hx, Hy, Hz⟩
  isplitr; · iempintro
  isplitl [Hz]; · iexact Hz
  isplitl [Hx]; · iexact Hx
  iexact Hy

/-- The two staging cells are DMA semaphores 0 and 1, below everything a device owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m 0 c).share w = fullShare := by unfold Dat.share; split <;> rfl

/-! ## The run -/

set_option maxRecDepth 100000 in
/-- On the mesh of thirty-two devices, for any float values, from any memory with every counter at zero, if the body meets
    its obligation at every device: every weakly fair execution of @main terminates, and every final state has each
    device's two arrays at what the proof data say they hold after the one point. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The arrays after the run -/

/-- The argument array is an input: nothing writes it. -/
theorem final_x (c : Dev nD) : (dats m 0 c).arrAt (0 : Fin 2) cfg0.N = m ((c : Thread nD τ).loc main_arg0) :=
  (dats (F := F) m 0 c).arrAt_in (0 : Fin 2) rfl _

/-- Writing a whole block back over the whole array leaves the block as the array. -/
theorem write_back (c : Dev nD) (f : Buf (Elt F) ((cfg0.win (1 : Fin 2)).arr.view.loc (c : Thread nD τ))) (w : (cc0_stg1_0 : Ref sig .tc).ty.Contents (Elt F)) :
    ((cfg0.win (1 : Fin 2)).blk t0_0).view.write (Elt F) f ((cfg0.win (1 : Fin 2)).cut (cfg0.grid.coords t0_0) w) Finset.univ = w := by
  have hz : (fun a => (win0_1.index t0_0) a * main_v1.ty.shape.size a) = fun _ => 0 := funext fun a => Nat.zero_mul _
  exact Memref.write_access_unit_zero_univ (Elt F) main_v1 hz (fun a => by fin_cases a <;> decide) f w

section
-- the result's closed form stays folded: only its name is read here
attribute [local irreducible] outAt

/-- The result array is written back once, whole, at the one point: it holds what the body left in the output buffer. -/
theorem final_out (c : Dev nD) : (dats m 0 c).arrAt (1 : Fin 2) cfg0.N = outAt m c := by
  rw [show cfg0.N = (t0_0 : Fin cfg0.N).val + 1 from rfl, (dats m 0 c).arrAt_succ (1 : Fin 2) t0_0, flush0_1 t0_0, if_pos rfl]
  exact write_back c _ (outAt m c)

end

/-- info: 'Cert.Kernel.P.run_main' depends on axioms: [propext, Classical.choice, Quot.sound] -/
#guard_msgs in #print axioms run_main

/-- info: 'Cert.Kernel.P.final_x' depends on axioms: [propext, Classical.choice, Quot.sound] -/
#guard_msgs in #print axioms final_x

/-- info: 'Cert.Kernel.P.final_out' depends on axioms: [propext, Classical.choice, Quot.sound] -/
#guard_msgs in #print axioms final_out

end Cert.Kernel.P

end
-- ==== Proof.Bits.States.lean ====
/- A device's holdings along its body: chunk by chunk what each of the four rounds needs and what it leaves. -/
import proofs.«900724_g7700000000000725_dist_ar_v7x_xyz2x4x4_x_m512_n512_f32_1_alg».proof.Proof.Bits.Cells

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## Sixteen chunks, some done -/

/-- The chunks below `n` hold `Ψ` (done), the others `Φ` (to do). -/
def chunks (Φ Ψ : Fin 16 → sProp 𝕄) (n : ℕ) : sProp 𝕄 :=
  iprop(bigSep (Finset.univ.filter fun j : Fin 16 => j.val < n) Ψ ∗ bigSep (Finset.univ.filter fun j : Fin 16 => n ≤ j.val) Φ)

theorem chunks_zero (Φ Ψ : Fin 16 → sProp 𝕄) : bigSep Finset.univ Φ ⊢ chunks Φ Ψ 0 := by
  have h1 : (Finset.univ.filter fun j : Fin 16 => j.val < 0) = ∅ := by ext j; simp
  have h2 : (Finset.univ.filter fun j : Fin 16 => 0 ≤ j.val) = Finset.univ := by ext j; simp
  unfold chunks; rw [h1, h2, BI.bigSep_empty]
  iintro H; isplitr; · iempintro
  iexact H

theorem chunks_end (Φ Ψ : Fin 16 → sProp 𝕄) : chunks Φ Ψ 16 ⊢ bigSep Finset.univ Ψ := by
  have h1 : (Finset.univ.filter fun j : Fin 16 => j.val < 16) = Finset.univ := by ext j; simp [j.isLt]
  have h2 : (Finset.univ.filter fun j : Fin 16 => 16 ≤ j.val) = ∅ := by ext j; simp
  unfold chunks; rw [h1, h2, BI.bigSep_empty]
  iintro ⟨H, -⟩; iexact H

/-- Taking the next chunk out, to put it back done. -/
theorem chunks_step (Φ Ψ : Fin 16 → sProp 𝕄) (n : ℕ) (hn : n < 16) :
    chunks Φ Ψ n ⊢ iprop(Φ ⟨n, hn⟩ ∗ (Ψ ⟨n, hn⟩ -∗ chunks Φ Ψ (n + 1))) := by
  have h1 : (Finset.univ.filter fun j : Fin 16 => n ≤ j.val) = insert ⟨n, hn⟩ (Finset.univ.filter fun j : Fin 16 => n + 1 ≤ j.val) := by
    ext j; simp only [Finset.mem_filter, Finset.mem_univ, true_and, Finset.mem_insert, Fin.ext_iff]; omega
  have h2 : (Finset.univ.filter fun j : Fin 16 => j.val < n + 1) = insert ⟨n, hn⟩ (Finset.univ.filter fun j : Fin 16 => j.val < n) := by
    ext j; simp only [Finset.mem_filter, Finset.mem_univ, true_and, Finset.mem_insert, Fin.ext_iff]; omega
  have n1 : (⟨n, hn⟩ : Fin 16) ∉ Finset.univ.filter fun j : Fin 16 => n + 1 ≤ j.val := by simp
  have n2 : (⟨n, hn⟩ : Fin 16) ∉ Finset.univ.filter fun j : Fin 16 => j.val < n := by simp
  have e1 : bigSep (insert (⟨n, hn⟩ : Fin 16) (Finset.univ.filter fun j : Fin 16 => n + 1 ≤ j.val)) Φ
      = iprop(Φ ⟨n, hn⟩ ∗ bigSep (Finset.univ.filter fun j : Fin 16 => n + 1 ≤ j.val) Φ) := by rw [BI.bigSep_insert n1]; rfl
  have e2 : bigSep (insert (⟨n, hn⟩ : Fin 16) (Finset.univ.filter fun j : Fin 16 => j.val < n)) Ψ
      = iprop(Ψ ⟨n, hn⟩ ∗ bigSep (Finset.univ.filter fun j : Fin 16 => j.val < n) Ψ) := by rw [BI.bigSep_insert n2]; rfl
  unfold chunks
  rw [h1, h2, e1, e2]
  iintro ⟨Hd, Hc, Hr⟩
  isplitl [Hc]; · iexact Hc
  iintro Hn
  isplitl [Hd Hn]
  · isplitl [Hn]; · iexact Hn
    iexact Hd
  · iexact Hr

/-! ## What the rounds need and leave, per chunk -/

/-- The standing facts: every cell's invariant and reached mark, and the levels. -/
def ctx : sProp 𝕄 := iprop(records m K ∗ levAts L lv)
instance ctx_persistent : BI.Persistent (ctx m K) := by unfold ctx; infer_instance

abbrev xLoc : Loc nD τ sig := (xM : Memref sig .tc .vmem S512x512 .f32).view.loc (c : Thread nD τ)

/-- For chunk `i`'s transfer along the first axis: a read share of the input buffer, the partner's slot, the two duties' tokens. -/
def needX (i : Fin 16) : sProp 𝕄 :=
  iprop((xLoc c ↦[Finset.univ]{qTok i} xstg m c)
    ∗ (∃ f, (rxSlot i : Memref sig .tc .vmem S16x512 .f32).view.loc ((xp c : Dev nD) : Thread nD τ) ↦[(rxSlot i : Memref sig .tc .vmem S16x512 .f32).view.set]{fullShare} f)
    ∗ dutyTok ER (dCell 0 i c) 0 false ∗ dutyTok ER (dCell 1 i (xp c)) 0 false)
/-- It leaves the share off the chunk's rows and the send cell's credit. -/
def gotX (i : Fin 16) : sProp 𝕄 :=
  iprop((xLoc c ↦[Finset.univ \ (xRow c i : Memref sig .tc .vmem S16x512 .f32).view.set]{qTok i} xstg m c) ∗ cred (tallyAt (dCell 0 i c) () N))

/-- For the first round of sums on chunk `i`: the receive cell's position and credit, the second partner's slot, the forward's tokens. -/
def needY (i : Fin 16) : sProp 𝕄 :=
  iprop(atPos ER (dCell 1 i c) 0 ∅ 0 ∗ cred (tallyAt (dCell 1 i c) () N)
    ∗ (∃ f, (rySlot i : Memref sig .tc .vmem S16x512 .f32).view.loc ((yp c : Dev nD) : Thread nD τ) ↦[(rySlot i : Memref sig .tc .vmem S16x512 .f32).view.set]{fullShare} f)
    ∗ dutyTok ER (dCell 2 i c) 0 false ∗ dutyTok ER (dCell 3 i (yp c)) 0 false)
/-- It leaves half of slot `i` at the partner's rows, the forward's send credit, the receive cell past its round. -/
def gotY (i : Fin 16) : sProp 𝕄 :=
  iprop(((rxSlot i : Memref sig .tc .vmem S16x512 .f32).view.loc (c : Thread nD τ) ↦[(rxSlot i : Memref sig .tc .vmem S16x512 .f32).view.set]{fullShare.left} rxLanded m c i)
    ∗ cred (tallyAt (dCell 2 i c) () N) ∗ atPos ER (dCell 1 i c) 1 ∅ 0)

def needZ (i : Fin 16) : sProp 𝕄 := iprop(atPos ER (dCell 3 i c) 0 ∅ 0 ∗ cred (tallyAt (dCell 3 i c) () N))
def gotZ (i : Fin 16) : sProp 𝕄 :=
  iprop(((rySlot i : Memref sig .tc .vmem S16x512 .f32).view.loc (c : Thread nD τ) ↦[(rySlot i : Memref sig .tc .vmem S16x512 .f32).view.set]{fullShare} ryLanded m c i)
    ∗ atPos ER (dCell 3 i c) 1 ∅ 0)

def needW (i : Fin 16) : sProp 𝕄 := iprop(atPos ER (dCell 0 i c) 0 ∅ 0 ∗ atPos ER (dCell 2 i c) 0 ∅ 0)
/-- After both send waits: the read share whole again, slot `i` whole again, both send cells past their round. -/
def gotW (i : Fin 16) : sProp 𝕄 :=
  iprop((xLoc c ↦[Finset.univ]{qTok i} xstg m c)
    ∗ ((rxSlot i : Memref sig .tc .vmem S16x512 .f32).view.loc (c : Thread nD τ) ↦[(rxSlot i : Memref sig .tc .vmem S16x512 .f32).view.set]{fullShare} rxLanded m c i)
    ∗ atPos ER (dCell 0 i c) 1 ∅ 0 ∗ atPos ER (dCell 2 i c) 1 ∅ 0)

/-- The share of the input buffer the loads read through. -/
def xKeep : sProp 𝕄 := xLoc c ↦[Finset.univ]{qKeep} xstg m c
/-- The output buffer, whole. -/
def outPts (f : (cc0_stg1_0 : Ref sig .tc).ty.Contents (Elt F)) : sProp 𝕄 :=
  (oM : Memref sig .tc .vmem S512x512 .f32).view.loc (c : Thread nD τ) ↦[Finset.univ]{fullShare} f
/-- What the device owes, at whatever waits it has recorded. -/
def owing (O : CellTallies nD τ sig Unit) : sProp 𝕄 := iprop(∃ W : Waits sig Unit, owes (c : Thread nD τ) O W)

end Cert.Kernel.P

end
-- ==== Proof.Bits.Geometry.lean ====
/- Where the chunks lie: the slots of a receive buffer partition it, the row chunks of the two rounds cover the output. -/
import proofs.«900724_g7700000000000725_dist_ar_v7x_xyz2x4x4_x_m512_n512_f32_1_alg».proof.Proof.Bits.Cells
import Idealize.ShloMosaic.Lib.Pipeline.Value

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a view's elements held before a transfer overwrote them all does not matter. -/
theorem landed_congr {sp : Space} {s : Shape} {e : EltTy} (t : Thread nD τ) (v : View sig t.2.kind sp s e) (q : PosShare TreeShare)
    (fd fd' : v.ty.Contents (Elt F)) (w : s.Idx → Elt F e) :
    (v.loc t ↦[v.set]{q} v.write (Elt F) fd w Finset.univ : sProp 𝕄) = (v.loc t ↦[v.set]{q} v.write (Elt F) fd' w Finset.univ) :=
  pointsTo_congr fun i hi => View.write_congr (fun _ _ _ => rfl) fun h => absurd hi h

/-! ## The sixteen slots of a receive buffer

Slot `i` is the indices whose first coordinate is `i`: different slots share no index, and every index lies in the slot
its first coordinate names. -/

theorem rxSlot_set (i : Fin 16) : (rxSlot i : Memref sig .tc .vmem S16x512 .f32).view.set = (slotRect i).set :=
  (View.set_reshape _ _).trans (View.set_slice_whole _ _)
theorem rySlot_set (i : Fin 16) : (rySlot i : Memref sig .tc .vmem S16x512 .f32).view.set = (slotRect i).set :=
  (View.set_reshape _ _).trans (View.set_slice_whole _ _)

theorem slot_disjoint {i j : Fin 16} (h : i ≠ j) : Disjoint (slotRect i).set (slotRect j).set :=
  Rect.unit_disjoint 0 (by show i.val + 1 ≤ j.val ∨ j.val + 1 ≤ i.val; have := Fin.val_ne_of_ne h; omega)

/-- Every index lies in the slot its first coordinate names. -/
theorem slot_mem (x : S16x16x512.Idx) : x ∈ (slotRect ⟨(x 0).val, (x 0).isLt⟩).set := by
  have h1 : (x 1).val < 16 := (x 1).isLt
  have h2 : (x 2).val < 512 := (x 2).isLt
  refine Rect.mem_set_unit.mpr (Fin.forall_fin_succ.mpr ⟨?_, Fin.forall_fin_succ.mpr ⟨?_, Fin.forall_fin_succ.mpr ⟨?_, fun a => a.elim0⟩⟩⟩)
  · show (x 0).val ≤ (x 0).val ∧ (x 0).val < (x 0).val + 1; omega
  · show 0 ≤ (x 1).val ∧ (x 1).val < 0 + 16; omega
  · show 0 ≤ (x 2).val ∧ (x 2).val < 0 + 512; omega

/-- A buffer held whole is held set by set along sixteen sets that share no index and together are everything, -/
theorem split16 {ℓ : Loc nD τ sig} (K : Fin 16 → Finset (Idx ℓ)) (hd : ∀ i j, i ≠ j → Disjoint (K i) (K j))
    (hx : ∀ x, ∃ i, x ∈ K i) :
    (iprop(∃ f : Buf (Elt F) ℓ, ℓ ↦{fullShare} f) : sProp 𝕄) ⊢ bigSep Finset.univ fun i : Fin 16 => iprop(∃ f, ℓ ↦[K i]{fullShare} f) := by
  have hc : Finset.univ.biUnion K = Finset.univ :=
    Finset.eq_univ_iff_forall.mpr fun x => Finset.mem_biUnion.mpr ((hx x).imp fun i h => ⟨Finset.mem_univ i, h⟩)
  refine exists_elim fun f => ?_
  have e : (ℓ ↦{fullShare} f : sProp 𝕄) = bigSep Finset.univ fun i : Fin 16 => ℓ ↦[K i]{fullShare} f := by
    rw [← pointsTo_biUnion Finset.univ K fun i _ j _ h => hd i j h, hc]
  rw [e]
  exact bigSep_mono fun i _ => exists_intro (Φ := fun f => (ℓ ↦[K i]{fullShare} f : sProp 𝕄)) f
/-- and back: the sixteen contents are pieced together. -/
theorem join16 {ℓ : Loc nD τ sig} (K : Fin 16 → Finset (Idx ℓ)) (hd : ∀ i j, i ≠ j → Disjoint (K i) (K j))
    (hx : ∀ x, ∃ i, x ∈ K i) :
    (bigSep Finset.univ fun i : Fin 16 => iprop(∃ f, ℓ ↦[K i]{fullShare} f) : sProp 𝕄) ⊢ iprop(∃ f : Buf (Elt F) ℓ, ℓ ↦{fullShare} f) := by
  have hc : Finset.univ.biUnion K = Finset.univ :=
    Finset.eq_univ_iff_forall.mpr fun x => Finset.mem_biUnion.mpr ((hx x).imp fun i h => ⟨Finset.mem_univ i, h⟩)
  haveI : Nonempty (Buf (Elt F) ℓ) := ⟨anyBuf⟩
  refine (bigSep_exists_pi Finset.univ fun (i : Fin 16) (f : Buf (Elt F) ℓ) => (ℓ ↦[K i]{fullShare} f : sProp 𝕄)).trans ?_
  refine exists_elim fun fs => ?_
  have h : (bigSep Finset.univ (fun i : Fin 16 => ℓ ↦[K i]{fullShare} fs i) : sProp 𝕄) ⊢ _ :=
    pointsTo_biUnion_join Finset.univ K fs anyBuf fun i _ j _ h => hd i j h
  rw [hc] at h
  refine h.trans (exists_elim fun g => ?_)
  iintro ⟨-, H⟩
  iexists g
  iexact H

/-- A receive buffer held whole is its sixteen slots held one by one, and back. -/
theorem rx_split (c : Dev nD) : rxAny (F := F) c ⊢
    (bigSep Finset.univ fun i : Fin 16 => iprop(∃ f, (rxSlot i : Memref sig .tc .vmem S16x512 .f32).view.loc (c : Thread nD τ) ↦[(rxSlot i : Memref sig .tc .vmem S16x512 .f32).view.set]{fullShare} f) : sProp 𝕄) :=
  split16 (ℓ := (c : Thread nD τ).loc cc0_scratch0) (fun i => (rxSlot i : Memref sig .tc .vmem S16x512 .f32).view.set)
    (fun i j h => by rw [rxSlot_set, rxSlot_set]; exact slot_disjoint h) (fun x => ⟨⟨(x 0).val, (x 0).isLt⟩, by rw [rxSlot_set]; exact slot_mem x⟩)
theorem rx_join (c : Dev nD) :
    (bigSep Finset.univ fun i : Fin 16 => iprop(∃ f, (rxSlot i : Memref sig .tc .vmem S16x512 .f32).view.loc (c : Thread nD τ) ↦[(rxSlot i : Memref sig .tc .vmem S16x512 .f32).view.set]{fullShare} f) : sProp 𝕄)
      ⊢ rxAny (F := F) c :=
  join16 (ℓ := (c : Thread nD τ).loc cc0_scratch0) (fun i => (rxSlot i : Memref sig .tc .vmem S16x512 .f32).view.set)
    (fun i j h => by rw [rxSlot_set, rxSlot_set]; exact slot_disjoint h) (fun x => ⟨⟨(x 0).val, (x 0).isLt⟩, by rw [rxSlot_set]; exact slot_mem x⟩)
theorem ry_split (c : Dev nD) : ryAny (F := F) c ⊢
    (bigSep Finset.univ fun i : Fin 16 => iprop(∃ f, (rySlot i : Memref sig .tc .vmem S16x512 .f32).view.loc (c : Thread nD τ) ↦[(rySlot i : Memref sig .tc .vmem S16x512 .f32).view.set]{fullShare} f) : sProp 𝕄) :=
  split16 (ℓ := (c : Thread nD τ).loc cc0_scratch1) (fun i => (rySlot i : Memref sig .tc .vmem S16x512 .f32).view.set)
    (fun i j h => by rw [rySlot_set, rySlot_set]; exact slot_disjoint h) (fun x => ⟨⟨(x 0).val, (x 0).isLt⟩, by rw [rySlot_set]; exact slot_mem x⟩)
theorem ry_join (c : Dev nD) :
    (bigSep Finset.univ fun i : Fin 16 => iprop(∃ f, (rySlot i : Memref sig .tc .vmem S16x512 .f32).view.loc (c : Thread nD τ) ↦[(rySlot i : Memref sig .tc .vmem S16x512 .f32).view.set]{fullShare} f) : sProp 𝕄)
      ⊢ ryAny (F := F) c :=
  join16 (ℓ := (c : Thread nD τ).loc cc0_scratch1) (fun i => (rySlot i : Memref sig .tc .vmem S16x512 .f32).view.set)
    (fun i j h => by rw [rySlot_set, rySlot_set]; exact slot_disjoint h) (fun x => ⟨⟨(x 0).val, (x 0).isLt⟩, by rw [rySlot_set]; exact slot_mem x⟩)

/-! ## The thirty-two stores cover the output

Two runs of the stores from different contents agree at an index as soon as one store has gone through it: a store
writes its payload on its own elements whatever was there, and keeps elsewhere whatever agreement there was. The first
round's rectangles are the rows `256 * hh c + 16 * j`, …, the second's the rows `256 * (1 - hh c) + 16 * j`, …, sixteen
rows each for `j < 16`: an index of row `r` lies in chunk `r % 256 / 16` of the round whose half `r / 256` names. -/

theorem out2_succ (c : Dev nD) (f0 : (cc0_stg1_0 : Ref sig .tc).ty.Contents (Elt F)) (n : ℕ) (h : n < 16) :
    out2 m c f0 (n + 1) = ((oM : Memref sig .tc .vmem S512x512 .f32).access (rowRect2 c ⟨n, h⟩)).write (Elt F) (out2 m c f0 n) (sum2 m c ⟨n, h⟩) Finset.univ := by
  rw [out2, dif_pos h]
theorem out3_succ (c : Dev nD) (f0 : (cc0_stg1_0 : Ref sig .tc).ty.Contents (Elt F)) (n : ℕ) (h : n < 16) :
    out3 m c f0 (n + 1) = ((oM : Memref sig .tc .vmem S512x512 .f32).access (rowRect3 c ⟨n, h⟩)).write (Elt F) (out3 m c f0 n) (sum3 m c ⟨n, h⟩) Finset.univ := by
  rw [out3, dif_pos h]

/-- After a store through the rectangle `r`, two contents agree at `i` if `i` is in `r` or they agreed there before. -/
theorem store_agree (r : Rect S512x512) (f g : (cc0_stg1_0 : Ref sig .tc).ty.Contents (Elt F)) (w : r.shape.Idx → Elt F .f32)
    (i : (cc0_stg1_0 : Ref sig .tc).ty.Idx) (h : i ∈ r.set ∨ f i = g i) :
    ((oM : Memref sig .tc .vmem S512x512 .f32).access r).write (Elt F) f w Finset.univ i
      = ((oM : Memref sig .tc .vmem S512x512 .f32).access r).write (Elt F) g w Finset.univ i :=
  View.write_congr (fun _ _ _ => rfl) fun hn => h.resolve_left fun hi => hn (by rw [View.setOn_univ, View.set_slice_whole]; exact hi)

theorem out2_agree (c : Dev nD) (f0 f0' : (cc0_stg1_0 : Ref sig .tc).ty.Contents (Elt F)) (i : (cc0_stg1_0 : Ref sig .tc).ty.Idx) :
    ∀ n, n ≤ 16 → (∃ j : Fin 16, j.val < n ∧ i ∈ (rowRect2 c j).set) → out2 m c f0 n i = out2 m c f0' n i
  | 0, _, ⟨_, hj, _⟩ => absurd hj (Nat.not_lt_zero _)
  | n + 1, hn, ⟨j, hj, hi⟩ => by
    have h : n < 16 := hn
    rw [out2_succ m c f0 n h, out2_succ m c f0' n h]
    refine store_agree _ _ _ _ i ?_
    by_cases e : j = ⟨n, h⟩
    · exact Or.inl (e ▸ hi)
    · exact Or.inr (out2_agree c f0 f0' i n (Nat.le_of_lt h) ⟨j, by have := Fin.val_ne_of_ne e; simp only at this; omega, hi⟩)

theorem out3_agree (c : Dev nD) (f0 f0' : (cc0_stg1_0 : Ref sig .tc).ty.Contents (Elt F)) (i : (cc0_stg1_0 : Ref sig .tc).ty.Idx) :
    ∀ n, n ≤ 16 → ((∃ j : Fin 16, i ∈ (rowRect2 c j).set) ∨ ∃ j : Fin 16, j.val < n ∧ i ∈ (rowRect3 c j).set) →
      out3 m c f0 n i = out3 m c f0' n i
  | 0, _, hc => by
    rw [out3, out3]
    rcases hc with ⟨j, hi⟩ | ⟨_, hj, _⟩
    · exact out2_agree m c f0 f0' i 16 (Nat.le_refl _) ⟨j, j.isLt, hi⟩
    · exact absurd hj (Nat.not_lt_zero _)
  | n + 1, hn, hc => by
    have h : n < 16 := hn
    rw [out3_succ m c f0 n h, out3_succ m c f0' n h]
    refine store_agree _ _ _ _ i ?_
    rcases hc with h2 | ⟨j, hj, hi⟩
    · exact Or.inr (out3_agree c f0 f0' i n (Nat.le_of_lt h) (Or.inl h2))
    · by_cases e : j = ⟨n, h⟩
      · exact Or.inl (e ▸ hi)
      · exact Or.inr (out3_agree c f0 f0' i n (Nat.le_of_lt h) (Or.inr ⟨j, by have := Fin.val_ne_of_ne e; simp only at this; omega, hi⟩))

/-- Every index of the output lies in a rectangle of the first round or of the second. -/
theorem rows_cover (c : Dev nD) (i : (cc0_stg1_0 : Ref sig .tc).ty.Idx) :
    (∃ j : Fin 16, i ∈ (rowRect2 c j).set) ∨ ∃ j : Fin 16, i ∈ (rowRect3 c j).set := by
  have h0 : (i 0).val < 512 := (i 0).isLt
  have h1 : (i 1).val < 512 := (i 1).isLt
  have hc := hh_le c
  have hj : (i 0).val % 256 / 16 < 16 := by omega
  by_cases e : (i 0).val / 256 = hh c
  · refine Or.inl ⟨⟨(i 0).val % 256 / 16, hj⟩, ?_⟩
    rw [Rect.mem_set_unit, off2_eq]
    refine Fin.forall_fin_two.mpr ⟨?_, ?_⟩
    · show 256 * hh c + 16 * ((i 0).val % 256 / 16) ≤ (i 0).val ∧ (i 0).val < 256 * hh c + 16 * ((i 0).val % 256 / 16) + 16
      omega
    · show 0 ≤ (i 1).val ∧ (i 1).val < 0 + 512
      omega
  · refine Or.inr ⟨⟨(i 0).val % 256 / 16, hj⟩, ?_⟩
    rw [Rect.mem_set_unit, off3_eq]
    refine Fin.forall_fin_two.mpr ⟨?_, ?_⟩
    · show 256 * (1 - hh c) + 16 * ((i 0).val % 256 / 16) ≤ (i 0).val ∧ (i 0).val < 256 * (1 - hh c) + 16 * ((i 0).val % 256 / 16) + 16
      omega
    · show 0 ≤ (i 1).val ∧ (i 1).val < 0 + 512
      omega

/-- The thirty-two stores overwrite every row of the output: what it held before does not matter. -/
theorem out_indep (c : Dev nD) (f0 : (cc0_stg1_0 : Ref sig .tc).ty.Contents (Elt F)) : out3 m c f0 16 = outAt m c :=
  funext fun i => out3_agree m c f0 anyBuf i 16 (Nat.le_refl _) ((rows_cover c i).imp id fun ⟨j, hj⟩ => ⟨j, j.isLt, hj⟩)

/-- info: 'Cert.Kernel.P.landed_congr' depends on axioms: [propext, Classical.choice, Quot.sound] -/
#guard_msgs in #print axioms landed_congr
/-- info: 'Cert.Kernel.P.rx_split' depends on axioms: [propext, Classical.choice, Quot.sound] -/
#guard_msgs in #print axioms rx_split
/-- info: 'Cert.Kernel.P.rx_join' depends on axioms: [propext, Classical.choice, Quot.sound] -/
#guard_msgs in #print axioms rx_join
/-- info: 'Cert.Kernel.P.ry_split' depends on axioms: [propext, Classical.choice, Quot.sound] -/
#guard_msgs in #print axioms ry_split
/-- info: 'Cert.Kernel.P.ry_join' depends on axioms: [propext, Classical.choice, Quot.sound] -/
#guard_msgs in #print axioms ry_join
/-- info: 'Cert.Kernel.P.out_indep' depends on axioms: [propext, Classical.choice, Quot.sound] -/
#guard_msgs in #print axioms out_indep

end Cert.Kernel.P

end
-- ==== Proof.Bits.Steps.lean ====
/- One rule per effect of a device's body, from what it holds to what it then holds. -/
import proofs.«900724_g7700000000000725_dist_ar_v7x_xyz2x4x4_x_m512_n512_f32_1_alg».proof.Proof.Bits.Cells
import proofs.«900724_g7700000000000725_dist_ar_v7x_xyz2x4x4_x_m512_n512_f32_1_alg».proof.Proof.Bits.States
import proofs.«900724_g7700000000000725_dist_ar_v7x_xyz2x4x4_x_m512_n512_f32_1_alg».proof.Proof.Bits.Levels
import proofs.«900724_g7700000000000725_dist_ar_v7x_xyz2x4x4_x_m512_n512_f32_1_alg».proof.Proof.Bits.Geometry

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## The entry handshake -/

/-- The first signal, to the first-axis partner's barrier: its duty `true`, paid with this device's first receive buffer. -/
theorem step_sig1 {α : Type} {Q : α → sProp 𝕄} {k : PUnit → Prog (TpuEff nD τ sig (Elt F) Λ₀ .tc) α} (n : Dev nD) (hn : n = xp c) (W : Waits sig Unit) :
    iprop(ctx m K ∗ owes (c : Thread nD τ) (O₀ c) W ∗ dutyTok ER (barCell (xp c)) 0 true ∗ rxAny c)
      ⊢ iprop((owes (c : Thread nD τ) (O₁ c) W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS (1#32).toNat) k) Q) := by
  subst hn
  unfold ctx
  iintro ⟨⟨#HR, #Hlev⟩, HO, Htok, Hrx⟩ Hk
  iapply (Rounds.wp_signal 𝒱₀ ER (Rd m) (c : Thread nD τ) none (dst := ((xp c : Dev nD) : Thread nD τ)) (κ := K (xp c, none))
      (d := true) (by rw [duties_bar]; exact Finset.mem_univ _) ((amount_bar m (xp c) true).trans (by decide)) () (O₁ c) rfl) $$ [HO Htok Hrx]
  · isplitr; · iapply (inv_at m K (xp c, none)); iexact HR
    isplitl [HO]; · iexact HO
    isplitl [Htok]; · iexact Htok
    isplitl [Hrx]
    · rw [payload_bar_true]; unfold barPayX; rw [xp_xp]; iapply (rx_split c); iexact Hrx
    · iapply (reached_at m K (xp c, none)); iexact HR
  iexact Hk

/-- The second signal, to the second-axis partner's barrier: its duty `false`, paid with the second receive buffer. -/
theorem step_sig2 {α : Type} {Q : α → sProp 𝕄} {k : PUnit → Prog (TpuEff nD τ sig (Elt F) Λ₀ .tc) α} (n : Dev nD) (hn : n = yp c) (W : Waits sig Unit) :
    iprop(ctx m K ∗ owes (c : Thread nD τ) (O₁ c) W ∗ dutyTok ER (barCell (yp c)) 0 false ∗ ryAny c)
      ⊢ iprop((owes (c : Thread nD τ) (Oy c 0 + Ox c 0) W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS (1#32).toNat) k) Q) := by
  subst hn
  unfold ctx
  iintro ⟨⟨#HR, #Hlev⟩, HO, Htok, Hry⟩ Hk
  iapply (Rounds.wp_signal 𝒱₀ ER (Rd m) (c : Thread nD τ) none (dst := ((yp c : Dev nD) : Thread nD τ)) (κ := K (yp c, none))
      (d := false) (by rw [duties_bar]; exact Finset.mem_univ _) ((amount_bar m (yp c) false).trans (by decide)) () (Oy c 0 + Ox c 0) rfl) $$ [HO Htok Hry]
  · isplitr; · iapply (inv_at m K (yp c, none)); iexact HR
    isplitl [HO]; · iexact HO
    isplitl [Htok]; · iexact Htok
    isplitl [Hry]
    · rw [payload_bar_false]; unfold barPayY; rw [yp_yp]; iapply (ry_split c); iexact Hry
    · iapply (reached_at m K (yp c, none)); iexact HR
  iexact Hk

/-- The wait for both partners' signals: both partners' receive buffers come with them. -/
theorem step_barwait {α : Type} {Q : α → sProp 𝕄} {k : PUnit → Prog (TpuEff nD τ sig (Elt F) Λ₀ .tc) α} (W : Waits sig Unit) :
    iprop(ctx m K ∗ owes (c : Thread nD τ) (Oy c 0 + Ox c 0) W ∗ cred (tallyAt (barCell c) () 2) ∗ atPos ER (barCell c) 0 ∅ 0)
      ⊢ iprop((owing c (Oy c 0 + Ox c 0) ∗ barPayY c ∗ barPayX c -∗ wp frame (wpE (defs₀ (F := F)) 𝒱₀ c none) Set.univ (k ⟨⟩) Q)
          -∗ wp frame (wpE (defs₀ (F := F)) 𝒱₀ c none) Set.univ (.op (.semWait barS (2#32).toNat) k) Q) := by
  unfold ctx
  iintro ⟨⟨#HR, #Hlev⟩, HO, Hc, Hat⟩ Hk
  iapply (Rounds.wp_wait_rest_token 𝒱₀ ER (Rd m) (c : Thread nD τ) none (κ := K (c, none))
      (wpE_semWait_eq 𝒱₀ (c : Thread nD τ) none Set.univ) (Set.mem_univ _) () (O := Oy c 0 + Ox c 0) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · unfold owing; iexists _; iexact HO
  iexact Hp

/-! ## The transfers along the first axis -/

/-- Chunk `i`'s rows to the first-axis partner's slot `i`, on a read share of the input buffer. -/
theorem step_xsend {α : Type} {Q : α → sProp 𝕄} (i : Fin 16) {k : PUnit → Prog (TpuEff nD τ sig (Elt F) Λ₀ .tc) α} (n : Dev nD) (hn : n = xp c)
    {sS sR : DmaSem sig} (hS : sS = dS 0 i) (hR : sR = dS 1 i)
    {hsc : (rxSlot i : Memref sig (Dev.tc n : Thread nD τ).2.kind .vmem S16x512 .f32).view.ref.isScScratch = false}
    {hsrc : (xRow c i : Memref sig .tc .vmem S16x512 .f32).view.WordExact} {hdst : (rxSlot i : Memref sig .tc .vmem S16x512 .f32).view.WordExact}
    {hsem : DmaTarget.Typed .vmem (.dma sR) (.remote (Dev.tc n : Thread nD τ) (rxSlot i : Memref sig .tc .vmem S16x512 .f32) (.dma sS) hsc)} :
    iprop(ctx m K ∗ owing c (Oy c 0 + Ox c i.val) ∗ needX m c i)
      ⊢ iprop((owing c (Oy c 0 + Ox c (i.val + 1)) ∗ gotX m c i -∗ wp frame (wpE (defs₀ (F := F)) 𝒱₀ c none) Set.univ (k ⟨⟩) Q)
          -∗ wp frame (wpE (defs₀ (F := F)) 𝒱₀ c none) Set.univ
              (.op (.enqueueDma (xRow c i) (.remote (Dev.tc n : Thread nD τ) (rxSlot i) (.dma sS) hsc) (.dma sR) hsrc hdst hsem) k) Q) := by
  subst hn hS hR
  unfold ctx owing needX
  iintro ⟨⟨#HR, #Hlev⟩, ⟨%W, HO⟩, Hx, ⟨%f, Hslot⟩, HtS, HtR⟩ Hk
  ihave Hx2 := (pointsTo_split_subset (Finset.subset_univ ((xRow c i : Memref sig .tc .vmem S16x512 .f32).view.set))).1 $$ Hx
  icases Hx2 with ⟨Hrows, Hrest⟩
  iapply (Rounds.wp_send_pointsTo 𝒱₀ ER (Rd m) (c : Thread nD τ) none (κ₁ := K (c, some (0, i))) (κ₂ := K (xp c, some (1, i)))
      (r₁ := 0) (r₂ := 0) (d₁ := false) (d₂ := false) (fd := f) (O₀ := Oy c 0 + Ox c i.val)
      (by rw [duties_d]; exact Finset.mem_singleton_self _) (by rw [duties_d]; exact Finset.mem_singleton_self _)
      () () N rfl (amount_d m c 0 i false) (amount_d m (xp c) 1 i false) (Oy c 0 + Ox c (i.val + 1))
      (by rw [Ox_succ c i.val i.isLt, add_assoc]) (W := W)
      (by rw [payload_d0]; exact BI.Entails.refl _)
      (by rw [payload_d1]; unfold pay1 rxLanded; rw [xp_xp]; exact Entails.of_eq (landed_congr _ _ _ _ _ _))) $$ [HO Hrows Hslot HtS HtR]
  · isplitr; · iapply (inv_at m K (c, some (0, i))); iexact HR
    isplitr; · iapply (inv_at m K (xp c, some (1, i))); iexact HR
    isplitl [Hrows]; · iexact Hrows
    isplitl [Hslot]; · iexact Hslot
    isplitl [HO]; · iexact HO
    isplitl [HtS]; · iexact HtS
    isplitr; · iapply (reached_at m K (c, some (0, i))); iexact HR
    isplitl [HtR]; · iexact HtR
    iapply (reached_at m K (xp c, some (1, i))); iexact HR
  iintro ⟨Hcr, HO⟩
  iapply Hk
  isplitl [HO]; · iexists W; iexact HO
  unfold gotX
  isplitl [Hrest]; · iexact Hrest
  iexact Hcr

/-! ## Waits on the device's own DMA cells -/

theorem dmaPay_0 (i : Fin 16) : dmaPay m 0 i c = pay0 m i c := rfl
theorem dmaPay_1 (i : Fin 16) : dmaPay m 1 i c = pay1 m i c := rfl
theorem dmaPay_2 (i : Fin 16) : dmaPay m 2 i c = pay2 m i c := rfl
theorem dmaPay_3 (i : Fin 16) : dmaPay m 3 i c = pay3 m i c := rfl

/-- A wait for a chunk's credit on cell `a, i`, owing `O` all of which lies above the cell: the landing's delivery comes
    with it, and the cell is past its one round. -/
theorem step_wait {α : Type} {Q : α → sProp 𝕄} (a : Fin 4) (i : Fin 16) (O : CellTallies nD τ sig Unit)
    (hmw : (levAts L lv : sProp 𝕄) ⊢ MayWait (c : Thread nD τ) (.dma (dS a i)) () O)
    {k : PUnit → Prog (TpuEff nD τ sig (Elt F) Λ₀ .tc) α}
    {sp sp' : Space} {s s' : Shape} {e e' : EltTy} {sem : DmaSem sig} (hsem : sem = dS a i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c O ∗ cred (tallyAt (dCell a i c) () N) ∗ atPos ER (dCell a i c) 0 ∅ 0)
      ⊢ iprop((owing c O ∗ dmaPay m a i c ∗ atPos ER (dCell a i c) 1 ∅ 0 -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  subst hsem
  unfold ctx owing
  iintro ⟨⟨#HR, #Hlev⟩, ⟨%W, HO⟩, Hc, Hat⟩ Hk
  ihave Hc' := (Entails.of_eq (show (cred (tallyAt (dCell a i c) () N) : sProp 𝕄) = cred (tallyAt (dCell a i c) () dst.view.dmaCredit) by rw [hN])) $$ Hc
  iapply (Rounds.wp_wait_rest_token 𝒱₀ ER (Rd m) (c : Thread nD τ) none (κ := K (c, some (a, i)))
      (wpE_waitDma2_eq 𝒱₀ (c : Thread nD τ) none Set.univ) (Set.mem_univ _) () (O := O) (W := W) (R := 0) (m := 0) (T := ∅)
      (by rw [Nat.zero_add, expect_d, hN])) $$ [Hc' HO Hat]
  · isplitr; · iapply (inv_at m K (c, some (a, i))); iexact HR
    isplitl [Hc']; · iexact Hc'
    isplitl [HO]; · iexact HO
    isplitr; · iapply hmw; iexact Hlev
    iexact Hat
  iintro ⟨HO, Hat, -, Hpay⟩
  ihave Hp := (Entails.of_eq (rest_d m c a i)) $$ Hpay
  iapply Hk
  isplitl [HO]; · iexists _; iexact HO
  isplitl [Hp]; · iexact Hp
  iexact Hat

theorem mayWait_none (g : SemLoc sig) : (levAts L lv : sProp 𝕄) ⊢ MayWait (c : Thread nD τ) g () 0 := by
  rw [MayWait_zero]; iintro -; iempintro

/-! ## The forwards along the second axis -/

/-- Chunk `i` between its landing and its forward: slot `i` whole at the partner's rows. -/
def midY (i : Fin 16) : sProp 𝕄 :=
  iprop(pay1 m i c ∗ atPos ER (dCell 1 i c) 1 ∅ 0
    ∗ (∃ f, (rySlot i : Memref sig .tc .vmem S16x512 .f32).view.loc ((yp c : Dev nD) : Thread nD τ) ↦[(rySlot i : Memref sig .tc .vmem S16x512 .f32).view.set]{fullShare} f)
    ∗ dutyTok ER (dCell 2 i c) 0 false ∗ dutyTok ER (dCell 3 i (yp c)) 0 false)

/-- Slot `i` forwarded to the second-axis partner's slot `i` on half its share; the other half stays for the sum. -/
theorem step_ysend {α : Type} {Q : α → sProp 𝕄} (i : Fin 16) {k : PUnit → Prog (TpuEff nD τ sig (Elt F) Λ₀ .tc) α} (n : Dev nD) (hn : n = yp c)
    {sS sR : DmaSem sig} (hS : sS = dS 2 i) (hR : sR = dS 3 i)
    {hsc : (rySlot i : Memref sig (Dev.tc n : Thread nD τ).2.kind .vmem S16x512 .f32).view.ref.isScScratch = false}
    {hsrc : (rxSlot i : Memref sig .tc .vmem S16x512 .f32).view.WordExact} {hdst : (rySlot i : Memref sig .tc .vmem S16x512 .f32).view.WordExact}
    {hsem : DmaTarget.Typed .vmem (.dma sR) (.remote (Dev.tc n : Thread nD τ) (rySlot i : Memref sig .tc .vmem S16x512 .f32) (.dma sS) hsc)} :
    iprop(ctx m K ∗ owing c (Oy c i.val) ∗ midY m c i)
      ⊢ iprop((owing c (Oy c (i.val + 1)) ∗ gotY m c i -∗ wp frame (wpE (defs₀ (F := F)) 𝒱₀ c none) Set.univ (k ⟨⟩) Q)
          -∗ wp frame (wpE (defs₀ (F := F)) 𝒱₀ c none) Set.univ
              (.op (.enqueueDma (rxSlot i) (.remote (Dev.tc n : Thread nD τ) (rySlot i) (.dma sS) hsc) (.dma sR) hsrc hdst hsem) k) Q) := by
  subst hn hS hR
  unfold ctx owing midY pay1
  iintro ⟨⟨#HR, #Hlev⟩, ⟨%W, HO⟩, Hsl, Hat, ⟨%f, Hslot⟩, HtS, HtR⟩ Hk
  ihave Hsl2 := (pointsTo_share (PosShare.mem_left_op_right fullShare)).1 $$ Hsl
  icases Hsl2 with ⟨Hl, Hr⟩
  iapply (Rounds.wp_send_pointsTo 𝒱₀ ER (Rd m) (c : Thread nD τ) none (κ₁ := K (c, some (2, i))) (κ₂ := K (yp c, some (3, i)))
      (r₁ := 0) (r₂ := 0) (d₁ := false) (d₂ := false) (fd := f)
      (by rw [duties_d]; exact Finset.mem_singleton_self _) (by rw [duties_d]; exact Finset.mem_singleton_self _)
      () () N rfl (amount_d m c 2 i false) (amount_d m (yp c) 3 i false) (Oy c (i.val + 1))
      (Oy_succ c i.val i.isLt) (W := W)
      (by rw [payload_d2]; exact BI.Entails.refl _)
      (by rw [payload_d3]; unfold pay3 ryLanded; rw [yp_yp]; exact Entails.of_eq (landed_congr _ _ _ _ _ _))) $$ [HO Hr Hslot HtS HtR]
  · isplitr; · iapply (inv_at m K (c, some (2, i))); iexact HR
    isplitr; · iapply (inv_at m K (yp c, some (3, i))); iexact HR
    isplitl [Hr]; · iexact Hr
    isplitl [Hslot]; · iexact Hslot
    isplitl [HO]; · iexact HO
    isplitl [HtS]; · iexact HtS
    isplitr; · iapply (reached_at m K (c, some (2, i))); iexact HR
    isplitl [HtR]; · iexact HtR
    iapply (reached_at m K (yp c, some (3, i))); iexact HR
  iintro ⟨Hcr, HO⟩
  iapply Hk
  isplitl [HO]; · iexists W; iexact HO
  unfold gotY
  isplitl [Hl]; · iexact Hl
  isplitl [Hcr]; · iexact Hcr
  iexact Hat

/-! ## Loads and stores -/

/-- A load of rows of the input buffer, through the share the loads keep. -/
theorem step_loadx {α : Type} {Q : α → sProp 𝕄} {r : LoadRect S512x512} {hl : (xM : Memref sig .tc .vmem S512x512 .f32).view.LoadsAt r}
    {k : (r.shape.Idx → Elt F .f32) → Prog (TpuEff nD τ sig (Elt F) Λ₀ .tc) α} :
    xKeep m c ⊢ iprop((xKeep m c -∗ wp frame (wpE (defs₀ (F := F)) 𝒱₀ c none) Set.univ (k ((xM : Memref sig .tc .vmem S512x512 .f32).view.readAt (Elt F) r (xstg m c))) Q)
        -∗ wp frame (wpE (defs₀ (F := F)) 𝒱₀ c none) Set.univ (.op (.load xM r hl) k) Q) :=
  wp_load 𝒱₀ (c : Thread nD τ) none Set.univ (Finset.subset_univ _)

/-- A load of rows of the output buffer (what a store's mask would keep): whatever it holds. -/
theorem step_loadout {α : Type} {Q : α → sProp 𝕄} (f : (cc0_stg1_0 : Ref sig .tc).ty.Contents (Elt F)) {r : LoadRect S512x512} {hl : (oM : Memref sig .tc .vmem S512x512 .f32).view.LoadsAt r}
    {k : (r.shape.Idx → Elt F .f32) → Prog (TpuEff nD τ sig (Elt F) Λ₀ .tc) α} :
    outPts c f ⊢ iprop((outPts c f -∗ wp frame (wpE (defs₀ (F := F)) 𝒱₀ c none) Set.univ (k ((oM : Memref sig .tc .vmem S512x512 .f32).view.readAt (Elt F) r f)) Q)
        -∗ wp frame (wpE (defs₀ (F := F)) 𝒱₀ c none) Set.univ (.op (.load oM r hl) k) Q) :=
  wp_load 𝒱₀ (c : Thread nD τ) none Set.univ (Finset.subset_univ _)

theorem slot_setOn_rx (i : Fin 16) : (rxM : Memref sig .tc .vmem S16x16x512 .f32).view.setOn (slotRect i).toLoadRect.set ⊆ (rxSlot i : Memref sig .tc .vmem S16x512 .f32).view.set := by
  have e : (rxSlot i : Memref sig .tc .vmem S16x512 .f32).view.set = ((rxM : Memref sig .tc .vmem S16x16x512 .f32).view.slice (slotRect i)).set := View.set_reshape _ _
  rw [e, View.set_slice]; exact subset_rfl
theorem slot_setOn_ry (i : Fin 16) : (ryM : Memref sig .tc .vmem S16x16x512 .f32).view.setOn (slotRect i).toLoadRect.set ⊆ (rySlot i : Memref sig .tc .vmem S16x512 .f32).view.set := by
  have e : (rySlot i : Memref sig .tc .vmem S16x512 .f32).view.set = ((ryM : Memref sig .tc .vmem S16x16x512 .f32).view.slice (slotRect i)).set := View.set_reshape _ _
  rw [e, View.set_slice]; exact subset_rfl

/-- A load of slot `i` of the first receive buffer, at any share of the slot. -/
theorem step_loadrx {α : Type} {Q : α → sProp 𝕄} (i : Fin 16) (q : PosShare TreeShare) (f : Buf (Elt F) ((rxM : Memref sig .tc .vmem S16x16x512 .f32).view.loc (c : Thread nD τ)))
    {hl : (rxM : Memref sig .tc .vmem S16x16x512 .f32).view.LoadsAt (slotRect i).toLoadRect}
    {k : ((slotRect i).toLoadRect.shape.Idx → Elt F .f32) → Prog (TpuEff nD τ sig (Elt F) Λ₀ .tc) α} :
    ((rxM : Memref sig .tc .vmem S16x16x512 .f32).view.loc (c : Thread nD τ) ↦[(rxSlot i : Memref sig .tc .vmem S16x512 .f32).view.set]{q} f)
      ⊢ iprop((((rxM : Memref sig .tc .vmem S16x16x512 .f32).view.loc (c : Thread nD τ) ↦[(rxSlot i : Memref sig .tc .vmem S16x512 .f32).view.set]{q} f)
            -∗ wp frame (wpE (defs₀ (F := F)) 𝒱₀ c none) Set.univ (k ((rxM : Memref sig .tc .vmem S16x16x512 .f32).view.readAt (Elt F) (slotRect i).toLoadRect f)) Q)
        -∗ wp frame (wpE (defs₀ (F := F)) 𝒱₀ c none) Set.univ (.op (.load rxM (slotRect i).toLoadRect hl) k) Q) :=
  wp_load 𝒱₀ (c : Thread nD τ) none Set.univ (slot_setOn_rx i)

theorem step_loadry {α : Type} {Q : α → sProp 𝕄} (i : Fin 16) (q : PosShare TreeShare) (f : Buf (Elt F) ((ryM : Memref sig .tc .vmem S16x16x512 .f32).view.loc (c : Thread nD τ)))
    {hl : (ryM : Memref sig .tc .vmem S16x16x512 .f32).view.LoadsAt (slotRect i).toLoadRect}
    {k : ((slotRect i).toLoadRect.shape.Idx → Elt F .f32) → Prog (TpuEff nD τ sig (Elt F) Λ₀ .tc) α} :
    ((ryM : Memref sig .tc .vmem S16x16x512 .f32).view.loc (c : Thread nD τ) ↦[(rySlot i : Memref sig .tc .vmem S16x512 .f32).view.set]{q} f)
      ⊢ iprop((((ryM : Memref sig .tc .vmem S16x16x512 .f32).view.loc (c : Thread nD τ) ↦[(rySlot i : Memref sig .tc .vmem S16x512 .f32).view.set]{q} f)
            -∗ wp frame (wpE (defs₀ (F := F)) 𝒱₀ c none) Set.univ (k ((ryM : Memref sig .tc .vmem S16x16x512 .f32).view.readAt (Elt F) (slotRect i).toLoadRect f)) Q)
        -∗ wp frame (wpE (defs₀ (F := F)) 𝒱₀ c none) Set.univ (.op (.load ryM (slotRect i).toLoadRect hl) k) Q) :=
  wp_load 𝒱₀ (c : Thread nD τ) none Set.univ (slot_setOn_ry i)

/-- The first round's store of chunk `i`: the next step of the output's chain. -/
theorem step_store2 {α : Type} {Q : α → sProp 𝕄} (i : Fin 16) (f0 : (cc0_stg1_0 : Ref sig .tc).ty.Contents (Elt F)) {w : (rowRect2 c i).shape.Idx → Elt F .f32} (hw : w = sum2 m c i)
    {hx : ((oM : Memref sig .tc .vmem S512x512 .f32).access (rowRect2 c i)).Stores Finset.univ} {hm : (Finset.univ : Finset (rowRect2 c i).shape.Idx) = Finset.univ ∨ ∀ a, (rowRect2 c i).stride a = 1}
    {k : PUnit → Prog (TpuEff nD τ sig (Elt F) Λ₀ .tc) α} :
    outPts c (out2 m c f0 i.val) ⊢ iprop((outPts c (out2 m c f0 (i.val + 1)) -∗ wp frame (wpE (defs₀ (F := F)) 𝒱₀ c none) Set.univ (k ⟨⟩) Q)
        -∗ wp frame (wpE (defs₀ (F := F)) 𝒱₀ c none) Set.univ (.op (.store oM (rowRect2 c i) w Finset.univ hx hm) k) Q) := by
  subst hw
  have e : out2 m c f0 (i.val + 1) = ((oM : Memref sig .tc .vmem S512x512 .f32).access (rowRect2 c i)).write (Elt F) (out2 m c f0 i.val) (sum2 m c i) Finset.univ := by
    rw [out2, dif_pos i.isLt]
  rw [e]
  exact wp_store 𝒱₀ (c : Thread nD τ) none Set.univ (m := oM) (r := rowRect2 c i) (Mk := Finset.univ) (Finset.subset_univ _)

theorem step_store3 {α : Type} {Q : α → sProp 𝕄} (i : Fin 16) (f0 : (cc0_stg1_0 : Ref sig .tc).ty.Contents (Elt F)) {w : (rowRect3 c i).shape.Idx → Elt F .f32} (hw : w = sum3 m c i)
    {hx : ((oM : Memref sig .tc .vmem S512x512 .f32).access (rowRect3 c i)).Stores Finset.univ} {hm : (Finset.univ : Finset (rowRect3 c i).shape.Idx) = Finset.univ ∨ ∀ a, (rowRect3 c i).stride a = 1}
    {k : PUnit → Prog (TpuEff nD τ sig (Elt F) Λ₀ .tc) α} :
    outPts c (out3 m c f0 i.val) ⊢ iprop((outPts c (out3 m c f0 (i.val + 1)) -∗ wp frame (wpE (defs₀ (F := F)) 𝒱₀ c none) Set.univ (k ⟨⟩) Q)
        -∗ wp frame (wpE (defs₀ (F := F)) 𝒱₀ c none) Set.univ (.op (.store oM (rowRect3 c i) w Finset.univ hx hm) k) Q) := by
  subst hw
  have e : out3 m c f0 (i.val + 1) = ((oM : Memref sig .tc .vmem S512x512 .f32).access (rowRect3 c i)).write (Elt F) (out3 m c f0 i.val) (sum3 m c i) Finset.univ := by
    rw [out3, dif_pos i.isLt]
  rw [e]
  exact wp_store 𝒱₀ (c : Thread nD τ) none Set.univ (m := oM) (r := rowRect3 c i) (Mk := Finset.univ) (Finset.subset_univ _)

end Cert.Kernel.P

end
-- ==== Proof.Bits.Glue.lean ====
/- Regrouping a device's holdings: at the start, chunk by chunk for the four rounds; at the end, back into whole buffers and closed cells. -/
import proofs.«900724_g7700000000000725_dist_ar_v7x_xyz2x4x4_x_m512_n512_f32_1_alg».proof.Proof.Bits.Cells
import proofs.«900724_g7700000000000725_dist_ar_v7x_xyz2x4x4_x_m512_n512_f32_1_alg».proof.Proof.Bits.States
import proofs.«900724_g7700000000000725_dist_ar_v7x_xyz2x4x4_x_m512_n512_f32_1_alg».proof.Proof.Bits.Levels
import proofs.«900724_g7700000000000725_dist_ar_v7x_xyz2x4x4_x_m512_n512_f32_1_alg».proof.Proof.Bits.Geometry

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-- The sixteen read shares of the input buffer, one per chunk. -/
def xToks : sProp 𝕄 := bigSep Finset.univ fun i : Fin 16 => (xLoc c ↦[Finset.univ]{qTok i} xstg m c)

/-- The input buffer held whole is the share the loads keep and the sixteen read shares, and back. -/
theorem x_split : (xLoc c ↦[Finset.univ]{fullShare} xstg m c : sProp 𝕄) ⊢ iprop(xKeep m c ∗ xToks m c) := by
  unfold xKeep xToks
  exact Transfers.pointsTo_toks_split fullShare 16
theorem x_join : iprop(xKeep m c ∗ xToks m c) ⊢ (xLoc c ↦[Finset.univ]{fullShare} xstg m c : sProp 𝕄) := by
  unfold xKeep xToks
  exact Transfers.pointsTo_toks_join fullShare 16

/-- After the entry handshake: everything dealt out chunk by chunk to the four rounds. -/
theorem regroup_start :
    iprop(xToks m c ∗ barPayX c ∗ barPayY c
      ∗ (bigSep Finset.univ fun i : Fin 16 => iprop(atPos ER (dCell 0 i c) 0 ∅ 0 ∗ atPos ER (dCell 1 i c) 0 ∅ 0 ∗ atPos ER (dCell 2 i c) 0 ∅ 0 ∗ atPos ER (dCell 3 i c) 0 ∅ 0))
      ∗ (bigSep Finset.univ fun i : Fin 16 => iprop(dutyTok ER (dCell 0 i c) 0 false ∗ dutyTok ER (dCell 1 i (xp c)) 0 false ∗ dutyTok ER (dCell 2 i c) 0 false ∗ dutyTok ER (dCell 3 i (yp c)) 0 false))
      ∗ (bigSep Finset.univ fun i : Fin 16 => iprop(cred (tallyAt (dCell 1 i c) () N) ∗ cred (tallyAt (dCell 3 i c) () N))))
      ⊢ (iprop((bigSep Finset.univ fun i : Fin 16 => needX m c i) ∗ (bigSep Finset.univ fun i : Fin 16 => needY c i)
          ∗ (bigSep Finset.univ fun i : Fin 16 => needZ c i) ∗ (bigSep Finset.univ fun i : Fin 16 => needW c i)) : sProp 𝕄) := by
  simp only [needX, needY, needZ, needW, xToks, barPayX, barPayY, bigSep_sep']
  iintro ⟨HxT, HbX, HbY, ⟨Ha0, Ha1, Ha2, Ha3⟩, ⟨Ht0, Ht1, Ht2, Ht3⟩, Hc1, Hc3⟩
  isplitl [HxT HbX Ht0 Ht1]
  · isplitl [HxT]; · iexact HxT
    isplitl [HbX]; · iexact HbX
    isplitl [Ht0]; · iexact Ht0
    iexact Ht1
  isplitl [Ha1 Hc1 HbY Ht2 Ht3]
  · isplitl [Ha1]; · iexact Ha1
    isplitl [Hc1]; · iexact Hc1
    isplitl [HbY]; · iexact HbY
    isplitl [Ht2]; · iexact Ht2
    iexact Ht3
  isplitl [Ha3 Hc3]
  · isplitl [Ha3]; · iexact Ha3
    iexact Hc3
  isplitl [Ha0]; · iexact Ha0
  iexact Ha2

/-- What chunk `i` brings to the last round: what the first two rounds left it, and the two send cells' positions. -/
def inW (i : Fin 16) : sProp 𝕄 := iprop(gotX m c i ∗ gotY m c i ∗ needW c i)
theorem regroup_last :
    iprop((bigSep Finset.univ fun i : Fin 16 => gotX m c i) ∗ (bigSep Finset.univ fun i : Fin 16 => gotY m c i) ∗ (bigSep Finset.univ fun i : Fin 16 => needW c i))
      ⊢ (bigSep Finset.univ fun i : Fin 16 => inW m c i : sProp 𝕄) := by
  simp only [inW, bigSep_sep']
  iintro ⟨HX, HY, HW⟩
  isplitl [HX]; · iexact HX
  isplitl [HY]; · iexact HY
  iexact HW

/-- Chunk `i` after its two send waits: the borrowed rows and the borrowed half slot are back. -/
def doneW (i : Fin 16) : sProp 𝕄 :=
  iprop((xLoc c ↦[Finset.univ]{qTok i} xstg m c)
    ∗ ((rxSlot i : Memref sig .tc .vmem S16x512 .f32).view.loc (c : Thread nD τ) ↦[(rxSlot i : Memref sig .tc .vmem S16x512 .f32).view.set]{fullShare} rxLanded m c i)
    ∗ atPos ER (dCell 0 i c) 1 ∅ 0 ∗ atPos ER (dCell 1 i c) 1 ∅ 0 ∗ atPos ER (dCell 2 i c) 1 ∅ 0)
theorem close_chunk (i : Fin 16) :
    iprop((xLoc c ↦[Finset.univ \ (xRow c i : Memref sig .tc .vmem S16x512 .f32).view.set]{qTok i} xstg m c) ∗ pay0 m i c
      ∗ ((rxSlot i : Memref sig .tc .vmem S16x512 .f32).view.loc (c : Thread nD τ) ↦[(rxSlot i : Memref sig .tc .vmem S16x512 .f32).view.set]{fullShare.left} rxLanded m c i) ∗ pay2 m i c
      ∗ atPos ER (dCell 0 i c) 1 ∅ 0 ∗ atPos ER (dCell 1 i c) 1 ∅ 0 ∗ atPos ER (dCell 2 i c) 1 ∅ 0)
      ⊢ doneW m c i := by
  unfold doneW pay0 pay2
  iintro ⟨Hx, Hp0, Hl, Hr, Ha0, Ha1, Ha2⟩
  isplitl [Hx Hp0]
  · iapply (pointsTo_split_subset (ℓ := xLoc c) (q := qTok i) (f := xstg m c)
      (Finset.subset_univ ((xRow c i : Memref sig .tc .vmem S16x512 .f32).view.set))).2
    isplitl [Hp0]; · iexact Hp0
    iexact Hx
  isplitl [Hl Hr]
  · iapply (pointsTo_share (PosShare.mem_left_op_right fullShare)).2
    isplitl [Hl]; · iexact Hl
    iexact Hr
  isplitl [Ha0]; · iexact Ha0
  isplitl [Ha1]; · iexact Ha1
  iexact Ha2

/-- A family's sixteen cells, each past its one round with nothing taken, close: their counters read zero. -/
theorem close_family (a : Fin 4) :
    iprop(records m K ∗ bigSep Finset.univ fun i : Fin 16 => atPos ER (dCell a i c) 1 ∅ 0)
      ⊢ (|={Set.univ}=> bigSep Finset.univ fun i : Fin 16 => semVal (dCell a i c) 0 : sProp 𝕄) := by
  refine BIBase.Entails.trans ?_ (bigSep_fupd _ _)
  refine bigSep_with_persistent (R := records m K) fun i _ => ?_
  iintro ⟨#HR, Hat⟩
  iapply (Rounds.cell_close ER (Rd m) (Set.mem_univ (K (c, some (a, i)))) (fun h => h) (R := 1) (duties_later m (dCell a i c)))
  isplitr
  · iapply (inv_at m K (c, some (a, i))); iexact HR
  · iexact Hat

/-- Whatever a summand holds, it holds something. -/
private theorem to_ex {α : Type} (Φ : α → sProp 𝕄) (x : α) : Φ x ⊢ iprop(∃ y, Φ y) := by
  iintro H; iexists x; iexact H

private theorem fin4_sep (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The sixty-four own cells' counters, family by family. -/
private theorem sems_fam : (bigSep Finset.univ fun ai : Fin 4 × Fin 16 => (semVal (dCell ai.1 ai.2 c) 0 : sProp 𝕄))
    = iprop((bigSep Finset.univ fun i : Fin 16 => semVal (dCell 0 i c) 0) ∗ (bigSep Finset.univ fun i : Fin 16 => semVal (dCell 1 i c) 0)
        ∗ (bigSep Finset.univ fun i : Fin 16 => semVal (dCell 2 i c) 0) ∗ (bigSep Finset.univ fun i : Fin 16 => semVal (dCell 3 i c) 0)) := by
  rw [bigSep_univ_prod, fin4_sep]

/-- At the end: the input buffer whole again, both receive buffers whole again, all sixty-four own cells closed at zero. -/
theorem finish :
    iprop(records m K ∗ xKeep m c ∗ (bigSep Finset.univ fun i : Fin 16 => doneW m c i) ∗ (bigSep Finset.univ fun i : Fin 16 => gotZ m c i))
      ⊢ (|={Set.univ}=> iprop((xLoc c ↦[Finset.univ]{fullShare} xstg m c) ∗ Φ₁ c) : sProp 𝕄) := by
  have hrx : (bigSep Finset.univ fun i : Fin 16 => ((rxSlot i : Memref sig .tc .vmem S16x512 .f32).view.loc (c : Thread nD τ) ↦[(rxSlot i : Memref sig .tc .vmem S16x512 .f32).view.set]{fullShare} rxLanded m c i : sProp 𝕄))
      ⊢ rxAny (F := F) c :=
    (bigSep_mono (s := Finset.univ) fun i _ => to_ex (fun f => ((rxSlot i : Memref sig .tc .vmem S16x512 .f32).view.loc (c : Thread nD τ) ↦[(rxSlot i : Memref sig .tc .vmem S16x512 .f32).view.set]{fullShare} f : sProp 𝕄)) (rxLanded m c i)).trans
      (rx_join (F := F) c)
  have hry : (bigSep Finset.univ fun i : Fin 16 => ((rySlot i : Memref sig .tc .vmem S16x512 .f32).view.loc (c : Thread nD τ) ↦[(rySlot i : Memref sig .tc .vmem S16x512 .f32).view.set]{fullShare} ryLanded m c i : sProp 𝕄))
      ⊢ ryAny (F := F) c :=
    (bigSep_mono (s := Finset.univ) fun i _ => to_ex (fun f => ((rySlot i : Memref sig .tc .vmem S16x512 .f32).view.loc (c : Thread nD τ) ↦[(rySlot i : Memref sig .tc .vmem S16x512 .f32).view.set]{fullShare} f : sProp 𝕄)) (ryLanded m c i)).trans
      (ry_join (F := F) c)
  simp only [doneW, gotZ, bigSep_sep']
  iintro ⟨#HR, HK, ⟨HxT, Hrx, Ha0, Ha1, Ha2⟩, Hry, Ha3⟩
  imod (close_family m K c 0) $$ [Ha0] with Hs0
  · isplitr; · iexact HR
    iexact Ha0
  imod (close_family m K c 1) $$ [Ha1] with Hs1
  · isplitr; · iexact HR
    iexact Ha1
  imod (close_family m K c 2) $$ [Ha2] with Hs2
  · isplitr; · iexact HR
    iexact Ha2
  imod (close_family m K c 3) $$ [Ha3] with Hs3
  · isplitr; · iexact HR
    iexact Ha3
  imodintro
  unfold Φ₁
  isplitl [HK HxT]
  · iapply (x_join m c)
    unfold xToks
    isplitl [HK]; · iexact HK
    iexact HxT
  isplitl [Hrx]
  · iapply hrx; iexact Hrx
  isplitl [Hry]
  · iapply hry; iexact Hry
  rw [sems_fam]
  isplitl [Hs0]; · iexact Hs0
  isplitl [Hs1]; · iexact Hs1
  isplitl [Hs2]; · iexact Hs2
  iexact Hs3

/-- info: 'Cert.Kernel.P.regroup_start' depends on axioms: [propext, Classical.choice, Quot.sound] -/
#guard_msgs in #print axioms regroup_start
/-- info: 'Cert.Kernel.P.close_chunk' depends on axioms: [propext, Classical.choice, Quot.sound] -/
#guard_msgs in #print axioms close_chunk
/-- info: 'Cert.Kernel.P.close_family' depends on axioms: [propext, Classical.choice, Quot.sound] -/
#guard_msgs in #print axioms close_family
/-- info: 'Cert.Kernel.P.finish' depends on axioms: [propext, Classical.choice, Quot.sound] -/
#guard_msgs in #print axioms finish

end Cert.Kernel.P

end
-- ==== Proof.Bits.Body.lean ====
/- A device's body, effect by effect, from what the launch hands it to what it hands back. -/
import proofs.«900724_g7700000000000725_dist_ar_v7x_xyz2x4x4_x_m512_n512_f32_1_alg».proof.Proof.Bits.Cells
import proofs.«900724_g7700000000000725_dist_ar_v7x_xyz2x4x4_x_m512_n512_f32_1_alg».proof.Proof.Bits.Steps
import proofs.«900724_g7700000000000725_dist_ar_v7x_xyz2x4x4_x_m512_n512_f32_1_alg».proof.Proof.Bits.Glue

noncomputable section

namespace Cert.Kernel.P

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## The effects at the level of a chunk's holdings -/

/-- The wait for chunk `i` of the first-axis partner's rows. -/
theorem step_p2wait {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 1 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c (Oy c i.val) ∗ needY c i)
      ⊢ iprop((owing c (Oy c i.val) ∗ midY m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold needY midY
  iintro ⟨#HC, HO, Hat, Hc, Hsl, Ht2, Ht3⟩ Hk
  iapply (step_wait m K c 1 i (Oy c i.val) (mayWait_rx c i i.val) hsem hN) $$ [HO Hc Hat]
  · isplitr; · iexact HC
    isplitl [HO]; · iexact HO
    isplitl [Hc]; · iexact Hc
    iexact Hat
  iintro ⟨HO, Hp, Hat⟩
  ihave Hp := (Entails.of_eq (dmaPay_1 m c i)) $$ Hp
  iapply Hk
  isplitl [HO]; · iexact HO
  isplitl [Hp]; · iexact Hp
  isplitl [Hat]; · iexact Hat
  isplitl [Hsl]; · iexact Hsl
  isplitl [Ht2]; · iexact Ht2
  iexact Ht3

/-- The load of slot `i` of the first receive buffer for the sum, through the half share the forward left. -/
theorem step_loadrx_got {α : Type} {Q : α → sProp 𝕄} (i : Fin 16)
    {hl : (rxM : Memref sig .tc .vmem S16x16x512 .f32).view.LoadsAt (slotRect i).toLoadRect}
    {k : ((slotRect i).toLoadRect.shape.Idx → Elt F .f32) → Prog (TpuEff nD τ sig (Elt F) Λ₀ .tc) α} :
    gotY m c i ⊢ iprop((gotY m c i -∗ wp frame (wpE (defs₀ (F := F)) 𝒱₀ c none) Set.univ (k ((rxM : Memref sig .tc .vmem S16x16x512 .f32).view.readAt (Elt F) (slotRect i).toLoadRect (rxLanded m c i))) Q)
        -∗ wp frame (wpE (defs₀ (F := F)) 𝒱₀ c none) Set.univ (.op (.load rxM (slotRect i).toLoadRect hl) k) Q) := by
  unfold gotY
  iintro ⟨Hs, Hr⟩ Hk
  iapply (step_loadrx c i _ _) $$ Hs
  iintro Hs
  iapply Hk
  isplitl [Hs]; · iexact Hs
  iexact Hr

/-- The wait for chunk `i` of what the second-axis partner forwards. -/
theorem step_p3wait {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 3 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c 0 ∗ needZ c i)
      ⊢ iprop((owing c 0 ∗ gotZ m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold needZ gotZ
  iintro ⟨#HC, HO, Hat, Hc⟩ Hk
  iapply (step_wait m K c 3 i 0 (mayWait_none c _) hsem hN) $$ [HO Hc Hat]
  · isplitr; · iexact HC
    isplitl [HO]; · iexact HO
    isplitl [Hc]; · iexact Hc
    iexact Hat
  iintro ⟨HO, Hp, Hat⟩
  ihave Hp := (show dmaPay m 3 i c ⊢ ((rySlot i : Memref sig .tc .vmem S16x512 .f32).view.loc (c : Thread nD τ) ↦[(rySlot i : Memref sig .tc .vmem S16x512 .f32).view.set]{fullShare} ryLanded m c i : sProp 𝕄)
    from Entails.of_eq (dmaPay_3 m c i)) $$ Hp
  iapply Hk
  isplitl [HO]; · iexact HO
  isplitl [Hp]; · iexact Hp
  iexact Hat

theorem step_loadry_got {α : Type} {Q : α → sProp 𝕄} (i : Fin 16)
    {hl : (ryM : Memref sig .tc .vmem S16x16x512 .f32).view.LoadsAt (slotRect i).toLoadRect}
    {k : ((slotRect i).toLoadRect.shape.Idx → Elt F .f32) → Prog (TpuEff nD τ sig (Elt F) Λ₀ .tc) α} :
    gotZ m c i ⊢ iprop((gotZ m c i -∗ wp frame (wpE (defs₀ (F := F)) 𝒱₀ c none) Set.univ (k ((ryM : Memref sig .tc .vmem S16x16x512 .f32).view.readAt (Elt F) (slotRect i).toLoadRect (ryLanded m c i))) Q)
        -∗ wp frame (wpE (defs₀ (F := F)) 𝒱₀ c none) Set.univ (.op (.load ryM (slotRect i).toLoadRect hl) k) Q) := by
  unfold gotZ
  iintro ⟨Hs, Hr⟩ Hk
  iapply (step_loadry c i _ _) $$ Hs
  iintro Hs
  iapply Hk
  isplitl [Hs]; · iexact Hs
  iexact Hr

/-- Chunk `i` between its two send waits. -/
def midW (i : Fin 16) : sProp 𝕄 :=
  iprop((xLoc c ↦[Finset.univ \ (xRow c i : Memref sig .tc .vmem S16x512 .f32).view.set]{qTok i} xstg m c) ∗ pay0 m i c ∗ atPos ER (dCell 0 i c) 1 ∅ 0
    ∗ gotY m c i ∗ atPos ER (dCell 2 i c) 0 ∅ 0)

/-- The wait for chunk `i`'s own transfer to have been read to the end: its rows' read share is back. -/
theorem step_p4wait0 {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 0 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c 0 ∗ inW m c i)
      ⊢ iprop((owing c 0 ∗ midW m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold inW gotX needW midW
  iintro ⟨#HC, HO, ⟨Hxr, Hc⟩, HgY, Hat0, Hat2⟩ Hk
  iapply (step_wait m K c 0 i 0 (mayWait_none c _) hsem hN) $$ [HO Hc Hat0]
  · isplitr; · iexact HC
    isplitl [HO]; · iexact HO
    isplitl [Hc]; · iexact Hc
    iexact Hat0
  iintro ⟨HO, Hp, Hat0⟩
  ihave Hp := (Entails.of_eq (dmaPay_0 m c i)) $$ Hp
  iapply Hk
  isplitl [HO]; · iexact HO
  isplitl [Hxr]; · iexact Hxr
  isplitl [Hp]; · iexact Hp
  isplitl [Hat0]; · iexact Hat0
  isplitl [HgY]; · iexact HgY
  iexact Hat2

/-- The wait for chunk `i`'s forward to have been read to the end: the slot's other half is back. -/
theorem step_p4wait2 {α : Type} {Q : α → sProp 𝕄} (i : Fin 16) {k : PUnit → Prog (TpuEff nD τ sig (Elt F) Λ₀ .tc) α}
    {sp sp' : Space} {s s' : Shape} {e e' : EltTy} {sem : DmaSem sig} (hsem : sem = dS 2 i)
    {src : Memref sig (c : Thread nD τ).2.kind sp' s' e'} {κ' : Kind} {dst : Memref sig κ' sp s e} (hN : dst.view.dmaCredit = N)
    {hsrc : src.view.WordExact} {hdst : dst.view.WordExact} :
    iprop(ctx m K ∗ owing c 0 ∗ midW m c i)
      ⊢ iprop((owing c 0 ∗ doneW m c i -∗ wp frame (wpE (defs₀ (F := F)) 𝒱₀ c none) Set.univ (k ⟨⟩) Q)
          -∗ wp frame (wpE (defs₀ (F := F)) 𝒱₀ c none) Set.univ (.op (.waitDma2 sem src dst hsrc hdst) k) Q) := by
  unfold midW gotY
  iintro ⟨#HC, HO, Hxr, Hp0, Hat0, ⟨Hl, Hc, Hat1⟩, Hat2⟩ Hk
  iapply (step_wait m K c 2 i 0 (mayWait_none c _) hsem hN) $$ [HO Hc Hat2]
  · isplitr; · iexact HC
    isplitl [HO]; · iexact HO
    isplitl [Hc]; · iexact Hc
    iexact Hat2
  iintro ⟨HO, Hp, Hat2⟩
  ihave Hp := (Entails.of_eq (dmaPay_2 m c i)) $$ Hp
  iapply Hk
  isplitl [HO]; · iexact HO
  iapply (close_chunk m c i)
  isplitl [Hxr]; · iexact Hxr
  isplitl [Hp0]; · iexact Hp0
  isplitl [Hl]; · iexact Hl
  isplitl [Hp]; · iexact Hp
  isplitl [Hat0]; · iexact Hat0
  isplitl [Hat1]; · iexact Hat1
  iexact Hat2

theorem owing_x_end : owing (F := F) c (Oy c 0 + Ox c 16) ⊢ owing c (Oy c 0) := by rw [Ox_end, add_zero]
theorem owing_y_end : owing (F := F) c (Oy c 16) ⊢ owing c 0 := by rw [Oy_end]

theorem outPts_eq (f : (cc0_stg1_0 : Ref sig .tc).ty.Contents (Elt F)) : outPts (F := F) c f = (((c : Thread nD τ).loc cc0_stg1_0) ↦{fullShare} f : sProp 𝕄) := rfl
theorem xPts_eq : (xLoc c ↦[Finset.univ]{fullShare} xstg m c : sProp 𝕄) = (((c : Thread nD τ).loc cc0_stg0_0) ↦{fullShare} xstg m c : sProp 𝕄) := rfl

attribute [local irreducible] outAt

/-! ## The one point of the grid; the windows' buffers as the obligation hands them over -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, under the names `K` of the cells' invariants; -/
def bodyPre : sProp 𝕄 :=
  iprop((ctx m K ∗ positions c ∗ payToks c ∗ creds c ∗ rxAny c ∗ ryAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))
/-- and what it ends with. -/
def bodyPost : sProp 𝕄 :=
  iprop(Φ₁ c ∗ (dats m 0 c).owesAt () t₀.succ ∗ stg c cc0_stg0_0 (xstg m c) ∗ stg c cc0_stg1_0 (outAt m c))

/-! ## The body -/

set_option hygiene false in
/-- Chunk `i`'s transfer along the first axis. -/
macro "xs" i:num d:ident : tactic => `(tactic| (
  ihave H := (chunks_step (needX m c) (gotX m c) $i (by decide)) $$ HX
  icases H with ⟨HN, HXw⟩
  iapply (step_xsend m K c (⟨$i, by decide⟩ : Fin 16) _ ($d c) (sem2_eq _) (sem3_eq _)) $$ [HO HN]
  · isplitr; · iexact HC
    isplitl [HO]; · iexact HO
    iexact HN
  iintro ⟨HO, HN⟩
  ihave HX := HXw $$ HN))

set_option hygiene false in
/-- Chunk `i` of the first round: the wait, the forward, the three loads and the store. -/
macro "ys" i:num d:ident : tactic => `(tactic| (
  ihave H := (chunks_step (needY c) (gotY m c) $i (by decide)) $$ HY
  icases H with ⟨HN, HYw⟩
  iapply (step_p2wait m K c (⟨$i, by decide⟩ : Fin 16) (sem3_eq _) (dst := rxSlot (⟨$i, by decide⟩ : Fin 16)) rfl) $$ [HO HN]
  · isplitr; · iexact HC
    isplitl [HO]; · iexact HO
    iexact HN
  iintro ⟨HO, HN⟩
  iapply (step_ysend m K c (⟨$i, by decide⟩ : Fin 16) _ ($d c) (sem4_eq _) (sem5_eq _)) $$ [HO HN]
  · isplitr; · iexact HC
    isplitl [HO]; · iexact HO
    iexact HN
  iintro ⟨HO, HN⟩
  iapply (step_loadx m c) $$ Hxk
  iintro Hxk
  iapply (step_loadrx_got m c _) $$ HN
  iintro HN
  iapply (step_loadout c _) $$ Hout
  iintro Hout
  iapply (step_store2 m c (⟨$i, by decide⟩ : Fin 16) g1 rfl) $$ Hout
  iintro Hout
  ihave HY := HYw $$ HN))

set_option hygiene false in
/-- Chunk `i` of the second round: the wait, the three loads and the store. -/
macro "zs" i:num : tactic => `(tactic| (
  ihave H := (chunks_step (needZ c) (gotZ m c) $i (by decide)) $$ HZ
  icases H with ⟨HN, HZw⟩
  iapply (step_p3wait m K c (⟨$i, by decide⟩ : Fin 16) (sem5_eq _) (dst := rySlot (⟨$i, by decide⟩ : Fin 16)) rfl) $$ [HO HN]
  · isplitr; · iexact HC
    isplitl [HO]; · iexact HO
    iexact HN
  iintro ⟨HO, HN⟩
  iapply (step_loadx m c) $$ Hxk
  iintro Hxk
  iapply (step_loadry_got m c _) $$ HN
  iintro HN
  iapply (step_loadout c _) $$ Hout
  iintro Hout
  iapply (step_store3 m c (⟨$i, by decide⟩ : Fin 16) g1 rfl) $$ Hout
  iintro Hout
  ihave HZ := HZw $$ HN))

set_option hygiene false in
/-- Chunk `i`'s two send waits. -/
macro "ws" i:num : tactic => `(tactic| (
  ihave H := (chunks_step (inW m c) (doneW m c) $i (by decide)) $$ HW
  icases H with ⟨HN, HWw⟩
  iapply (step_p4wait0 m K c (⟨$i, by decide⟩ : Fin 16) (sem2_eq _) (dst := xRow c (⟨$i, by decide⟩ : Fin 16)) rfl) $$ [HO HN]
  · isplitr; · iexact HC
    isplitl [HO]; · iexact HO
    iexact HN
  iintro ⟨HO, HN⟩
  iapply (step_p4wait2 m K c (⟨$i, by decide⟩ : Fin 16) (sem4_eq _) (dst := rxSlot (⟨$i, by decide⟩ : Fin 16)) rfl) $$ [HO HN]
  · isplitr; · iexact HC
    isplitl [HO]; · iexact HO
    iexact HN
  iintro ⟨HO, HN⟩
  ihave HW := HWw $$ HN))

set_option maxHeartbeats 16000000 in
set_option maxRecDepth 65536 in
/-- The body, effect by effect: the handshake, sixteen transfers, sixteen chunks summed and forwarded, sixteen chunks
    summed, thirty-two send waits, and the cells closed. -/
theorem sound_body (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton, cc0_body_skel,
    k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel, k0_part40_eq_skeleton, k0_part40_skel,
    k0_part41_eq_skeleton, k0_part41_skel, k0_part42_eq_skeleton, k0_part42_skel, k0_part43_eq_skeleton, k0_part43_skel, k0_part44_eq_skeleton, k0_part44_skel,
    k0_part45_eq_skeleton, k0_part45_skel, k0_part46_eq_skeleton, k0_part46_skel, k0_part47_eq_skeleton, k0_part47_skel, k0_part48_eq_skeleton, k0_part48_skel,
    k0_part49_eq_skeleton, k0_part49_skel,
    semSignalWord, semWaitWord, Prog.lift, Prog.bind_op, Prog.bind_ret, Prog.pure_eq_ret, wp_deviceId]
  unfold bodyPre positions payToks creds
  iintro ⟨⟨⟨#HC, ⟨HatB, Hpos⟩, ⟨HtX, HtY, Htoks⟩, ⟨HcB, Hcreds⟩, Hrx, Hry⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the entry handshake
  iapply (step_sig1 m K c _ (dev1_eq c) W) $$ [HO HtX Hrx]
  · isplitr; · iexact HC
    isplitl [HO]; · iexact HO
    isplitl [HtX]; · iexact HtX
    iexact Hrx
  iintro HO
  iapply (step_sig2 m K c _ (dev2_eq c) W) $$ [HO HtY Hry]
  · isplitr; · iexact HC
    isplitl [HO]; · iexact HO
    isplitl [HtY]; · iexact HtY
    iexact Hry
  iintro HO
  iapply (step_barwait m K c W) $$ [HO HcB HatB]
  · isplitr; · iexact HC
    isplitl [HO]; · iexact HO
    isplitl [HcB]; · iexact HcB
    iexact HatB
  iintro ⟨HO, HbY, HbX⟩
  -- the input buffer's read shares; everything dealt out chunk by chunk
  ihave Hout := (Entails.of_eq (outPts_eq c g1).symm) $$ Hout
  ihave Hx := (Entails.of_eq (xPts_eq m c).symm) $$ Hx
  ihave Hx' := (x_split m c) $$ Hx
  icases Hx' with ⟨Hxk, Hxt⟩
  ihave Hn := (regroup_start m c) $$ [Hxt HbX HbY Hpos Htoks Hcreds]
  · isplitl [Hxt]; · iexact Hxt
    isplitl [HbX]; · iexact HbX
    isplitl [HbY]; · iexact HbY
    isplitl [Hpos]; · iexact Hpos
    isplitl [Htoks]; · iexact Htoks
    iexact Hcreds
  icases Hn with ⟨HnX, HnY, HnZ, HnW⟩
  -- sixteen transfers along the first axis
  ihave HX := (chunks_zero (needX m c) (gotX m c)) $$ HnX
  xs 0 dev3_eq
  xs 1 dev4_eq
  xs 2 dev5_eq
  xs 3 dev6_eq
  xs 4 dev7_eq
  xs 5 dev8_eq
  xs 6 dev9_eq
  xs 7 dev10_eq
  xs 8 dev11_eq
  xs 9 dev12_eq
  xs 10 dev13_eq
  xs 11 dev14_eq
  xs 12 dev15_eq
  xs 13 dev16_eq
  xs 14 dev17_eq
  xs 15 dev18_eq
  ihave HgX := (chunks_end (needX m c) (gotX m c)) $$ HX
  ihave HO := (owing_x_end c) $$ HO
  -- sixteen chunks summed and forwarded
  ihave Hout := (Entails.of_eq (show outPts c g1 = outPts c (out2 m c g1 0) from rfl)) $$ Hout
  ihave HY := (chunks_zero (needY c) (gotY m c)) $$ HnY
  ys 0 dev19_eq
  ys 1 dev20_eq
  ys 2 dev21_eq
  ys 3 dev22_eq
  ys 4 dev23_eq
  ys 5 dev24_eq
  ys 6 dev25_eq
  ys 7 dev26_eq
  ys 8 dev27_eq
  ys 9 dev28_eq
  ys 10 dev29_eq
  ys 11 dev30_eq
  ys 12 dev31_eq
  ys 13 dev32_eq
  ys 14 dev33_eq
  ys 15 dev34_eq
  ihave HgY := (chunks_end (needY c) (gotY m c)) $$ HY
  ihave HO := (owing_y_end c) $$ HO
  -- sixteen chunks summed
  ihave Hout := (Entails.of_eq (show outPts c (out2 m c g1 16) = outPts c (out3 m c g1 0) from rfl)) $$ Hout
  ihave HZ := (chunks_zero (needZ c) (gotZ m c)) $$ HnZ
  zs 0
  zs 1
  zs 2
  zs 3
  zs 4
  zs 5
  zs 6
  zs 7
  zs 8
  zs 9
  zs 10
  zs 11
  zs 12
  zs 13
  zs 14
  zs 15
  ihave HgZ := (chunks_end (needZ c) (gotZ m c)) $$ HZ
  -- thirty-two send waits
  ihave HiW := (regroup_last m c) $$ [HgX HgY HnW]
  · isplitl [HgX]; · iexact HgX
    isplitl [HgY]; · iexact HgY
    iexact HnW
  ihave HW := (chunks_zero (inW m c) (doneW m c)) $$ HiW
  ws 0
  ws 1
  ws 2
  ws 3
  ws 4
  ws 5
  ws 6
  ws 7
  ws 8
  ws 9
  ws 10
  ws 11
  ws 12
  ws 13
  ws 14
  ws 15
  ihave HdW := (chunks_end (inW m c) (doneW m c)) $$ HW
  -- the cells closed, the buffers whole again
  rw [wp_ret]
  unfold ctx
  icases HC with ⟨#HR, #Hlev⟩
  imod (finish m K c) $$ [Hxk HdW HgZ] with ⟨Hx, HΦ⟩
  · isplitr; · iexact HR
    isplitl [Hxk]; · iexact Hxk
    isplitl [HdW]; · iexact HdW
    iexact HgZ
  imodintro
  iapply Hk
  unfold bodyPost Dat.owesAt Pipeline.owesWithin owing
  rw [show (dats m 0 c).owed t₀.succ = 0 from rfl]
  icases HO with ⟨%W', HO⟩
  isplitl [HΦ]; · iexact HΦ
  isplitl [HO]
  · iexists W'
    isplitr; · ipureintro; exact fun _ _ => Or.inl trivial
    iexact HO
  ihave Hx := (Entails.of_eq (xPts_eq m c)) $$ Hx
  ihave Hout := (Entails.of_eq (outPts_eq c (out3 m c g1 16))) $$ Hout
  isplitl [Hx]
  · iexists _; isplitr; · (ipureintro; rfl)
    iexact Hx
  iexists (out3 m c g1 16); isplitr; · (ipureintro; exact out_indep m c g1)
  iexact Hout

/-! ## The obligation -/

set_option maxRecDepth 4000 in
def bodyPre' : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 65536 in
set_option maxHeartbeats 2000000 in
/-- The body obligation on device `c`. -/
theorem body_obligation : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m c)
  unfold bodyPre' Φ₀ start ghost
  iintro ⟨⟨⟨⟨%K, #HR, Hpos, Htoks⟩, Hcr, #Hlev⟩, Hrx, Hry⟩, Ho, Hx, Hout⟩
  iapply (sound_body m K c fun _ => bodyPost m c)
  unfold bodyPre ctx
  isplitr []
  · isplitl [Hpos Htoks Hcr Hrx Hry]
    · isplitr
      · isplitr; · iexact HR
        iexact Hlev
      isplitl [Hpos]; · iexact Hpos
      isplitl [Htoks]; · iexact Htoks
      isplitl [Hcr]; · iexact Hcr
      isplitl [Hrx]; · iexact Hrx
      iexact Hry
    isplitl [Ho]; · iexact Ho
    isplitl [Hx] <;> iassumption
  · iintro H; iexact H

end Cert.Kernel.P

end
-- ==== Proof.lean ====
/- The certificate's claim, assembled. On the 2 × 4 × 4 mesh every device holds the half of the rows of a 1024 × 512
   array that its first mesh coordinate names, and every device ends with the sum of the two halves. The run of the
   thirty-two devices from any memory, given each device's body obligation, leaves window 0 of the one launch (the
   device's block of the argument, an input nothing writes) as it was, and window 1 (its block of the result, written
   back whole) at what the body left in the output buffer. The first is the frame of the kernel, at the word level and
   over the extended reals alike. The output buffer holds the device's own rows plus what its two partners sent, which is
   the reference's result, the two halves of rows added; with the reference's own run that is the algebraic claim. The
   idealization rewrote no operation, so there is nothing to preserve. -/
import proofs.«900724_g7700000000000725_dist_ar_v7x_xyz2x4x4_x_m512_n512_f32_1_alg».proof.Defs
import proofs.«900724_g7700000000000725_dist_ar_v7x_xyz2x4x4_x_m512_n512_f32_1_alg».proof.Proof.Gen.Kernel
import proofs.«900724_g7700000000000725_dist_ar_v7x_xyz2x4x4_x_m512_n512_f32_1_alg».proof.Proof.Gen.Kernel.Skeleton
import proofs.«900724_g7700000000000725_dist_ar_v7x_xyz2x4x4_x_m512_n512_f32_1_alg».proof.Proof.Gen.Kernel.Launch
import proofs.«900724_g7700000000000725_dist_ar_v7x_xyz2x4x4_x_m512_n512_f32_1_alg».proof.Proof.Gen.Kernel.Points
import proofs.«900724_g7700000000000725_dist_ar_v7x_xyz2x4x4_x_m512_n512_f32_1_alg».proof.Proof.Gen.Kernel.Frame
import proofs.«900724_g7700000000000725_dist_ar_v7x_xyz2x4x4_x_m512_n512_f32_1_alg».proof.Proof.Gen.KernelIdeal
import proofs.«900724_g7700000000000725_dist_ar_v7x_xyz2x4x4_x_m512_n512_f32_1_alg».proof.Proof.Gen.KernelIdeal.Skeleton
import proofs.«900724_g7700000000000725_dist_ar_v7x_xyz2x4x4_x_m512_n512_f32_1_alg».proof.Proof.Gen.KernelIdeal.Launch
import proofs.«900724_g7700000000000725_dist_ar_v7x_xyz2x4x4_x_m512_n512_f32_1_alg».proof.Proof.Gen.KernelIdeal.Points
import proofs.«900724_g7700000000000725_dist_ar_v7x_xyz2x4x4_x_m512_n512_f32_1_alg».proof.Proof.Gen.KernelIdeal.Frame
import proofs.«900724_g7700000000000725_dist_ar_v7x_xyz2x4x4_x_m512_n512_f32_1_alg».proof.Proof.Gen.ReferenceIdeal
import proofs.«900724_g7700000000000725_dist_ar_v7x_xyz2x4x4_x_m512_n512_f32_1_alg».proof.Proof.Gen.Pre_finite_inputs_Kernel
import proofs.«900724_g7700000000000725_dist_ar_v7x_xyz2x4x4_x_m512_n512_f32_1_alg».proof.Proof.Gen.Pre_finite_inputs_ReferenceIdeal
import proofs.«900724_g7700000000000725_dist_ar_v7x_xyz2x4x4_x_m512_n512_f32_1_alg».proof.Proof.Launch2
import proofs.«900724_g7700000000000725_dist_ar_v7x_xyz2x4x4_x_m512_n512_f32_1_alg».proof.Proof.Body
import proofs.«900724_g7700000000000725_dist_ar_v7x_xyz2x4x4_x_m512_n512_f32_1_alg».proof.Proof.KernelValue
import proofs.«900724_g7700000000000725_dist_ar_v7x_xyz2x4x4_x_m512_n512_f32_1_alg».proof.Proof.RefValue
import proofs.«900724_g7700000000000725_dist_ar_v7x_xyz2x4x4_x_m512_n512_f32_1_alg».proof.Proof.Bits.Launch2
import proofs.«900724_g7700000000000725_dist_ar_v7x_xyz2x4x4_x_m512_n512_f32_1_alg».proof.Proof.Bits.Body
import Idealize.ShloMosaic.Adequacy
import Idealize.ShloMosaic.Init

noncomputable section

namespace Cert.Proof

open Idealize.ShloMosaic Idealize.SL.Sem

/-- The word-level kernel runs from any memory, and each device's block of the argument ends as it began: window 0
    of the one launch is the argument, an input that nothing writes. -/
theorem frame_kernel : Cert.frame_Kernel (hKernel := Cert.Kernel.Gen.facts) (hPre_finite_inputs_Kernel := Cert.Pre_finite_inputs_Kernel.Gen.facts) :=
  fun m ρ _ => (θ_run Cert.Kernel.defs _ _).mono (fun r h c => (h c (0 : Fin 2)).trans (Cert.Kernel.P.final_x m c))
    (Cert.Kernel.P.run_main m ρ (Cert.Kernel.P.body_obligation m))

/-- The same of the kernel read over the extended reals. -/
theorem frame_kernelIdeal : Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun r h c => (h c (0 : Fin 2)).trans (Cert.KernelIdeal.P.final_x m c))
    (Cert.KernelIdeal.P.run_main m ρ (Cert.KernelIdeal.P.body_obligation m))

/-- Both programs run; the reference's result is `refOut` of the whole argument, and every device's result block
    (window 1 of the launch, written back whole from the output buffer) is that same array: the output buffer holds
    the device's own rows plus its two partners' contributions, which is the sum of the argument's two halves of rows. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  fun m ρ m' ρ' _ hagree =>
    ⟨Cert.RefValue.refOut (m' (((0 : Dev Cert.ReferenceIdeal.nD).tc : Thread Cert.ReferenceIdeal.nD Cert.ReferenceIdeal.τ).loc Cert.ReferenceIdeal.main_arg0)),
      (θ_run Cert.KernelIdeal.defs _ _).mono
        (fun r h c => ⟨(h c (1 : Fin 2)).trans ((Cert.KernelIdeal.P.final_out m c).trans (Cert.KernelIdeal.P.out_value m _ hagree c)),
          (h c (0 : Fin 2)).trans (Cert.KernelIdeal.P.final_x m c)⟩)
        (Cert.KernelIdeal.P.run_main m ρ (Cert.KernelIdeal.P.body_obligation m)),
      Cert.RefValue.ref_run m' ρ'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_kernel, frame_kernelIdeal, Cert.RefValue.frame_ref, trivial, algebraic⟩

end Cert.Proof

end
